-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x3 : Shape := ⟨2, ![800000, 3]⟩
abbrev S128x128 : Shape := ⟨2, ![128, 128]⟩
abbrev S3x4 : Shape := ⟨2, ![3, 4]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S128x128 : S_.BroadcastsInDim S128x128 (![] : Fin 0 → Fin S128x128.rank)
  reducesTo_S128x128_S_d0_1 : S128x128.ReducesTo [0, 1] S_
  bcast_S_S3x4 : S_.BroadcastsInDim S3x4 (![] : Fin 0 → Fin S3x4.rank)
  reducesTo_S3x4_S_d0_1 : S3x4.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S128 .f32) (main_arg9 : FVec F S256x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S3x4 .f32) (main_arg7 : FVec F S128x128 .f32) (main_arg8 : FVec F S128 .f32) (main_arg9 : FVec F S256x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S3x4 .f32 := Host.absf main_arg6
  let main_cst_8 : FVec F S_ .f32 := constant S_ .f32 0x7F800000#32
  let main_v25 : FVec F S3x4 .f32 := broadcastInDim S3x4 ![] bcast_S_S3x4 main_cst_8
  let main_v26 : IVec S3x4 1 := cmpf .olt main_v24 main_v25
  let main_c_9 : IVec S_ 1 := constantI S_ 1 1#1
  let main_v27 : IVec S_ 1 := (fun x v => Host.reduce IntOp.andi x v reducesTo_S3x4_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000x3 .f32) (main_arg3 : FVec F S128x128 .f32) (main_arg4 : FVec F S128x128 .f32) (main_arg5 : FVec F S128x128 .f32) (main_arg6 : FVec F S3x4 .f32) (main_arg7 : FVec F S128x128 .f32) (main_arg8 : FVec F S128 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x3 .f32 := Host.absf main_arg2
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x3 : Shape := ⟨2, ![800000, 3]⟩
abbrev S128x128 : Shape := ⟨2, ![128, 128]⟩
abbrev S3x4 : Shape := ⟨2, ![3, 4]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S128x384 : Shape := ⟨2, ![128, 384]⟩
abbrev S50000x384 : Shape := ⟨2, ![50000, 384]⟩
abbrev S5000x128 : Shape := ⟨2, ![5000, 128]⟩
abbrev S5000x384 : Shape := ⟨2, ![5000, 384]⟩
abbrev S800000x4 : Shape := ⟨2, ![800000, 4]⟩
abbrev S_ : Shape := ⟨0, ![]⟩
abbrev S800000x1 : Shape := ⟨2, ![800000, 1]⟩
abbrev S800000x128 : Shape := ⟨2, ![800000, 128]⟩
abbrev S128x1 : Shape := ⟨2, ![128, 1]⟩
abbrev S4 : Shape := ⟨1, ![4]⟩
abbrev S1x4 : Shape := ⟨2, ![1, 4]⟩
abbrev S128x4 : Shape := ⟨2, ![128, 4]⟩
abbrev S4x128 : Shape := ⟨2, ![4, 128]⟩
abbrev S6400x128 : Shape := ⟨2, ![6400, 128]⟩
abbrev S6400x4 : Shape := ⟨2, ![6400, 4]⟩
abbrev S50000x4 : Shape := ⟨2, ![50000, 4]⟩
abbrev S1x128 : Shape := ⟨2, ![1, 128]⟩

abbrev nBuf : Space → Nat
  | .hbm => 106
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x3, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S3x4, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S128x384, .f32⟩
  | .hbm, ⟨16, _⟩ => ⟨S50000x384, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S800000x4, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S128, .i32⟩
  | .hbm, ⟨49, _⟩ => ⟨S128x1, .i32⟩
  | .hbm, ⟨50, _⟩ => ⟨S_, .i32⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S128x1, .i32⟩
  | .hbm, ⟨55, _⟩ => ⟨S_, .i32⟩
  | .hbm, ⟨56, _⟩ => ⟨S128x1, .i32⟩
  | .hbm, ⟨57, _⟩ => ⟨S128x1, .i1⟩
  | .hbm, ⟨58, _⟩ => ⟨S128x1, .i32⟩
  | .hbm, ⟨59, _⟩ => ⟨S128x1, .i32⟩
  | .hbm, ⟨60, _⟩ => ⟨S_, .i32⟩
  | .hbm, ⟨61, _⟩ => ⟨S128x1, .i32⟩
  | .hbm, ⟨62, _⟩ => ⟨S128x1, .i1⟩
  | .hbm, ⟨63, _⟩ => ⟨S128x1, .i1⟩
  | .hbm, ⟨64, _⟩ => ⟨S_, .i32⟩
  | .hbm, ⟨65, _⟩ => ⟨S128x1, .i32⟩
  | .hbm, ⟨66, _⟩ => ⟨S128x1, .i32⟩
  | .hbm, ⟨67, _⟩ => ⟨S128x1, .i32⟩
  | .hbm, ⟨68, _⟩ => ⟨S4, .i32⟩
  | .hbm, ⟨69, _⟩ => ⟨S1x4, .i32⟩
  | .hbm, ⟨70, _⟩ => ⟨S128x4, .i32⟩
  | .hbm, ⟨71, _⟩ => ⟨S128x4, .i32⟩
  | .hbm, ⟨72, _⟩ => ⟨S128x4, .i1⟩
  | .hbm, ⟨73, _⟩ => ⟨S128x4, .f32⟩
  | .hbm, ⟨74, _⟩ => ⟨S4x128, .f32⟩
  | .hbm, ⟨75, _⟩ => ⟨S800000x4, .f32⟩
  | .hbm, ⟨76, _⟩ => ⟨S_, .f32⟩
  | .hbm, ⟨77, _⟩ => ⟨S_, .f32⟩
  | .hbm, ⟨78, _⟩ => ⟨S800000x4, .f32⟩
  | .hbm, ⟨79, _⟩ => ⟨S800000x4, .f32⟩
  | .hbm, ⟨80, _⟩ => ⟨S800000x4, .f32⟩
  | .hbm, ⟨81, _⟩ => ⟨S_, .f32⟩
  | .hbm, ⟨82, _⟩ => ⟨S50000x4, .f32⟩
  | .hbm, ⟨83, _⟩ => ⟨S800000x1, .i32⟩
  | .hbm, ⟨84, _⟩ => ⟨S50000x4, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x4, .f32⟩
  | .hbm, ⟨94, _⟩ => ⟨S_, .f32⟩
  | .hbm, ⟨95, _⟩ => ⟨S800000x4, .f32⟩
  | .hbm, ⟨96, _⟩ => ⟨S800000x4, .f32⟩
  | .hbm, ⟨97, _⟩ => ⟨S800000x4, .f32⟩
  | .hbm, ⟨98, _⟩ => ⟨S800000x128, .f32⟩
  | .hbm, ⟨99, _⟩ => ⟨S_, .f32⟩
  | .hbm, ⟨100, _⟩ => ⟨S50000x128, .f32⟩
  | .hbm, ⟨101, _⟩ => ⟨S800000x1, .i32⟩
  | .hbm, ⟨102, _⟩ => ⟨S50000x128, .f32⟩
  | .hbm, ⟨103, _⟩ => ⟨S128x128, .f32⟩
  | .hbm, ⟨104, _⟩ => ⟨S128x128, .f32⟩
  | .hbm, ⟨105, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S5000x384, .f32⟩
  | .local _ .vmem, ⟨4, _⟩ => ⟨S5000x384, .f32⟩
  | .local _ .vmem, ⟨5, _⟩ => ⟨S6400x128, .f32⟩
  | .local _ .vmem, ⟨6, _⟩ => ⟨S6400x128, .f32⟩
  | .local _ .vmem, ⟨7, _⟩ => ⟨S6400x128, .f32⟩
  | .local _ .vmem, ⟨8, _⟩ => ⟨S6400x128, .f32⟩
  | .local _ .vmem, ⟨9, _⟩ => ⟨S6400x4, .f32⟩
  | .local _ .vmem, ⟨10, _⟩ => ⟨S6400x4, .f32⟩
  | .local _ .vmem, ⟨11, _⟩ => ⟨S128x4, .f32⟩
  | .local _ .vmem, ⟨12, _⟩ => ⟨S6400x4, .f32⟩
  | .local _ .vmem, ⟨13, _⟩ => ⟨S6400x4, .f32⟩
  | .local _ .vmem, ⟨14, _⟩ => ⟨S6400x128, .f32⟩
  | .local _ .vmem, ⟨15, _⟩ => ⟨S6400x128, .f32⟩
  | .local _ .vmem, ⟨16, _⟩ => ⟨S6400x4, .f32⟩
  | .local _ .vmem, ⟨17, _⟩ => ⟨S6400x4, .f32⟩
  | .local _ .vmem, ⟨18, _⟩ => ⟨S4x128, .f32⟩
  | .local _ .vmem, ⟨19, _⟩ => ⟨S6400x128, .f32⟩
  | .local _ .vmem, ⟨20, _⟩ => ⟨S6400x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128, .f32⟩
  | .local _ .vmem, ⟨27, _⟩ => ⟨S128x128, .f32⟩
  | .local _ .vmem, ⟨28, _⟩ => ⟨S128x128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_c : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_0 : Ref sig .tc := ⟨.hbm, 64, rfl⟩
abbrev main_call0_v12 : Ref sig .tc := ⟨.hbm, 65, rfl⟩
abbrev main_call0_v13 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_6 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_7 : Ref sig .tc := ⟨.hbm, 85, rfl⟩
abbrev main_v49 : Ref sig .tc := ⟨.hbm, 86, rfl⟩
abbrev main_v50 : Ref sig .tc := ⟨.hbm, 87, rfl⟩
abbrev main_c_8 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_10 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6400x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S128x128_S128x128_S128x128_S128x384_d1 : Shape.Concatenates [S128x128, S128x128, S128x128] S128x384 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S128_S128x1_0 : S128.BroadcastsInDim S128x1 (![0] : Fin 1 → Fin S128x1.rank)
  bcast_S_S128x1 : S_.BroadcastsInDim S128x1 (![] : Fin 0 → Fin S128x1.rank)
  bcast_S4_S1x4_1 : S4.BroadcastsInDim S1x4 (![1] : Fin 1 → Fin S1x4.rank)
  bcast_S128x1_S128x4_0_1 : S128x1.BroadcastsInDim S128x4 (![0, 1] : Fin 2 → Fin S128x4.rank)
  bcast_S1x4_S128x4_0_1 : S1x4.BroadcastsInDim S128x4 (![0, 1] : Fin 2 → Fin S128x4.rank)
  transposes_S128x4_S4x128_1_0 : S128x4.Transposes [1, 0] S4x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S6400x4_S6400x4_0_0 : ∀ a, (![0, 0] : Fin 2 → Nat) a + S6400x4.size a ≤ S6400x4.size a
  h_S6400x4 : 0 < S6400x4.numel
  shapeCasts_S6400x4_S6400x4 : S6400x4.ShapeCasts S6400x4
  reducesTo_S800000x4_S_d0_1 : S800000x4.ReducesTo [0, 1] S_
  h_S_ : 0 < S_.numel
  bcast_S_S800000x4 : S_.BroadcastsInDim S800000x4 (![] : Fin 0 → Fin S800000x4.rank)
  bcast_S_S50000x4 : S_.BroadcastsInDim S50000x4 (![] : Fin 0 → Fin S50000x4.rank)
  inb_S4x128_S4x128_0_0 : ∀ a, (![0, 0] : Fin 2 → Nat) a + S4x128.size a ≤ S4x128.size a
  h_S4x128 : 0 < S4x128.numel
  shapeCasts_S4x128_S4x128 : S4x128.ShapeCasts S4x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S128x128_S128x128 : S128x128.ShapeCasts S128x128
  dot_S5000x128_S128x384_S5000x384_1_0_0_1_n_n_wf : DotDims.WF S5000x128 S128x384 S5000x384 [1] [0] [0] [1] [] []
  dot_S800000x3_S3x4_S800000x4_1_0_0_1_n_n_wf : DotDims.WF S800000x3 S3x4 S800000x4 [1] [0] [0] [1] [] []
  gather_S50000x128_S800000x1_S800000x128_1_0_n_n_0_1_1128_wf : GatherDims.WF S50000x128 S800000x1 S800000x128 [1] [0] [] [0] [] 1 ![1, 128]
  dot_S6400x128_S128x4_S6400x4_1_0_0_1_n_n_wf : DotDims.WF S6400x128 S128x4 S6400x4 [1] [0] [0] [1] [] []
  scatter_S50000x4_S800000x1_S800000x4_1_0_0_1_wf : ScatterDims.WF S50000x4 S800000x1 S800000x4 [1] [0] [0] 1
  gather_S50000x4_S800000x1_S800000x4_1_0_n_n_0_1_14_wf : GatherDims.WF S50000x4 S800000x1 S800000x4 [1] [0] [] [0] [] 1 ![1, 4]
  dot_S6400x4_S4x128_S6400x128_1_0_0_1_n_n_wf : DotDims.WF S6400x4 S4x128 S6400x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x384.size a ≤ S50000x384.size a
  hwx0_2 : ∀ i : grid0.Coords, EltTy.bits .f32 = 32 ∨ (Rect.block (s := S50000x384) S5000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .f32 = 32 ∨ (Rect.block (s := S800000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S800000x128.size a
  hwx1_1 : ∀ i : grid1.Coords, EltTy.bits .f32 = 32 ∨ (Rect.block (s := S800000x128) S6400x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x4.size a ≤ S800000x4.size a
  hwx1_2 : ∀ i : grid1.Coords, EltTy.bits .f32 = 32 ∨ (Rect.block (s := S800000x4) S6400x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x4.size a ≤ S128x4.size a
  hwx1_3 : ∀ i : grid1.Coords, EltTy.bits .f32 = 32 ∨ (Rect.block (s := S128x4) S128x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6400x4.size a ≤ S800000x4.size a
  hwx1_4 : ∀ i : grid1.Coords, EltTy.bits .f32 = 32 ∨ (Rect.block (s := S800000x4) S6400x4.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S800000x128.size a
  hwx2_0 : ∀ i : grid2.Coords, EltTy.bits .f32 = 32 ∨ (Rect.block (s := S800000x128) S6400x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x4.size a ≤ S800000x4.size a
  hwx2_1 : ∀ i : grid2.Coords, EltTy.bits .f32 = 32 ∨ (Rect.block (s := S800000x4) S6400x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x128.size a ≤ S4x128.size a
  hwx2_2 : ∀ i : grid2.Coords, EltTy.bits .f32 = 32 ∨ (Rect.block (s := S4x128) S4x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6400x128.size a ≤ S800000x128.size a
  hwx2_3 : ∀ i : grid2.Coords, EltTy.bits .f32 = 32 ∨ (Rect.block (s := S800000x128) S6400x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def dot_S800000x3_S3x4_S800000x4_1_0_0_1_n_n : DotDims S800000x3 S3x4 S800000x4 where
  lhsContracting := [1]
  rhsContracting := [0]
  lhsNonContracting := [0]
  rhsNonContracting := [1]
  lhsBatch := []
  rhsBatch := []
  wf := dot_S800000x3_S3x4_S800000x4_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x4_S6400x4_1_0_0_1_n_n : DotDims S6400x128 S128x4 S6400x4 where
  lhsContracting := [1]
  rhsContracting := [0]
  lhsNonContracting := [0]
  rhsNonContracting := [1]
  lhsBatch := []
  rhsBatch := []
  wf := dot_S6400x128_S128x4_S6400x4_1_0_0_1_n_n_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def dot_S6400x4_S4x128_S6400x128_1_0_0_1_n_n : DotDims S6400x4 S4x128 S6400x128 where
  lhsContracting := [1]
  rhsContracting := [0]
  lhsNonContracting := [0]
  rhsNonContracting := [1]
  lhsBatch := []
  rhsBatch := []
  wf := dot_S6400x4_S4x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S6400x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S6400x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S6400x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S4x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S6400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg10) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v65) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x3 : Shape := ⟨2, ![800000, 3]⟩
abbrev S128x128 : Shape := ⟨2, ![128, 128]⟩
abbrev S3x4 : Shape := ⟨2, ![3, 4]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S50000x4x32 : Shape := ⟨3, ![50000, 4, 32]⟩
abbrev S800000x4 : Shape := ⟨2, ![800000, 4]⟩
abbrev S_ : Shape := ⟨0, ![]⟩
abbrev S800000x1 : Shape := ⟨2, ![800000, 1]⟩
abbrev S800000x4x32 : Shape := ⟨3, ![800000, 4, 32]⟩
abbrev S50000x4 : Shape := ⟨2, ![50000, 4]⟩
abbrev S800000x4x1 : Shape := ⟨3, ![800000, 4, 1]⟩
abbrev S1x128 : Shape := ⟨2, ![1, 128]⟩
abbrev S50000x256 : Shape := ⟨2, ![50000, 256]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x3, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S3x4, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .f32⟩
  | .hbm, ⟨16, _⟩ => ⟨S50000x4x32, .f32⟩
  | .hbm, ⟨17, _⟩ => ⟨S50000x128, .f32⟩
  | .hbm, ⟨18, _⟩ => ⟨S50000x4x32, .f32⟩
  | .hbm, ⟨19, _⟩ => ⟨S50000x128, .f32⟩
  | .hbm, ⟨20, _⟩ => ⟨S50000x4x32, .f32⟩
  | .hbm, ⟨21, _⟩ => ⟨S800000x4, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x4x32, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x4x32, .f32⟩
  | .hbm, ⟨40, _⟩ => ⟨S800000x4x32, .f32⟩
  | .hbm, ⟨41, _⟩ => ⟨S_, .f32⟩
  | .hbm, ⟨42, _⟩ => ⟨S800000x4, .f32⟩
  | .hbm, ⟨43, _⟩ => ⟨S_, .f32⟩
  | .hbm, ⟨44, _⟩ => ⟨S800000x4, .f32⟩
  | .hbm, ⟨45, _⟩ => ⟨S800000x4, .f32⟩
  | .hbm, ⟨46, _⟩ => ⟨S800000x4, .f32⟩
  | .hbm, ⟨47, _⟩ => ⟨S_, .f32⟩
  | .hbm, ⟨48, _⟩ => ⟨S800000x4, .f32⟩
  | .hbm, ⟨49, _⟩ => ⟨S800000x4, .i1⟩
  | .hbm, ⟨50, _⟩ => ⟨S_, .f32⟩
  | .hbm, ⟨51, _⟩ => ⟨S800000x4, .f32⟩
  | .hbm, ⟨52, _⟩ => ⟨S800000x4, .f32⟩
  | .hbm, ⟨53, _⟩ => ⟨S800000x4, .f32⟩
  | .hbm, ⟨54, _⟩ => ⟨S_, .f32⟩
  | .hbm, ⟨55, _⟩ => ⟨S_, .f32⟩
  | .hbm, ⟨56, _⟩ => ⟨S800000x4, .f32⟩
  | .hbm, ⟨57, _⟩ => ⟨S800000x4, .f32⟩
  | .hbm, ⟨58, _⟩ => ⟨S800000x4, .f32⟩
  | .hbm, ⟨59, _⟩ => ⟨S_, .f32⟩
  | .hbm, ⟨60, _⟩ => ⟨S50000x4, .f32⟩
  | .hbm, ⟨61, _⟩ => ⟨S800000x1, .i32⟩
  | .hbm, ⟨62, _⟩ => ⟨S50000x4, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x4, .f32⟩
  | .hbm, ⟨72, _⟩ => ⟨S_, .f32⟩
  | .hbm, ⟨73, _⟩ => ⟨S800000x4, .f32⟩
  | .hbm, ⟨74, _⟩ => ⟨S800000x4, .f32⟩
  | .hbm, ⟨75, _⟩ => ⟨S800000x4, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x4x32, .f32⟩
  | .hbm, ⟨85, _⟩ => ⟨S800000x4x1, .f32⟩
  | .hbm, ⟨86, _⟩ => ⟨S800000x4x32, .f32⟩
  | .hbm, ⟨87, _⟩ => ⟨S800000x4x32, .f32⟩
  | .hbm, ⟨88, _⟩ => ⟨S_, .f32⟩
  | .hbm, ⟨89, _⟩ => ⟨S50000x4x32, .f32⟩
  | .hbm, ⟨90, _⟩ => ⟨S800000x1, .i32⟩
  | .hbm, ⟨91, _⟩ => ⟨S50000x4x32, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S50000x256, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000x128, .f32⟩
  | .hbm, ⟨104, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call1_cst : Ref sig .tc := ⟨.hbm, 102, rfl⟩
abbrev main_call1_v0 : Ref sig .tc := ⟨.hbm, 103, rfl⟩
abbrev main_v75 : Ref sig .tc := ⟨.hbm, 104, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000x128_S50000x4x32 : S50000x128.ShapeCasts S50000x4x32
  bcast_S_S800000 : S_.BroadcastsInDim S800000 (![] : Fin 0 → Fin S800000.rank)
  bcast_S800000_S800000x1_0 : S800000.BroadcastsInDim S800000x1 (![0] : Fin 1 → Fin S800000x1.rank)
  reducesTo_S800000x4x32_S800000x4_d2 : S800000x4x32.ReducesTo [2] S800000x4
  h_S_ : 0 < S_.numel
  bcast_S_S800000x4 : S_.BroadcastsInDim S800000x4 (![] : Fin 0 → Fin S800000x4.rank)
  reducesTo_S800000x4_S_d0_1 : S800000x4.ReducesTo [0, 1] S_
  bcast_S_S50000x4 : S_.BroadcastsInDim S50000x4 (![] : Fin 0 → Fin S50000x4.rank)
  bcast_S800000x4_S800000x4x1_0_1 : S800000x4.BroadcastsInDim S800000x4x1 (![0, 1] : Fin 2 → Fin S800000x4x1.rank)
  bcast_S800000x4x1_S800000x4x32_0_1_2 : S800000x4x1.BroadcastsInDim S800000x4x32 (![0, 1, 2] : Fin 3 → Fin S800000x4x32.rank)
  bcast_S_S50000x4x32 : S_.BroadcastsInDim S50000x4x32 (![] : Fin 0 → Fin S50000x4x32.rank)
  shapeCasts_S50000x4x32_S50000x128 : S50000x4x32.ShapeCasts S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  dot_S800000x3_S3x4_S800000x4_1_0_0_1_n_n_wf : DotDims.WF S800000x3 S3x4 S800000x4 [1] [0] [0] [1] [] []
  gather_S50000x4x32_S800000x1_S800000x4x32_12_0_n_n_0_1_1432_wf : GatherDims.WF S50000x4x32 S800000x1 S800000x4x32 [1, 2] [0] [] [0] [] 1 ![1, 4, 32]
  scatter_S50000x4_S800000x1_S800000x4_1_0_0_1_wf : ScatterDims.WF S50000x4 S800000x1 S800000x4 [1] [0] [0] 1
  gather_S50000x4_S800000x1_S800000x4_1_0_n_n_0_1_14_wf : GatherDims.WF S50000x4 S800000x1 S800000x4 [1] [0] [] [0] [] 1 ![1, 4]
  scatter_S50000x4x32_S800000x1_S800000x4x32_12_0_0_1_wf : ScatterDims.WF S50000x4x32 S800000x1 S800000x4x32 [1, 2] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x3_S3x4_S800000x4_1_0_0_1_n_n : DotDims S800000x3 S3x4 S800000x4 where
  lhsContracting := [1]
  rhsContracting := [0]
  lhsNonContracting := [0]
  rhsNonContracting := [1]
  lhsBatch := []
  rhsBatch := []
  wf := dot_S800000x3_S3x4_S800000x4_1_0_0_1_n_n_wf
def gather_S50000x4x32_S800000x1_S800000x4x32_12_0_n_n_0_1_1432 : GatherDims S50000x4x32 S800000x1 S800000x4x32 where
  offsetDims := [1, 2]
  collapsedSliceDims := [0]
  operandBatchingDims := []
  startIndicesBatchingDims := []
  startIndexMap := [0]
  indexVectorDim := 1
  sliceSizes := ![1, 4, 32]
  wf := gather_S50000x4x32_S800000x1_S800000x4x32_12_0_n_n_0_1_1432_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000x4x32_S800000x1_S800000x4x32_12_0_0_1 : ScatterDims S50000x4x32 S800000x1 S800000x4x32 where
  updateWindowDims := [1, 2]
  insertedWindowDims := [0]
  scatterDimsToOperandDims := [0]
  indexVectorDim := 1
  wf := scatter_S50000x4x32_S800000x1_S800000x4x32_12_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KReg0.lean ====
import proofs.«163383_j64295660421655_1_alg».proof.Proof.Gen.Kernel.Launch
import proofs.«163383_j64295660421655_1_alg».proof.Proof.Gen.Kernel.Skeleton
import proofs.«163383_j64295660421655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  Region 0 of @main: the projection  y = x · w  of the 50000 × 128 node features x by the 128 × 384 weight
  table w (the three projections side by side), computed in ten row blocks of 5000 rows.

  At grid point t the body sees three blocks: rows 5000·t … 5000·t + 4999 of x (window 0), all of w
  (window 1, the same block at every point), and rows 5000·t … of y (window 2, the result).  It reads the first
  two whole, and overwrites the third whole with one value that depends on the first two only.  So what it leaves
  is a function of the two input blocks, the input blocks stay as they were, and nothing else is touched.

  Everything is stated for an arbitrary float instance F and an arbitrary memory V found at the region's entry.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three blocks at a grid point -/

/-- The block of window w at grid point t, cut out of that window's array as the region finds it:
    for x and y the 5000 rows starting at row 5000·t, for the table all of it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## An input block is in place whenever the body runs

Both input windows are read-only for the body, cover their arrays by whole blocks, and are live at every point.
For such a window the block the body finds is the one belonging to the point, whether it was brought in at this
very point or at an earlier one: between two fetches the block index does not move, and a block left untouched
is still that block. -/

/-- Rows 5000·t … of x are in place at point t, for any bookkeeping that starts from V and records the
    body as leaving this block unchanged. -/
theorem before0_0_of {c : Dev nD} (dat : Dat τ (Elt F) Unit ℕ (UR sig nD τ) ℕ cfg0 c)
    (hA : dat.A 0 = V c (Pipeline.arrRef spec0 0))
    (hafter : ∀ t, dat.after 0 t = iblk0 V c 0 t) (t : Fin cfg0.N) (d) :
    dat.before 0 t d = iblk0 V c 0 t := by
  -- the block read off the bookkeeping's array is the block read off V's
  have hblk : ∀ s : Fin cfg0.N, dat.blockOf 0 s = iblk0 V c 0 s := fun s =>
    congrArg (((cfg0.win 0).blk s).view.read (Elt F)) hA
  refine (dat.before_in_eq_fetched 0 rfl (fun _ => rfl) (fun _ _ _ => rfl) (fun s => ?_) t d).trans (hblk t)
  exact (hafter s).trans (hblk s).symm

/-- The table w is in place at every point, although it is brought in only once, at the first: its block index
    is constant, so the one block fetched is the block of every later point too. -/
theorem before0_1_of {c : Dev nD} (dat : Dat τ (Elt F) Unit ℕ (UR sig nD τ) ℕ cfg0 c)
    (hA : dat.A 1 = V c (Pipeline.arrRef spec0 1))
    (hafter : ∀ t, dat.after 1 t = iblk0 V c 1 t) (t : Fin cfg0.N) (d) :
    dat.before 1 t d = iblk0 V c 1 t := by
  have hblk : ∀ s : Fin cfg0.N, dat.blockOf 1 s = iblk0 V c 1 s := fun s =>
    congrArg (((cfg0.win 1).blk s).view.read (Elt F)) hA
  refine (dat.before_in_eq_fetched 1 rfl (fun _ => rfl) (fun _ _ _ => rfl) (fun s => ?_) t d).trans (hblk t)
  exact (hafter s).trans (hblk s).symm

/-! ## What the body writes

The body makes three whole-block loads and one whole-block store.  Each is through the rectangle that starts at
the block's origin and has the block's own extents, so a load returns the block itself and the store replaces all
of the result block. -/

/-- All of a 5000 × 128 block of x. -/
abbrev allX0 : Rect S5000x128 := Rect.unit (s := S5000x128) ![0, 0] S5000x128.size inb_S5000x128_S5000x128_0_0
/-- All of the 128 × 384 table. -/
abbrev allW0 : Rect S128x384 := Rect.unit (s := S128x384) ![0, 0] S128x384.size inb_S128x384_S128x384_0_0
/-- All of a 5000 × 384 block of y. -/
abbrev allY0 : Rect S5000x384 := Rect.unit (s := S5000x384) ![0, 0] S5000x384.size inb_S5000x384_S5000x384_0_0

/-- The block of y the body leaves, as a function of the block of x and the table it read: the one stored value,
    the product of the two (each rounded to the short format first, summed from zero), laid over the whole block. -/
def out0_2 (x : Vec F S5000x128 .f32) (w : Vec F S128x384 .f32) : Vec F S5000x384 .f32 :=
  View.canon [⟨allY0, k0_pay1 (View.ld x allX0) (View.ld w allW0)⟩]

/-- One rectangle of the block's own extents, placed at the origin, contains every index of the block. -/
theorem cover0_2 (p : Vec F S5000x384 .f32) (y : S5000x384.Idx) :
    ∃ pc ∈ ([⟨allY0, p⟩] : List (View.Piece (Elt F) S5000x384 .f32)), y ∈ pc.1.set :=
  View.cover_of_tiled [⟨allY0, p⟩] S5000x384.size (by rfl) y

/-! ## The body, run once

Given the x block and the table in their buffers and the result buffer holding anything, the body ends with the
two inputs unchanged and the result buffer holding out0_2 of them.  The old contents of the result buffer are read
once but the value read is never used, and the store that follows replaces every element. -/

set_option maxHeartbeats 1000000 in
theorem sound_kernel0 (c : Dev nD) (E : Set ℕ) (i : grid0.Coords)
    (arg1 : Memref sig .tc .vmem S5000x128 .f32) (harg1 : arg1.IsWhole)
    (arg2 : Memref sig .tc .vmem S128x384 .f32) (harg2 : arg2.IsWhole)
    (arg3 : Memref sig .tc .vmem S5000x384 .f32) (harg3 : arg3.IsWhole)
    (x : Vec F S5000x128 .f32) (w : Vec F S128x384 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (out0_2 x w)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%fx, %hx, Hx⟩, ⟨%fw, %hw, Hw⟩, ⟨%dy, %fy, -, Hy⟩, Hk⟩
  subst hx hw
  sl_exec
  sl_step
  iapply Hk
  -- the two inputs were only read: each buffer still holds the contents it was given
  isplitl [Hx]
  · iexists fx; isplitr
    · ipureintro; rfl
    · iexact Hx
  isplitl [Hw]
  · iexists fw; isplitr
    · ipureintro; rfl
    · iexact Hw
  -- the result buffer holds its old contents with one store laid over them; the store's rectangle is the whole
  -- block, so what is read back is the stored value alone
  iexists _; isplitr
  rotate_left
  · iexact Hy
  · ipureintro
    exact View.read_writes_eq_canon _ _ _ (cover0_2 _)

/-! ## The bookkeeping of the ten-point run

The arrays start as V has them.  After the body at point t the two input buffers hold their blocks at t and the
result buffer holds out0_2 of those two blocks.  The body keeps no state of its own between points, owes nothing
to another core, and holds every buffer outright. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The run starts from the arrays V holds. -/
theorem A_eq0 (c : Dev nD) (w : Fin cfg0.W) : (dat0 V c).A w = V c (Pipeline.arrRef spec0 w) := by
  dsimp only [dat0]

/-- After the body the x buffer holds the x block, -/
theorem after0_0 (c : Dev nD) (t : Fin cfg0.N) : (dat0 V c).after 0 t = iblk0 V c 0 t := by
  dsimp only [dat0]
/-- the table's buffer holds the table, -/
theorem after0_1 (c : Dev nD) (t : Fin cfg0.N) : (dat0 V c).after 1 t = iblk0 V c 1 t := by
  dsimp only [dat0]
/-- and the result buffer holds the product of the two. -/
theorem after0_2 (c : Dev nD) (t : Fin cfg0.N) :
    (dat0 V c).after 2 t = out0_2 (iblk0 V c 0 t) (iblk0 V c 1 t) := by
  dsimp only [dat0]

/-- Before the body at point t the x buffer holds the x block at t, -/
theorem before0_0 (c : Dev nD) (t : Fin cfg0.N) (d) : (dat0 V c).before 0 t d = iblk0 V c 0 t :=
  before0_0_of V (dat0 V c) (A_eq0 V c 0) (after0_0 V c) t d
/-- and the table's buffer holds the table. -/
theorem before0_1 (c : Dev nD) (t : Fin cfg0.N) (d) : (dat0 V c).before 1 t d = iblk0 V c 1 t :=
  before0_1_of V (dat0 V c) (A_eq0 V c 1) (after0_1 V c) t d

/-! ## The body at a grid point -/

/-- What the body is given at point t: the invariant, what the core owes, and the three current buffers, the
    inputs at their blocks and the result at whatever it holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it gives back: the same invariant and debt, and the three buffers at what the bookkeeping records. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at point t takes the first to the second: the inputs are in place, so the single-run statement
    applies with x and w the two blocks at t; the invariant and the debt are not looked at. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  -- name the contents: inputs by their blocks, result by its closed form; the invariant and the debt do not
  -- depend on the point
  simp only [before0_0, before0_1]
  rw [after0_0, after0_1, after0_2,
    show (dat0 V c).Φ t.succ = (dat0 V c).Φ t.castSucc from rfl,
    show (dat0 V c).owesAt () t.succ = (dat0 V c).owesAt () t.castSucc from rfl]
  iintro ⟨HΦ, Howe, ⟨%dx, Hx⟩, ⟨%dw, Hw⟩, ⟨%dy, Hy⟩⟩
  iapply (sound_kernel0 c Set.univ (grid0.coords t) _ _ _ _ _ _ (iblk0 V c 0 t) (iblk0 V c 1 t) _)
  isplitl [Hx]; · iexact Hx
  isplitl [Hw]; · iexact Hw
  isplitl [Hy]; · iexists _; iexact Hy
  iintro ⟨Hx, Hw, Hy⟩
  isplitl [HΦ]; · iexact HΦ
  isplitl [Howe]; · iexact Howe
  isplitl [Hx]; · iexact Hx
  isplitl [Hw]; · iexact Hw
  iexact Hy

/-- So the body meets what the ten-point loop asks of it at every point. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.KReg1.lean ====
import proofs.«163383_j64295660421655_1_alg».proof.Proof.Gen.Kernel.Launch
import proofs.«163383_j64295660421655_1_alg».proof.Proof.Gen.Kernel.Skeleton
import proofs.«163383_j64295660421655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  # The attention-score pipeline, one grid point at a time

  The attention-score kernel, second of the program's four, walks the 800000 edges in 125 slabs of 6400 rows. At slab `t` it is
  handed four staging buffers — rows `6400·t …` of the gathered queries (window 0), of the gathered keys
  (window 1) and of the edge bias (window 2), and the whole 128×4 head table (window 3) — and fills a fifth
  (window 4) with the slab's 6400×4 logits in ONE store over the whole buffer.

  This file states, for buffer contents `V` of the core when the pipeline starts and for any float instance:

  * what every input buffer holds when the body runs at slab `t`: the slab's rows of its array as `V` has it
    (`iblk1`, `before1_w`). The head table is copied in once, at the first slab; its block index never moves,
    so the buffer still holds the table at every later slab;
  * what the body leaves in the output buffer: the stored value, a function of the four input blocks alone
    (`out1_4`), because the one store covers the buffer (`cover1_4`);
  * the Hoare triple of the body on arbitrary whole staging buffers (`sound_kernel1`), and from it the
    obligation the pipeline rule asks at every slab (`body_obligation1`) for the proof data `dat1`.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The slab of each array at a grid point -/

/-- The rows of window `w`'s array that belong to slab `t`, read off the array as `V` holds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs: each buffer holds its slab whenever the body runs

For proof data `dat` that start from `V`'s array (`hA`) and whose body hands the buffer back as it found it
(`hafter`), the buffer of an input window at slab `t` holds slab `t` of the array. Where the slab was just
copied in this is what a copy leaves; where it was not, the block index has not moved since the last copy and
the body kept the buffer, so it is the same rows. The slabs tile the arrays, so nothing is cut and a copy
fills the whole buffer. -/

/-- Window 0, the gathered queries: rows `6400·t …`, copied in at every slab. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hblk : ∀ s, dat.blockOf 0 s = iblk1 V c 0 s := fun s => by unfold Dat.blockOf iblk1; rw [hA]
  have hkeep : ∀ s, (cfg1.win 0).cut (cfg1.grid.coords s) (dat.after 0 s) = dat.blockOf 0 s := fun s => by
    rw [hafter, hblk]
  refine (dat.before_in_eq_fetched 0 rfl (fun _ => rfl) (fun _ _ _ => rfl) hkeep t d).trans ?_
  exact (show dat.fetched 0 t d = dat.blockOf 0 t from rfl).trans (hblk t)

/-- Window 1, the gathered keys: rows `6400·t …`, copied in at every slab. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hblk : ∀ s, dat.blockOf 1 s = iblk1 V c 1 s := fun s => by unfold Dat.blockOf iblk1; rw [hA]
  have hkeep : ∀ s, (cfg1.win 1).cut (cfg1.grid.coords s) (dat.after 1 s) = dat.blockOf 1 s := fun s => by
    rw [hafter, hblk]
  refine (dat.before_in_eq_fetched 1 rfl (fun _ => rfl) (fun _ _ _ => rfl) hkeep t d).trans ?_
  exact (show dat.fetched 1 t d = dat.blockOf 1 t from rfl).trans (hblk t)

/-- Window 2, the edge bias: rows `6400·t …` of the 800000×4 array, copied in at every slab. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hblk : ∀ s, dat.blockOf 2 s = iblk1 V c 2 s := fun s => by unfold Dat.blockOf iblk1; rw [hA]
  have hkeep : ∀ s, (cfg1.win 2).cut (cfg1.grid.coords s) (dat.after 2 s) = dat.blockOf 2 s := fun s => by
    rw [hafter, hblk]
  refine (dat.before_in_eq_fetched 2 rfl (fun _ => rfl) (fun _ _ _ => rfl) hkeep t d).trans ?_
  exact (show dat.fetched 2 t d = dat.blockOf 2 t from rfl).trans (hblk t)

/-- Window 3, the head table: the whole 128×4 array at every slab. It is copied in at the first slab only; its
    block index is the constant (0, 0), so at a later slab the buffer the body kept still holds it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hblk : ∀ s, dat.blockOf 3 s = iblk1 V c 3 s := fun s => by unfold Dat.blockOf iblk1; rw [hA]
  have hkeep : ∀ s, (cfg1.win 3).cut (cfg1.grid.coords s) (dat.after 3 s) = dat.blockOf 3 s := fun s => by
    rw [hafter, hblk]
  refine (dat.before_in_eq_fetched 3 rfl (fun _ => rfl) (fun _ _ _ => rfl) hkeep t d).trans ?_
  exact (show dat.fetched 3 t d = dat.blockOf 3 t from rfl).trans (hblk t)

/-! ## The output: one store over the whole 6400×4 buffer -/

/-- The three rectangles the body touches: all of a 6400×128 buffer, all of the 128×4 table, all of a 6400×4
    buffer. -/
abbrev slabRows128_1 : Rect S6400x128 := Rect.unit (s := S6400x128) ![0, 0] S6400x128.size inb_S6400x128_S6400x128_0_0
abbrev headTable_1 : Rect S128x4 := Rect.unit (s := S128x4) ![0, 0] S128x4.size inb_S128x4_S128x4_0_0
abbrev slabRows4_1 : Rect S6400x4 := Rect.unit (s := S6400x4) ![0, 0] S6400x4.size inb_S6400x4_S6400x4_0_0

/-- What the body leaves in the output buffer, as a function of the four input buffers' contents (queries,
    keys, edge bias, head table — the windows' order): the logits of the slab, laid over the whole buffer. The
    stored value reads the queries and keys first, then the table, then the bias. -/
def out1_4 (q k : Vec F S6400x128 .f32) (eb : Vec F S6400x4 .f32) (g : Vec F S128x4 .f32) : Vec F S6400x4 .f32 :=
  View.canon [⟨slabRows4_1, k1_pay1 (View.ld q slabRows128_1) (View.ld k slabRows128_1) (View.ld g headTable_1) (View.ld eb slabRows4_1)⟩]

/-- The one store is the buffer-sized block at offset (0, 0): every index of the buffer lies in it. -/
theorem cover1_4 (p : Vec F S6400x4 .f32) (y : S6400x4.Idx) :
    ∃ pc ∈ ([⟨slabRows4_1, p⟩] : List (View.Piece (Elt F) S6400x4 .f32)), y ∈ pc.1.set :=
  View.cover_of_tiled [⟨slabRows4_1, p⟩] S6400x4.size (by rfl) y

/-! ## The body on arbitrary whole buffers -/

set_option maxHeartbeats 1000000 in
/-- Run on five whole staging buffers, the four inputs reading `q`, `k`, `eb`, `g` and the output holding
    anything, the body reads the inputs (and, idly, the output), stores the logits over the output and returns:
    the inputs read what they read before, the output reads `out1_4 q k eb g`. The body is its sequence of five
    loads and one store over the named stored value; the single store covers the output, so what the output
    reads afterwards does not depend on what it held. -/
theorem sound_kernel1 (c : Dev nD) (E : Set ℕ) (i : grid1.Coords)
    (arg1 : Memref sig .tc .vmem S6400x128 .f32) (harg1 : arg1.IsWhole) (arg2 : Memref sig .tc .vmem S6400x128 .f32) (harg2 : arg2.IsWhole)
    (arg3 : Memref sig .tc .vmem S6400x4 .f32) (harg3 : arg3.IsWhole) (arg4 : Memref sig .tc .vmem S128x4 .f32) (harg4 : arg4.IsWhole)
    (arg5 : Memref sig .tc .vmem S6400x4 .f32) (harg5 : arg5.IsWhole)
    (q k : Vec F S6400x128 .f32) (eb : Vec F S6400x4 .f32) (g : Vec F S128x4 .f32) (K : PUnit → sProp 𝕄) :
    iprop(owns (c : Thread nD τ) arg1 fullShare q ∗ owns (c : Thread nD τ) arg2 fullShare k
        ∗ owns (c : Thread nD τ) arg3 fullShare eb ∗ owns (c : Thread nD τ) arg4 fullShare g
        ∗ (∃ d, owns (c : Thread nD τ) arg5 fullShare d)
        ∗ (iprop(owns (c : Thread nD τ) arg1 fullShare q ∗ owns (c : Thread nD τ) arg2 fullShare k
            ∗ owns (c : Thread nD τ) arg3 fullShare eb ∗ owns (c : Thread nD τ) arg4 fullShare g
            ∗ owns (c : Thread nD τ) arg5 fullShare (out1_4 q k eb g)) -∗ K ⟨⟩))
      ⊢ wp frame (wpE (defs₀ (F := F)) Variants.none c none) E (cc1__attn_score_kernel i arg1 harg1 arg2 harg2 arg3 harg3 arg4 harg4 arg5 harg5) K := by
  simp only [cc1__attn_score_kernel_eq_skeleton]; unfold cc1__attn_score_kernel_skel
  unfold owns
  iintro ⟨⟨%fq, %hq, Hq⟩, ⟨%fk, %hk, Hk⟩, ⟨%fe, %he, He⟩, ⟨%fg, %hg, Hg⟩, ⟨%d, %fo, -, Ho⟩, Hret⟩
  subst hq hk he hg
  sl_exec
  sl_step
  -- the run is over: hand every buffer back, the inputs untouched, the output after its one store
  iapply Hret
  isplitl [Hq]; · iexists fq; isplitr; · ipureintro; rfl
                  iexact Hq
  isplitl [Hk]; · iexists fk; isplitr; · ipureintro; rfl
                  iexact Hk
  isplitl [He]; · iexists fe; isplitr; · ipureintro; rfl
                  iexact He
  isplitl [Hg]; · iexists fg; isplitr; · ipureintro; rfl
                  iexact Hg
  iexists _; isplitr
  swap; · iexact Ho
  -- a store that covers the buffer leaves the stored value at every index, whatever was there
  ipureintro
  exact View.read_writes_eq_canon _ _ _ (cover1_4 _)

/-! ## The proof data of the pipeline -/

/-- On core `c`: the five arrays as `V` holds them; after the body at slab `t` each input buffer still at its
    slab and the output buffer at the logits of the four slabs; the invariant carried from slab to slab is the
    untouched remainder of the core's state; every array held outright and nothing owed to other cores. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The arrays of `dat1` are `V`'s. -/
theorem A_eq1 (c : Dev nD) (w : Fin cfg1.W) : (dat1 V c).A w = V c (Pipeline.arrRef spec1 w) := by
  dsimp only [dat1]

/-- What the body leaves in each of the five buffers at slab `t`. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- What the body finds in each input buffer at slab `t`: the slab. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body at slab `t` -/

/-- What the pipeline holds when it calls the body at slab `t`: the invariant, the core's debts, and the five
    current buffers, each at what it then holds for some earlier contents `d`; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it wants back: the same at the next slab, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at slab `t` takes the one to the other. The four input buffers hold their slabs (`before1_w`), the
    output buffer holds something, so the triple on whole buffers applies with the slabs as the inputs'
    contents; the invariant and the debts do not depend on the slab and pass by. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Howe, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howe]; · iexact Howe
  isplitl [H0]; · iexact H0
  isplitl [H1]; · iexact H1
  isplitl [H2]; · iexact H2
  isplitl [H3]; · iexact H3
  iexact H4

/-- The obligation of the pipeline rule: the product over the five windows, written out, is the triple above. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
import proofs.«163383_j64295660421655_1_alg».proof.Proof.Gen.Kernel.Launch
import proofs.«163383_j64295660421655_1_alg».proof.Proof.Gen.Kernel.Skeleton
import proofs.«163383_j64295660421655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The third kernel call of the program, `cc2__weighted_v_kernel`, as one region of the frame.

  The call walks 125 grid points. At point t it sees rows 6400·t … 6400·t + 6399 of the value rows
  (800000 × 128), the same rows of the attention weights (800000 × 4), all of the 4 × 128 head-spreading
  table, and it fills the same rows of the 800000 × 128 result. The body reads its three input blocks whole,
  forms ONE 6400 × 128 value from them and stores it over the whole output block.

  Everything here is stated for an arbitrary float instance and at a parameter `V`: what the TensorCore's
  buffers hold when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window `w` at grid point `t`, cut out of the window's array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer shows the window's block at EVERY point, for any proof data that starts from
    `V`'s array and whose body hands the block back unchanged. At a point with a fetch, the fetch put the block
    there; at a point without one the block index has not moved since the last fetch and the body kept the block,
    so the buffer still shows it. The three input windows are whole blocks (never cut, never idle), so the side
    conditions of `Dat.before_in_eq_fetched` hold by computation. -/

/-- The value rows (window 0): fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hblk : ∀ u, dat.blockOf 0 u = iblk2 V c 0 u := fun u => by unfold Dat.blockOf iblk2; rw [hA]
  refine (dat.before_in_eq_fetched 0 rfl (fun _ => rfl) (fun _ _ _ => rfl) (fun u => ?_) t d).trans (hblk t)
  exact (hafter u).trans (hblk u).symm

/-- The attention weights (window 1): fetched at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hblk : ∀ u, dat.blockOf 1 u = iblk2 V c 1 u := fun u => by unfold Dat.blockOf iblk2; rw [hA]
  refine (dat.before_in_eq_fetched 1 rfl (fun _ => rfl) (fun _ _ _ => rfl) (fun u => ?_) t d).trans (hblk t)
  exact (hafter u).trans (hblk u).symm

/-- The head-spreading table (window 2): its block index is constant, so it is fetched once, at the first point,
    and every later point finds that block still in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hblk : ∀ u, dat.blockOf 2 u = iblk2 V c 2 u := fun u => by unfold Dat.blockOf iblk2; rw [hA]
  refine (dat.before_in_eq_fetched 2 rfl (fun _ => rfl) (fun _ _ _ => rfl) (fun u => ?_) t d).trans (hblk t)
  exact (hafter u).trans (hblk u).symm

/-! ## What the body does to its four buffers

The body touches each buffer through ONE rectangle: the whole block, from offset (0, 0). -/

/-- All 6400 × 128 entries of a value-row block (read from window 0, written to window 3). -/
abbrev allRows2 : Rect S6400x128 := Rect.unit (s := S6400x128) ![0, 0] S6400x128.size inb_S6400x128_S6400x128_0_0
/-- All 6400 × 4 entries of a block of attention weights. -/
abbrev allWeights2 : Rect S6400x4 := Rect.unit (s := S6400x4) ![0, 0] S6400x4.size inb_S6400x4_S6400x4_0_0
/-- All 4 × 128 entries of the head-spreading table. -/
abbrev allTable2 : Rect S4x128 := Rect.unit (s := S4x128) ![0, 0] S4x128.size inb_S4x128_S4x128_0_0

/-- What the body leaves in the output block, as a function of the three input blocks `vs` (value rows),
    `an` (attention weights) and `gt` (the table): its single store, of the product
    vs ⊙ (an · gt) that the payload `k2_pay1` names, laid over the whole block. -/
def out2_3 (vs : Vec F S6400x128 .f32) (an : Vec F S6400x4 .f32) (gt : Vec F S4x128 .f32) : Vec F S6400x128 .f32 :=
  View.canon [⟨allRows2, k2_pay1 (View.ld vs allRows2) (View.ld an allWeights2) (View.ld gt allTable2)⟩]

/-- One store through the whole-block rectangle reaches every entry of the block, whatever is stored. -/
theorem cover2_3 (p : Vec F S6400x128 .f32) (y : S6400x128.Idx) :
    ∃ pc ∈ ([⟨allRows2, p⟩] : List (View.Piece (Elt F) S6400x128 .f32)), y ∈ pc.1.set :=
  View.cover_of_tiled [⟨allRows2, p⟩] S6400x128.size (by rfl) y

set_option maxHeartbeats 1000000 in
/-- The body, run on four whole staging buffers: the three inputs showing `vs`, `an`, `gt`, the output showing
    anything. It returns the inputs as they were and the output showing `out2_3 vs an gt`. The body also reads the
    output block before it overwrites it; that value is not used, and the store covers the block, so what the
    output showed on entry does not matter. -/
theorem sound_kernel2 (c : Dev nD) (E : Set ℕ) (i : grid2.Coords)
    (arg1 : Memref sig .tc .vmem S6400x128 .f32) (harg1 : arg1.IsWhole) (arg2 : Memref sig .tc .vmem S6400x4 .f32) (harg2 : arg2.IsWhole)
    (arg3 : Memref sig .tc .vmem S4x128 .f32) (harg3 : arg3.IsWhole) (arg4 : Memref sig .tc .vmem S6400x128 .f32) (harg4 : arg4.IsWhole)
    (vs : Vec F S6400x128 .f32) (an : Vec F S6400x4 .f32) (gt : Vec F S4x128 .f32) (K : PUnit → sProp 𝕄) :
    iprop(owns (c : Thread nD τ) arg1 fullShare vs ∗ owns (c : Thread nD τ) arg2 fullShare an ∗ owns (c : Thread nD τ) arg3 fullShare gt
        ∗ (∃ d, owns (c : Thread nD τ) arg4 fullShare d)
        ∗ (iprop(owns (c : Thread nD τ) arg1 fullShare vs ∗ owns (c : Thread nD τ) arg2 fullShare an ∗ owns (c : Thread nD τ) arg3 fullShare gt
            ∗ owns (c : Thread nD τ) arg4 fullShare (out2_3 vs an gt)) -∗ K ⟨⟩))
      ⊢ wp frame (wpE (defs₀ (F := F)) Variants.none c none) E (cc2__weighted_v_kernel i arg1 harg1 arg2 harg2 arg3 harg3 arg4 harg4) K := by
  rw [cc2__weighted_v_kernel_eq_skeleton]
  unfold cc2__weighted_v_kernel_skel owns
  iintro ⟨⟨%f1, %e1, H1⟩, ⟨%f2, %e2, H2⟩, ⟨%f3, %e3, H3⟩, ⟨%d, %f4, -, H4⟩, Hk⟩
  subst e1 e2 e3
  sl_exec
  sl_step
  -- the continuation gets the three inputs back unread-from-elsewhere, each at the contents it was found at,
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  -- and the output at the entry contents overwritten by the one store: read back, that is the store's payload
  -- everywhere, because the store reaches every entry.
  iexists _; isplitr
  rotate_left
  · iexact H4
  · ipureintro; exact View.read_writes_eq_canon _ _ _ (cover2_3 _)

/-! ## The proof data of the pipeline -/

/-- On core `c`: the arrays are what `V` holds; after the body at point `t` the three input buffers still show their
    blocks and the output buffer shows `out2_3` of those blocks; the invariant is the untouched rest of the core's
    state (`Pipeline.ΦA`); all shares are full and nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The arrays of the proof data are `V`'s. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- What the body finds in each input buffer: the window's block, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body at a grid point -/

/-- The invariant and the debts of the proof data are the same at every point of the grid. -/
theorem inv_const2 (c : Dev nD) (s s' : Fin (cfg2.N + 1)) : (dat2 V c).Φ s = (dat2 V c).Φ s' := rfl
theorem owes_const2 (c : Dev nD) (s s' : Fin (cfg2.N + 1)) : (dat2 V c).owesAt () s = (dat2 V c).owesAt () s' := rfl

/-- What the pipeline hands the body at point `t`: the invariant, the core's debts, and the four current staging
    buffers, each at what the proof data say it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it takes back: the same, the buffers at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at point `t` takes the one to the other. The three input buffers show their blocks (`before2_w`) and the
    output buffer shows something, which is all `sound_kernel2` asks; the invariant and the debts are the same
    before and after the point and are carried across untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [inv_const2 V c t.succ t.castSucc, owes_const2 V c t.succ t.castSucc, after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every grid point: the rule's conjunction over the four
    windows, written out window by window, is `bodyPre2` before and `bodyPost2` after. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg3.lean ====
import proofs.«163383_j64295660421655_1_alg».proof.Proof.Gen.Kernel.Launch
import proofs.«163383_j64295660421655_1_alg».proof.Proof.Gen.Kernel.Skeleton
import proofs.«163383_j64295660421655_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The last kernel region (the output layer): rows 5000·t … 5000·t + 4999 of the node features and of the
  aggregated messages meet four small whole arrays (two weight matrices and a bias for each of two affine maps)
  and leave one block of 5000 rows of the result. This file says, for ANY contents the core's buffers hold when
  the region is entered, what each staging buffer holds before and after the body at a grid point, and shows the
  body turns the one into the other.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block -/

/-- The part of window `w`'s array (at the entry contents `V`) that grid point `t` addresses: for the two row
    windows and the output, rows 5000·t onwards; for the five small arrays, all of the array at every point. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What an input's staging buffer holds when the body runs

Each of the seven inputs is left in place by the body, is never idle and is never cut at the array's edge, so at
every point its buffer holds the block that point addresses. For the row windows the pipeline has just fetched it;
for the five small arrays the fetch happened at the first point and the block index has not moved since. The same
library fact (`Dat.before_in_eq_fetched`) covers both; it is stated for any proof data that agree with `V` on the
window's array and keep the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hblk : ∀ s, dat.blockOf 0 s = iblk3 V c 0 s := fun s => by
    unfold Dat.blockOf iblk3; exact congrArg _ hA
  refine (dat.before_in_eq_fetched 0 rfl (fun _ => rfl) (fun _ _ _ => rfl) (fun s => ?_) t d).trans (hblk t)
  exact (hafter s).trans (hblk s).symm

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hblk : ∀ s, dat.blockOf 1 s = iblk3 V c 1 s := fun s => by
    unfold Dat.blockOf iblk3; exact congrArg _ hA
  refine (dat.before_in_eq_fetched 1 rfl (fun _ => rfl) (fun _ _ _ => rfl) (fun s => ?_) t d).trans (hblk t)
  exact (hafter s).trans (hblk s).symm

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t := by
  have hblk : ∀ s, dat.blockOf 2 s = iblk3 V c 2 s := fun s => by
    unfold Dat.blockOf iblk3; exact congrArg _ hA
  refine (dat.before_in_eq_fetched 2 rfl (fun _ => rfl) (fun _ _ _ => rfl) (fun s => ?_) t d).trans (hblk t)
  exact (hafter s).trans (hblk s).symm

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t := by
  have hblk : ∀ s, dat.blockOf 3 s = iblk3 V c 3 s := fun s => by
    unfold Dat.blockOf iblk3; exact congrArg _ hA
  refine (dat.before_in_eq_fetched 3 rfl (fun _ => rfl) (fun _ _ _ => rfl) (fun s => ?_) t d).trans (hblk t)
  exact (hafter s).trans (hblk s).symm

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t := by
  have hblk : ∀ s, dat.blockOf 4 s = iblk3 V c 4 s := fun s => by
    unfold Dat.blockOf iblk3; exact congrArg _ hA
  refine (dat.before_in_eq_fetched 4 rfl (fun _ => rfl) (fun _ _ _ => rfl) (fun s => ?_) t d).trans (hblk t)
  exact (hafter s).trans (hblk s).symm

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t := by
  have hblk : ∀ s, dat.blockOf 5 s = iblk3 V c 5 s := fun s => by
    unfold Dat.blockOf iblk3; exact congrArg _ hA
  refine (dat.before_in_eq_fetched 5 rfl (fun _ => rfl) (fun _ _ _ => rfl) (fun s => ?_) t d).trans (hblk t)
  exact (hafter s).trans (hblk s).symm

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t := by
  have hblk : ∀ s, dat.blockOf 6 s = iblk3 V c 6 s := fun s => by
    unfold Dat.blockOf iblk3; exact congrArg _ hA
  refine (dat.before_in_eq_fetched 6 rfl (fun _ => rfl) (fun _ _ _ => rfl) (fun s => ?_) t d).trans (hblk t)
  exact (hafter s).trans (hblk s).symm

/-! ## The body's one store

The body reads each of its seven inputs whole, and writes the whole 5000 × 128 output block once. -/

/-- All of a 5000 × 128 block, -/
abbrev rect3_rows : Rect S5000x128 := Rect.unit (s := S5000x128) ![0, 0] S5000x128.size inb_S5000x128_S5000x128_0_0
/-- all of a 128 × 128 matrix, -/
abbrev rect3_mat : Rect S128x128 := Rect.unit (s := S128x128) ![0, 0] S128x128.size inb_S128x128_S128x128_0_0
/-- all of a vector of 128. -/
abbrev rect3_vec : Rect S128 := Rect.unit (s := S128) ![0] S128.size inb_S128_S128_0

/-- What the output's staging buffer holds after the body, given what the seven inputs' buffers hold (in window
    order: feature rows, aggregate rows, the projection's matrix and bias, the two matrices of the last affine map,
    its bias): the single store's value laid over the whole block. -/
def out3_7 (x0 : Vec F S5000x128 .f32) (x1 : Vec F S5000x128 .f32) (x2 : Vec F S128x128 .f32) (x3 : Vec F S128 .f32) (x4 : Vec F S128x128 .f32) (x5 : Vec F S128x128 .f32) (x6 : Vec F S128 .f32) : Vec F S5000x128 .f32 :=
  View.canon [⟨rect3_rows, k3_pay1 (View.ld x0 rect3_rows) (View.ld x1 rect3_rows) (View.ld x2 rect3_mat) (View.ld x3 rect3_vec) (View.ld x4 rect3_mat) (View.ld x5 rect3_mat) (View.ld x6 rect3_vec)⟩]

/-- That store leaves no element of the block unwritten: its rectangle is the block. -/
theorem cover3_7 (p : Vec F S5000x128 .f32) (y : S5000x128.Idx) :
    ∃ pc ∈ ([⟨rect3_rows, p⟩] : List (View.Piece (Elt F) S5000x128 .f32)), y ∈ pc.1.set :=
  View.cover_of_tiled [⟨rect3_rows, p⟩] S5000x128.size (by rfl) y

/-! ## The body, on any eight whole buffers -/

set_option maxHeartbeats 1000000 in
/-- Run on whole buffers of which the first seven read `x0 … x6` and the eighth reads anything, the body gives the
    seven back as they were and the eighth reading `out3_7 x0 … x6`. The body's text is a sequence of eight whole
    loads (the eighth, of the output buffer, is unused) and one whole store; the symbolic run walks it, and the store,
    covering the block, determines all of it whatever was there before. -/
theorem sound_kernel3 (c : Dev nD) (E : Set ℕ) (i : grid3.Coords) (a0 : Memref sig .tc .vmem S5000x128 .f32) (w0 : a0.IsWhole) (a1 : Memref sig .tc .vmem S5000x128 .f32) (w1 : a1.IsWhole) (a2 : Memref sig .tc .vmem S128x128 .f32) (w2 : a2.IsWhole) (a3 : Memref sig .tc .vmem S128 .f32) (w3 : a3.IsWhole) (a4 : Memref sig .tc .vmem S128x128 .f32) (w4 : a4.IsWhole) (a5 : Memref sig .tc .vmem S128x128 .f32) (w5 : a5.IsWhole) (a6 : Memref sig .tc .vmem S128 .f32) (w6 : a6.IsWhole) (a7 : Memref sig .tc .vmem S5000x128 .f32) (w7 : a7.IsWhole)
    (x0 : Vec F S5000x128 .f32) (x1 : Vec F S5000x128 .f32) (x2 : Vec F S128x128 .f32) (x3 : Vec F S128 .f32) (x4 : Vec F S128x128 .f32) (x5 : Vec F S128x128 .f32) (x6 : Vec F S128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out3_7 x0 x1 x2 x3 x4 x5 x6)) -∗ K ⟨⟩))
      ⊢ wp frame (wpE (defs₀ (F := F)) Variants.none c none) E (cc3__final_kernel i a0 w0 a1 w1 a2 w2 a3 w3 a4 w4 a5 w5 a6 w6 a7 w7) K := by
  rw [cc3__final_kernel_eq_skeleton]; unfold cc3__final_kernel_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d, %g, -, H7⟩, Hk⟩
  subst e0; subst e1; subst e2; subst e3; subst e4; subst e5; subst e6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  -- the eighth buffer: its points-to fixes the contents, and a covering write reads as its value everywhere
  iexists _; isplitr
  pick_goal 2
  · iexact H7
  · ipureintro; exact View.read_writes_eq_canon _ _ _ (cover3_7 _)

/-! ## The region's proof data -/

/-- On core `c`: every windowed array as the region finds it; after the body at point `t` each input's buffer still at
    the block that point addresses, and the output's at `out3_7` of those seven blocks; between points nothing but the
    untouched rest of the core's state; every array held in full; no signal owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

/-! The `after` field, one window at a time. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) :
    (dat3 V c).after 7 t = out3_7 (iblk3 V c 0 t) (iblk3 V c 1 t) (iblk3 V c 2 t) (iblk3 V c 3 t) (iblk3 V c 4 t) (iblk3 V c 5 t) (iblk3 V c 6 t) := by
  dsimp only [dat3]

/-! So each input's buffer holds its block when the body starts. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body at a grid point -/

/-- What the pipeline hands the body at point `t`: the invariant, the core's debt, and each window's current
    staging buffer at what it then holds. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- What the body hands back: the same, each buffer at what the proof data say it leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The invariant and the debt do not depend on the point and the body does not look at them; the seven inputs'
    buffers hold their blocks, the output's holds anything: exactly what `sound_kernel3` asks, and what it returns
    is the proof data's `after`. -/
theorem sound_body3 (c : Dev nD) (t : Fin cfg3.N) :
    bodyPre3 V c t ⊢ wp frame (wpE (defs₀ (F := F)) Variants.none c none) Set.univ (bodyAt3 t) (fun _ => bodyPost3 V c t) := by
  have hΦ : (dat3 V c).Φ t.succ = (dat3 V c).Φ t.castSucc := rfl
  have hO : (dat3 V c).owesAt () t.succ = (dat3 V c).owesAt () t.castSucc := rfl
  unfold bodyPre3 bodyPost3 bodyAt3
  rw [hΦ, hO, after3_0, after3_1, after3_2, after3_3, after3_4, after3_5, after3_6, after3_7]
  simp only [before3_0, before3_1, before3_2, before3_3, before3_4, before3_5, before3_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 (c := c) (E := Set.univ) (x0 := iblk3 V c 0 t) (x1 := iblk3 V c 1 t) (x2 := iblk3 V c 2 t) (x3 := iblk3 V c 3 t) (x4 := iblk3 V c 4 t) (x5 := iblk3 V c 5 t) (x6 := iblk3 V c 6 t))
  iframe H0 H1 H2 H3 H4 H5 H6
  isplitl [H7]
  · iexists _; iexact H7
  iintro ⟨H0, H1, H2, H3, H4, H5, H6, H7⟩
  iframe HΦ Ho H0 H1 H2 H3 H4 H5 H6 H7

/-- At every point, in the library's own form (its product over the eight windows written out). -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KFold.lean ====
import proofs.«163383_j64295660421655_1_alg».proof.Proof.KReg0
import proofs.«163383_j64295660421655_1_alg».proof.Proof.KReg1
import proofs.«163383_j64295660421655_1_alg».proof.Proof.KReg2
import proofs.«163383_j64295660421655_1_alg».proof.Proof.KReg3
import proofs.«163383_j64295660421655_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The contents of the TensorCore's unscoped buffers at each boundary between two items of @main, as a fold from the
  launch memory. @main is ten items: a stretch of host operations, the projection region, three stretches (the gathers
  and the grouping table), the attention-score region, a stretch (the global maximum, the exponentials, the
  per-node sums and the normalisation), the weighting region, a stretch (the per-node aggregation and the two halves
  of the last weight matrix), the output region.

  A host stretch takes the contents to the stretch's fold over them. A region takes them to the same contents except
  at its windows' arrays, each of which holds what the pipeline's write-backs leave: for an input window its entry
  contents, for the output window every block written where its index map puts it.

  No item writes an argument of @main: a host operation writes only its own result, and a region changes only its
  output array. So each argument's buffer, read through the whole fold, is the launch memory's.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## The contents at each boundary -/

/-- At launch. -/
abbrev W0 : Dev nD → Valuation τ sig (Elt F) := fun c b => m (c, b)
/-- After the first host stretch: the projection region's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the projection region: its arrays at what the pipeline leaves, everything else as entered. -/
def W2 (c : Dev nD) : Valuation τ sig (Elt F) :=
  Pipeline.withArrays spec0 c (W1 m c) fun w => (dat0 (E1 m) c).arrAt w cfg0.N
abbrev W3 : Dev nD → Valuation τ sig (Elt F) := fun c => StableHlo.after hostOps1 (W2 m c)
abbrev W4 : Dev nD → Valuation τ sig (Elt F) := fun c => StableHlo.after hostOps1_1 (W3 m c)
/-- After the three stretches: the attention-score region's entry. -/
abbrev W5 : Dev nD → Valuation τ sig (Elt F) := fun c => StableHlo.after hostOps1_2 (W4 m c)
abbrev E5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (E5 m) c).arrAt w cfg1.N
/-- After the softmax stretch: the weighting region's entry. -/
abbrev W7 : Dev nD → Valuation τ sig (Elt F) := fun c => StableHlo.after hostOps2 (W6 m c)
abbrev E7 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (E7 m) c).arrAt w cfg2.N
/-- After the aggregation stretch: the output region's entry. -/
abbrev W9 : Dev nD → Valuation τ sig (Elt F) := fun c => StableHlo.after hostOps3 (W8 m c)
abbrev E9 : (c : Dev nD) → (b : Ref sig .tc) → Buf (Elt F) ((c : Thread nD τ).loc b) := fun c b => W9 m c b
/-- At the return. -/
def W10 (c : Dev nD) : Valuation τ sig (Elt F) :=
  Pipeline.withArrays spec3 c (W9 m c) fun w => (dat3 (E9 m) c).arrAt w cfg3.N

abbrev E2 : (c : Dev nD) → (b : Ref sig .tc) → Buf (Elt F) ((c : Thread nD τ).loc b) := fun c b => W2 m c b
abbrev E6 : (c : Dev nD) → (b : Ref sig .tc) → Buf (Elt F) ((c : Thread nD τ).loc b) := fun c b => W6 m c b
abbrev E8 : (c : Dev nD) → (b : Ref sig .tc) → Buf (Elt F) ((c : Thread nD τ).loc b) := fun c b => W8 m c b
abbrev E10 : (c : Dev nD) → (b : Ref sig .tc) → Buf (Elt F) ((c : Thread nD τ).loc b) := fun c b => W10 m c b

/-! ## A region's exit: its arrays, and everything else -/

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem W10_arr (c : Dev nD) (w : Fin cfg3.W) :
    W10 m c (Proc.devRef .tc (Pipeline.arrRef spec3 w)) = (dat3 (E9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb

/-- The two facts the exit of a region is assembled from: each of its arrays holds what the pipeline leaves, and every
    other buffer what it held at entry. -/
theorem hF0 (c : Dev nD) (w : Fin cfg0.W) : (dat0 (E1 m) c).arrAt w cfg0.N = E2 m c (Pipeline.arrRef spec0 w) := (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
theorem hF1 (c : Dev nD) (w : Fin cfg1.W) : (dat1 (E5 m) c).arrAt w cfg1.N = E6 m c (Pipeline.arrRef spec1 w) := (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)
theorem hF2 (c : Dev nD) (w : Fin cfg2.W) : (dat2 (E7 m) c).arrAt w cfg2.N = E8 m c (Pipeline.arrRef spec2 w) := (W8_arr m c w).symm
theorem hrest2 (c : Dev nD) : ∀ b, b ∉ Finset.univ.image (Pipeline.arrRef spec2) → E8 m c b = E7 m c b :=
  fun b hb => W8_of_ne m c b fun w e => hb (Finset.mem_image.mpr ⟨w, Finset.mem_univ _, e⟩)
theorem hF3 (c : Dev nD) (w : Fin cfg3.W) : (dat3 (E9 m) c).arrAt w cfg3.N = E10 m c (Pipeline.arrRef spec3 w) := (W10_arr m c w).symm
theorem hrest3 (c : Dev nD) : ∀ b, b ∉ Finset.univ.image (Pipeline.arrRef spec3) → E10 m c b = E9 m c b :=
  fun b hb => W10_of_ne m c b fun w e => hb (Finset.mem_image.mpr ⟨w, Finset.mem_univ _, e⟩)

/-! ## What a host stretch leaves alone -/

theorem W1_host (c : Dev nD) (r : Ref sig .tc) (h : r ∉ hostOps0_W) : W1 m c (Proc.devRef .tc r) = W0 m c (Proc.devRef .tc r) :=
  StableHlo.after_of_writes_sub hostOps0 _ hostOps0_writes h
theorem W3_host (c : Dev nD) (r : Ref sig .tc) (h : r ∉ hostOps1_W) : W3 m c (Proc.devRef .tc r) = W2 m c (Proc.devRef .tc r) :=
  StableHlo.after_of_writes_sub hostOps1 _ hostOps1_writes h
theorem W4_host (c : Dev nD) (r : Ref sig .tc) (h : r ∉ hostOps1_1_W) : W4 m c (Proc.devRef .tc r) = W3 m c (Proc.devRef .tc r) :=
  StableHlo.after_of_writes_sub hostOps1_1 _ hostOps1_1_writes h
theorem W5_host (c : Dev nD) (r : Ref sig .tc) (h : r ∉ hostOps1_2_W) : W5 m c (Proc.devRef .tc r) = W4 m c (Proc.devRef .tc r) :=
  StableHlo.after_of_writes_sub hostOps1_2 _ hostOps1_2_writes h
theorem W7_host (c : Dev nD) (r : Ref sig .tc) (h : r ∉ hostOps2_W) : W7 m c (Proc.devRef .tc r) = W6 m c (Proc.devRef .tc r) :=
  StableHlo.after_of_writes_sub hostOps2 _ hostOps2_writes h
theorem W9_host (c : Dev nD) (r : Ref sig .tc) (h : r ∉ hostOps3_W) : W9 m c (Proc.devRef .tc r) = W8 m c (Proc.devRef .tc r) :=
  StableHlo.after_of_writes_sub hostOps3 _ hostOps3_writes h

/-! ## An input window's array leaves its region as it entered -/

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (E5 m) c).arrAt_in w hw _).trans (A_eq1 (E5 m) c w))
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((dat2 (E7 m) c).arrAt_in w hw _).trans (A_eq2 (E7 m) c w))
theorem W10_in (c : Dev nD) (w : Fin cfg3.W) (hw : (cfg3.win w).isOut = false) :
    W10 m c (Proc.devRef .tc (Pipeline.arrRef spec3 w)) = W9 m c (Proc.devRef .tc (Pipeline.arrRef spec3 w)) :=
  (W10_arr m c w).trans (((dat3 (E9 m) c).arrAt_in w hw _).trans (A_eq3 (E9 m) c w))

/-! ## Each argument ends as launched -/

/-- An argument that no region stages, or only as an input, read back through the ten items. The four region steps are
    given (each is `W…_in` at the window that stages the argument, or `W…_of_ne`); the six host steps are the
    stretches' write sets, none of which holds an argument. -/
theorem kept_of (c : Dev nD) (r : Ref sig .tc)
    (h10 : W10 m c (Proc.devRef .tc r) = W9 m c (Proc.devRef .tc r)) (h9 : r ∉ hostOps3_W)
    (h8 : W8 m c (Proc.devRef .tc r) = W7 m c (Proc.devRef .tc r)) (h7 : r ∉ hostOps2_W)
    (h6 : W6 m c (Proc.devRef .tc r) = W5 m c (Proc.devRef .tc r)) (h5 : r ∉ hostOps1_2_W) (h4 : r ∉ hostOps1_1_W) (h3 : r ∉ hostOps1_W)
    (h2 : W2 m c (Proc.devRef .tc r) = W1 m c (Proc.devRef .tc r)) (h1 : r ∉ hostOps0_W) :
    W10 m c (Proc.devRef .tc r) = m ((c : Thread nD τ).loc r) :=
  h10.trans <| (W9_host m c r h9).trans <| h8.trans <| (W7_host m c r h7).trans <| h6.trans <| (W5_host m c r h5).trans <|
    (W4_host m c r h4).trans <| (W3_host m c r h3).trans <| h2.trans <| (W1_host m c r h1).trans rfl

theorem kept_main_arg0 (c : Dev nD) : W10 m c (Proc.devRef .tc main_arg0) = m ((c : Thread nD τ).loc main_arg0) :=
  kept_of m c main_arg0 (W10_in m c 0 rfl) (by decide) (W8_of_ne m c _ (by decide)) (by decide) (W6_of_ne m c _ (by decide)) (by decide) (by decide) (by decide) (W2_in m c 0 rfl) (by decide)
theorem kept_main_arg1 (c : Dev nD) : W10 m c (Proc.devRef .tc main_arg1) = m ((c : Thread nD τ).loc main_arg1) :=
  kept_of m c main_arg1 (W10_of_ne m c _ (by decide)) (by decide) (W8_of_ne m c _ (by decide)) (by decide) (W6_of_ne m c _ (by decide)) (by decide) (by decide) (by decide) (W2_of_ne m c _ (by decide)) (by decide)
theorem kept_main_arg2 (c : Dev nD) : W10 m c (Proc.devRef .tc main_arg2) = m ((c : Thread nD τ).loc main_arg2) :=
  kept_of m c main_arg2 (W10_of_ne m c _ (by decide)) (by decide) (W8_of_ne m c _ (by decide)) (by decide) (W6_of_ne m c _ (by decide)) (by decide) (by decide) (by decide) (W2_of_ne m c _ (by decide)) (by decide)
theorem kept_main_arg3 (c : Dev nD) : W10 m c (Proc.devRef .tc main_arg3) = m ((c : Thread nD τ).loc main_arg3) :=
  kept_of m c main_arg3 (W10_of_ne m c _ (by decide)) (by decide) (W8_of_ne m c _ (by decide)) (by decide) (W6_of_ne m c _ (by decide)) (by decide) (by decide) (by decide) (W2_of_ne m c _ (by decide)) (by decide)
theorem kept_main_arg4 (c : Dev nD) : W10 m c (Proc.devRef .tc main_arg4) = m ((c : Thread nD τ).loc main_arg4) :=
  kept_of m c main_arg4 (W10_of_ne m c _ (by decide)) (by decide) (W8_of_ne m c _ (by decide)) (by decide) (W6_of_ne m c _ (by decide)) (by decide) (by decide) (by decide) (W2_of_ne m c _ (by decide)) (by decide)
theorem kept_main_arg5 (c : Dev nD) : W10 m c (Proc.devRef .tc main_arg5) = m ((c : Thread nD τ).loc main_arg5) :=
  kept_of m c main_arg5 (W10_of_ne m c _ (by decide)) (by decide) (W8_of_ne m c _ (by decide)) (by decide) (W6_of_ne m c _ (by decide)) (by decide) (by decide) (by decide) (W2_of_ne m c _ (by decide)) (by decide)
theorem kept_main_arg6 (c : Dev nD) : W10 m c (Proc.devRef .tc main_arg6) = m ((c : Thread nD τ).loc main_arg6) :=
  kept_of m c main_arg6 (W10_of_ne m c _ (by decide)) (by decide) (W8_of_ne m c _ (by decide)) (by decide) (W6_of_ne m c _ (by decide)) (by decide) (by decide) (by decide) (W2_of_ne m c _ (by decide)) (by decide)
theorem kept_main_arg7 (c : Dev nD) : W10 m c (Proc.devRef .tc main_arg7) = m ((c : Thread nD τ).loc main_arg7) :=
  kept_of m c main_arg7 (W10_in m c 2 rfl) (by decide) (W8_of_ne m c _ (by decide)) (by decide) (W6_of_ne m c _ (by decide)) (by decide) (by decide) (by decide) (W2_of_ne m c _ (by decide)) (by decide)
theorem kept_main_arg8 (c : Dev nD) : W10 m c (Proc.devRef .tc main_arg8) = m ((c : Thread nD τ).loc main_arg8) :=
  kept_of m c main_arg8 (W10_in m c 3 rfl) (by decide) (W8_of_ne m c _ (by decide)) (by decide) (W6_of_ne m c _ (by decide)) (by decide) (by decide) (by decide) (W2_of_ne m c _ (by decide)) (by decide)
theorem kept_main_arg9 (c : Dev nD) : W10 m c (Proc.devRef .tc main_arg9) = m ((c : Thread nD τ).loc main_arg9) :=
  kept_of m c main_arg9 (W10_of_ne m c _ (by decide)) (by decide) (W8_of_ne m c _ (by decide)) (by decide) (W6_of_ne m c _ (by decide)) (by decide) (by decide) (by decide) (W2_of_ne m c _ (by decide)) (by decide)
theorem kept_main_arg10 (c : Dev nD) : W10 m c (Proc.devRef .tc main_arg10) = m ((c : Thread nD τ).loc main_arg10) :=
  kept_of m c main_arg10 (W10_in m c 6 rfl) (by decide) (W8_of_ne m c _ (by decide)) (by decide) (W6_of_ne m c _ (by decide)) (by decide) (by decide) (by decide) (W2_of_ne m c _ (by decide)) (by decide)

end Cert.Kernel.Hand

end
-- ==== Proof.KThread.lean ====
import proofs.«163383_j64295660421655_1_alg».proof.Proof.KFold

/-!
  The thread state every item of @main is entered from and left in, per core: every unscoped buffer whole at the
  boundary's contents (`Fold.lean`), the core's generator register at some state, and the core owing nothing to any
  other. Beside it: each pipeline's proof data at its region's entry contents, and a host stretch as a segment.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- No pipeline has a prefetched table. -/
abbrev adm : (p : Fin 4) → (pcfgs (F := F) p).Adm := fun p => (cfgs p).toPCfg_adm
/-- Each pipeline's proof data at its region's entry contents. -/
def pdats : (p : Fin 4) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E5 m) c
  | ⟨2, _⟩ => fun c => dat2 (E7 m) c
  | ⟨3, _⟩ => fun c => dat3 (E9 m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is one the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KSegReg0.lean ====
import proofs.«163383_j64295660421655_1_alg».proof.Proof.KThread

/-!
  Region 0 of @main as a segment over the thread state: entered with every unscoped buffer at `W1`, left with them at
  `W2`. At entry the region's windows' arrays are split out of the unscoped buffers, the generator register goes into
  the pipeline's invariant, and the core owes nothing; at exit the arrays come back at what the write-backs leave, the
  register comes back, and still nothing is owed. The kernel has no semaphore of its own and no prefetched table.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSegReg1.lean ====
import proofs.«163383_j64295660421655_1_alg».proof.Proof.KThread

/-!
  Region 1 of @main as a segment over the thread state: entered with every unscoped buffer at `W5`, left with them at
  `W6`. At entry the region's windows' arrays are split out of the unscoped buffers, the generator register goes into
  the pipeline's invariant, and the core owes nothing; at exit the arrays come back at what the write-backs leave, the
  register comes back, and still nothing is owed. The kernel has no semaphore of its own and no prefetched table.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSegReg2.lean ====
import proofs.«163383_j64295660421655_1_alg».proof.Proof.KThread

/-!
  Region 2 of @main as a segment over the thread state: entered with every unscoped buffer at `W7`, left with them at
  `W8`. At entry the region's windows' arrays are split out of the unscoped buffers, the generator register goes into
  the pipeline's invariant, and the core owes nothing; at exit the arrays come back at what the write-backs leave, the
  register comes back, and still nothing is owed. The kernel has no semaphore of its own and no prefetched table.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSegReg3.lean ====
import proofs.«163383_j64295660421655_1_alg».proof.Proof.KThread

/-!
  Region 3 of @main as a segment over the thread state: entered with every unscoped buffer at `W9`, left with them at
  `W10`. At entry the region's windows' arrays are split out of the unscoped buffers, the generator register goes into
  the pipeline's invariant, and the core owes nothing; at exit the arrays come back at what the write-backs leave, the
  register comes back, and still nothing is owed. The kernel has no semaphore of its own and no prefetched table.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (E9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E9 m c) (E10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KWhole.lean ====
import proofs.«163383_j64295660421655_1_alg».proof.Proof.KSegReg0
import proofs.«163383_j64295660421655_1_alg».proof.Proof.KSegReg1
import proofs.«163383_j64295660421655_1_alg».proof.Proof.KSegReg2
import proofs.«163383_j64295660421655_1_alg».proof.Proof.KSegReg3

/-!
  @main's launch. The ten items of @main are segments over the one thread state per core (`Thread.lean`): a host
  stretch moves the buffers' contents by its fold; a kernel region takes its arrays out of the buffers, runs the
  pipeline, and puts them back at what the write-backs leave (`SegReg0.lean` … `SegReg3.lean`).

  The launch theorem says: every weakly fair execution of @main terminates without a fault, and in every final
  state EVERY unscoped buffer holds the last boundary's contents. The frame claim (each argument as launched) and the
  result's value (the output region's array) are two readings of that one statement.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The last thread state without the `owes`. -/
abbrev Tₙ (c : Dev nD) : sProp 𝕄 := iprop(StableHlo.held (c : Thread nD τ) (Pipeline.ucRefs τ sig) (W10 m c) ∗ ∃ r, prngReg c r)

/-- @main's ten items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)),
    .region (reg3 m) ]

/-- @main IS the run of its segments. -/
theorem main_run (c : Dev nD) : main (F := F) c = Pipeline.Seg.run (segs m) := (main_chain c).trans (by chain_rfl)

set_option backward.isDefEq.respectTransparency.types false in
/-- THE LAUNCH: from any memory with zero counters every weakly fair execution of @main on the TensorCores terminates,
    nothing faulting, and in every final state each unscoped buffer of each core holds the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl,
      fun c => by
        -- the last region leaves the buffers, the register and "nothing owed"; regroup as the kit reads them
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## Two readings of the launch -/

/-- The frame: each argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c),
     (h c _ (mem_uc main_arg6 (by decide))).trans (kept_main_arg6 m c),
     (h c _ (mem_uc main_arg7 (by decide))).trans (kept_main_arg7 m c),
     (h c _ (mem_uc main_arg8 (by decide))).trans (kept_main_arg8 m c),
     (h c _ (mem_uc main_arg9 (by decide))).trans (kept_main_arg9 m c),
     (h c _ (mem_uc main_arg10 (by decide))).trans (kept_main_arg10 m c)⟩)
    (run_all m ρ)

/-- The result: the output buffer ends at what the output region's write-backs leave, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v65) = (dat3 (E9 m) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v65 (by decide))).trans (W10_arr m c 7),
     (h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c),
     (h c _ (mem_uc main_arg6 (by decide))).trans (kept_main_arg6 m c),
     (h c _ (mem_uc main_arg7 (by decide))).trans (kept_main_arg7 m c),
     (h c _ (mem_uc main_arg8 (by decide))).trans (kept_main_arg8 m c),
     (h c _ (mem_uc main_arg9 (by decide))).trans (kept_main_arg9 m c),
     (h c _ (mem_uc main_arg10 (by decide))).trans (kept_main_arg10 m c)⟩)
    (run_all m ρ)

end Cert.Kernel.Hand

end
-- ==== Proof.Reg0.lean ====
import proofs.«163383_j64295660421655_1_alg».proof.Proof.Gen.KernelIdeal.Launch
import proofs.«163383_j64295660421655_1_alg».proof.Proof.Gen.KernelIdeal.Skeleton
import proofs.«163383_j64295660421655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  Region 0 of @main: the projection  y = x · w  of the 50000 × 128 node features x by the 128 × 384 weight
  table w (the three projections side by side), computed in ten row blocks of 5000 rows.

  At grid point t the body sees three blocks: rows 5000·t … 5000·t + 4999 of x (window 0), all of w
  (window 1, the same block at every point), and rows 5000·t … of y (window 2, the result).  It reads the first
  two whole, and overwrites the third whole with one value that depends on the first two only.  So what it leaves
  is a function of the two input blocks, the input blocks stay as they were, and nothing else is touched.

  Everything is stated for an arbitrary float instance F and an arbitrary memory V found at the region's entry.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three blocks at a grid point -/

/-- The block of window w at grid point t, cut out of that window's array as the region finds it:
    for x and y the 5000 rows starting at row 5000·t, for the table all of it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## An input block is in place whenever the body runs

Both input windows are read-only for the body, cover their arrays by whole blocks, and are live at every point.
For such a window the block the body finds is the one belonging to the point, whether it was brought in at this
very point or at an earlier one: between two fetches the block index does not move, and a block left untouched
is still that block. -/

/-- Rows 5000·t … of x are in place at point t, for any bookkeeping that starts from V and records the
    body as leaving this block unchanged. -/
theorem before0_0_of {c : Dev nD} (dat : Dat τ (Elt F) Unit ℕ (UR sig nD τ) ℕ cfg0 c)
    (hA : dat.A 0 = V c (Pipeline.arrRef spec0 0))
    (hafter : ∀ t, dat.after 0 t = iblk0 V c 0 t) (t : Fin cfg0.N) (d) :
    dat.before 0 t d = iblk0 V c 0 t := by
  -- the block read off the bookkeeping's array is the block read off V's
  have hblk : ∀ s : Fin cfg0.N, dat.blockOf 0 s = iblk0 V c 0 s := fun s =>
    congrArg (((cfg0.win 0).blk s).view.read (Elt F)) hA
  refine (dat.before_in_eq_fetched 0 rfl (fun _ => rfl) (fun _ _ _ => rfl) (fun s => ?_) t d).trans (hblk t)
  exact (hafter s).trans (hblk s).symm

/-- The table w is in place at every point, although it is brought in only once, at the first: its block index
    is constant, so the one block fetched is the block of every later point too. -/
theorem before0_1_of {c : Dev nD} (dat : Dat τ (Elt F) Unit ℕ (UR sig nD τ) ℕ cfg0 c)
    (hA : dat.A 1 = V c (Pipeline.arrRef spec0 1))
    (hafter : ∀ t, dat.after 1 t = iblk0 V c 1 t) (t : Fin cfg0.N) (d) :
    dat.before 1 t d = iblk0 V c 1 t := by
  have hblk : ∀ s : Fin cfg0.N, dat.blockOf 1 s = iblk0 V c 1 s := fun s =>
    congrArg (((cfg0.win 1).blk s).view.read (Elt F)) hA
  refine (dat.before_in_eq_fetched 1 rfl (fun _ => rfl) (fun _ _ _ => rfl) (fun s => ?_) t d).trans (hblk t)
  exact (hafter s).trans (hblk s).symm

/-! ## What the body writes

The body makes three whole-block loads and one whole-block store.  Each is through the rectangle that starts at
the block's origin and has the block's own extents, so a load returns the block itself and the store replaces all
of the result block. -/

/-- All of a 5000 × 128 block of x. -/
abbrev allX0 : Rect S5000x128 := Rect.unit (s := S5000x128) ![0, 0] S5000x128.size inb_S5000x128_S5000x128_0_0
/-- All of the 128 × 384 table. -/
abbrev allW0 : Rect S128x384 := Rect.unit (s := S128x384) ![0, 0] S128x384.size inb_S128x384_S128x384_0_0
/-- All of a 5000 × 384 block of y. -/
abbrev allY0 : Rect S5000x384 := Rect.unit (s := S5000x384) ![0, 0] S5000x384.size inb_S5000x384_S5000x384_0_0

/-- The block of y the body leaves, as a function of the block of x and the table it read: the one stored value,
    the product of the two (each rounded to the short format first, summed from zero), laid over the whole block. -/
def out0_2 (x : Vec F S5000x128 .f32) (w : Vec F S128x384 .f32) : Vec F S5000x384 .f32 :=
  View.canon [⟨allY0, k0_pay1 (View.ld x allX0) (View.ld w allW0)⟩]

/-- One rectangle of the block's own extents, placed at the origin, contains every index of the block. -/
theorem cover0_2 (p : Vec F S5000x384 .f32) (y : S5000x384.Idx) :
    ∃ pc ∈ ([⟨allY0, p⟩] : List (View.Piece (Elt F) S5000x384 .f32)), y ∈ pc.1.set :=
  View.cover_of_tiled [⟨allY0, p⟩] S5000x384.size (by rfl) y

/-! ## The body, run once

Given the x block and the table in their buffers and the result buffer holding anything, the body ends with the
two inputs unchanged and the result buffer holding out0_2 of them.  The old contents of the result buffer are read
once but the value read is never used, and the store that follows replaces every element. -/

set_option maxHeartbeats 1000000 in
theorem sound_kernel0 (c : Dev nD) (E : Set ℕ) (i : grid0.Coords)
    (arg1 : Memref sig .tc .vmem S5000x128 .f32) (harg1 : arg1.IsWhole)
    (arg2 : Memref sig .tc .vmem S128x384 .f32) (harg2 : arg2.IsWhole)
    (arg3 : Memref sig .tc .vmem S5000x384 .f32) (harg3 : arg3.IsWhole)
    (x : Vec F S5000x128 .f32) (w : Vec F S128x384 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (out0_2 x w)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%fx, %hx, Hx⟩, ⟨%fw, %hw, Hw⟩, ⟨%dy, %fy, -, Hy⟩, Hk⟩
  subst hx hw
  sl_exec
  sl_step
  iapply Hk
  -- the two inputs were only read: each buffer still holds the contents it was given
  isplitl [Hx]
  · iexists fx; isplitr
    · ipureintro; rfl
    · iexact Hx
  isplitl [Hw]
  · iexists fw; isplitr
    · ipureintro; rfl
    · iexact Hw
  -- the result buffer holds its old contents with one store laid over them; the store's rectangle is the whole
  -- block, so what is read back is the stored value alone
  iexists _; isplitr
  rotate_left
  · iexact Hy
  · ipureintro
    exact View.read_writes_eq_canon _ _ _ (cover0_2 _)

/-! ## The bookkeeping of the ten-point run

The arrays start as V has them.  After the body at point t the two input buffers hold their blocks at t and the
result buffer holds out0_2 of those two blocks.  The body keeps no state of its own between points, owes nothing
to another core, and holds every buffer outright. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The run starts from the arrays V holds. -/
theorem A_eq0 (c : Dev nD) (w : Fin cfg0.W) : (dat0 V c).A w = V c (Pipeline.arrRef spec0 w) := by
  dsimp only [dat0]

/-- After the body the x buffer holds the x block, -/
theorem after0_0 (c : Dev nD) (t : Fin cfg0.N) : (dat0 V c).after 0 t = iblk0 V c 0 t := by
  dsimp only [dat0]
/-- the table's buffer holds the table, -/
theorem after0_1 (c : Dev nD) (t : Fin cfg0.N) : (dat0 V c).after 1 t = iblk0 V c 1 t := by
  dsimp only [dat0]
/-- and the result buffer holds the product of the two. -/
theorem after0_2 (c : Dev nD) (t : Fin cfg0.N) :
    (dat0 V c).after 2 t = out0_2 (iblk0 V c 0 t) (iblk0 V c 1 t) := by
  dsimp only [dat0]

/-- Before the body at point t the x buffer holds the x block at t, -/
theorem before0_0 (c : Dev nD) (t : Fin cfg0.N) (d) : (dat0 V c).before 0 t d = iblk0 V c 0 t :=
  before0_0_of V (dat0 V c) (A_eq0 V c 0) (after0_0 V c) t d
/-- and the table's buffer holds the table. -/
theorem before0_1 (c : Dev nD) (t : Fin cfg0.N) (d) : (dat0 V c).before 1 t d = iblk0 V c 1 t :=
  before0_1_of V (dat0 V c) (A_eq0 V c 1) (after0_1 V c) t d

/-! ## The body at a grid point -/

/-- What the body is given at point t: the invariant, what the core owes, and the three current buffers, the
    inputs at their blocks and the result at whatever it holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it gives back: the same invariant and debt, and the three buffers at what the bookkeeping records. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at point t takes the first to the second: the inputs are in place, so the single-run statement
    applies with x and w the two blocks at t; the invariant and the debt are not looked at. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  -- name the contents: inputs by their blocks, result by its closed form; the invariant and the debt do not
  -- depend on the point
  simp only [before0_0, before0_1]
  rw [after0_0, after0_1, after0_2,
    show (dat0 V c).Φ t.succ = (dat0 V c).Φ t.castSucc from rfl,
    show (dat0 V c).owesAt () t.succ = (dat0 V c).owesAt () t.castSucc from rfl]
  iintro ⟨HΦ, Howe, ⟨%dx, Hx⟩, ⟨%dw, Hw⟩, ⟨%dy, Hy⟩⟩
  iapply (sound_kernel0 c Set.univ (grid0.coords t) _ _ _ _ _ _ (iblk0 V c 0 t) (iblk0 V c 1 t) _)
  isplitl [Hx]; · iexact Hx
  isplitl [Hw]; · iexact Hw
  isplitl [Hy]; · iexists _; iexact Hy
  iintro ⟨Hx, Hw, Hy⟩
  isplitl [HΦ]; · iexact HΦ
  isplitl [Howe]; · iexact Howe
  isplitl [Hx]; · iexact Hx
  isplitl [Hw]; · iexact Hw
  iexact Hy

/-- So the body meets what the ten-point loop asks of it at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.Reg1.lean ====
import proofs.«163383_j64295660421655_1_alg».proof.Proof.Gen.KernelIdeal.Launch
import proofs.«163383_j64295660421655_1_alg».proof.Proof.Gen.KernelIdeal.Skeleton
import proofs.«163383_j64295660421655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  # The attention-score pipeline, one grid point at a time

  The attention-score kernel, second of the program's four, walks the 800000 edges in 125 slabs of 6400 rows. At slab `t` it is
  handed four staging buffers — rows `6400·t …` of the gathered queries (window 0), of the gathered keys
  (window 1) and of the edge bias (window 2), and the whole 128×4 head table (window 3) — and fills a fifth
  (window 4) with the slab's 6400×4 logits in ONE store over the whole buffer.

  This file states, for buffer contents `V` of the core when the pipeline starts and for any float instance:

  * what every input buffer holds when the body runs at slab `t`: the slab's rows of its array as `V` has it
    (`iblk1`, `before1_w`). The head table is copied in once, at the first slab; its block index never moves,
    so the buffer still holds the table at every later slab;
  * what the body leaves in the output buffer: the stored value, a function of the four input blocks alone
    (`out1_4`), because the one store covers the buffer (`cover1_4`);
  * the Hoare triple of the body on arbitrary whole staging buffers (`sound_kernel1`), and from it the
    obligation the pipeline rule asks at every slab (`body_obligation1`) for the proof data `dat1`.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The slab of each array at a grid point -/

/-- The rows of window `w`'s array that belong to slab `t`, read off the array as `V` holds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs: each buffer holds its slab whenever the body runs

For proof data `dat` that start from `V`'s array (`hA`) and whose body hands the buffer back as it found it
(`hafter`), the buffer of an input window at slab `t` holds slab `t` of the array. Where the slab was just
copied in this is what a copy leaves; where it was not, the block index has not moved since the last copy and
the body kept the buffer, so it is the same rows. The slabs tile the arrays, so nothing is cut and a copy
fills the whole buffer. -/

/-- Window 0, the gathered queries: rows `6400·t …`, copied in at every slab. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hblk : ∀ s, dat.blockOf 0 s = iblk1 V c 0 s := fun s => by unfold Dat.blockOf iblk1; rw [hA]
  have hkeep : ∀ s, (cfg1.win 0).cut (cfg1.grid.coords s) (dat.after 0 s) = dat.blockOf 0 s := fun s => by
    rw [hafter, hblk]
  refine (dat.before_in_eq_fetched 0 rfl (fun _ => rfl) (fun _ _ _ => rfl) hkeep t d).trans ?_
  exact (show dat.fetched 0 t d = dat.blockOf 0 t from rfl).trans (hblk t)

/-- Window 1, the gathered keys: rows `6400·t …`, copied in at every slab. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hblk : ∀ s, dat.blockOf 1 s = iblk1 V c 1 s := fun s => by unfold Dat.blockOf iblk1; rw [hA]
  have hkeep : ∀ s, (cfg1.win 1).cut (cfg1.grid.coords s) (dat.after 1 s) = dat.blockOf 1 s := fun s => by
    rw [hafter, hblk]
  refine (dat.before_in_eq_fetched 1 rfl (fun _ => rfl) (fun _ _ _ => rfl) hkeep t d).trans ?_
  exact (show dat.fetched 1 t d = dat.blockOf 1 t from rfl).trans (hblk t)

/-- Window 2, the edge bias: rows `6400·t …` of the 800000×4 array, copied in at every slab. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hblk : ∀ s, dat.blockOf 2 s = iblk1 V c 2 s := fun s => by unfold Dat.blockOf iblk1; rw [hA]
  have hkeep : ∀ s, (cfg1.win 2).cut (cfg1.grid.coords s) (dat.after 2 s) = dat.blockOf 2 s := fun s => by
    rw [hafter, hblk]
  refine (dat.before_in_eq_fetched 2 rfl (fun _ => rfl) (fun _ _ _ => rfl) hkeep t d).trans ?_
  exact (show dat.fetched 2 t d = dat.blockOf 2 t from rfl).trans (hblk t)

/-- Window 3, the head table: the whole 128×4 array at every slab. It is copied in at the first slab only; its
    block index is the constant (0, 0), so at a later slab the buffer the body kept still holds it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hblk : ∀ s, dat.blockOf 3 s = iblk1 V c 3 s := fun s => by unfold Dat.blockOf iblk1; rw [hA]
  have hkeep : ∀ s, (cfg1.win 3).cut (cfg1.grid.coords s) (dat.after 3 s) = dat.blockOf 3 s := fun s => by
    rw [hafter, hblk]
  refine (dat.before_in_eq_fetched 3 rfl (fun _ => rfl) (fun _ _ _ => rfl) hkeep t d).trans ?_
  exact (show dat.fetched 3 t d = dat.blockOf 3 t from rfl).trans (hblk t)

/-! ## The output: one store over the whole 6400×4 buffer -/

/-- The three rectangles the body touches: all of a 6400×128 buffer, all of the 128×4 table, all of a 6400×4
    buffer. -/
abbrev slabRows128_1 : Rect S6400x128 := Rect.unit (s := S6400x128) ![0, 0] S6400x128.size inb_S6400x128_S6400x128_0_0
abbrev headTable_1 : Rect S128x4 := Rect.unit (s := S128x4) ![0, 0] S128x4.size inb_S128x4_S128x4_0_0
abbrev slabRows4_1 : Rect S6400x4 := Rect.unit (s := S6400x4) ![0, 0] S6400x4.size inb_S6400x4_S6400x4_0_0

/-- What the body leaves in the output buffer, as a function of the four input buffers' contents (queries,
    keys, edge bias, head table — the windows' order): the logits of the slab, laid over the whole buffer. The
    stored value reads the queries and keys first, then the table, then the bias. -/
def out1_4 (q k : Vec F S6400x128 .f32) (eb : Vec F S6400x4 .f32) (g : Vec F S128x4 .f32) : Vec F S6400x4 .f32 :=
  View.canon [⟨slabRows4_1, k1_pay1 (View.ld q slabRows128_1) (View.ld k slabRows128_1) (View.ld g headTable_1) (View.ld eb slabRows4_1)⟩]

/-- The one store is the buffer-sized block at offset (0, 0): every index of the buffer lies in it. -/
theorem cover1_4 (p : Vec F S6400x4 .f32) (y : S6400x4.Idx) :
    ∃ pc ∈ ([⟨slabRows4_1, p⟩] : List (View.Piece (Elt F) S6400x4 .f32)), y ∈ pc.1.set :=
  View.cover_of_tiled [⟨slabRows4_1, p⟩] S6400x4.size (by rfl) y

/-! ## The body on arbitrary whole buffers -/

set_option maxHeartbeats 1000000 in
/-- Run on five whole staging buffers, the four inputs reading `q`, `k`, `eb`, `g` and the output holding
    anything, the body reads the inputs (and, idly, the output), stores the logits over the output and returns:
    the inputs read what they read before, the output reads `out1_4 q k eb g`. The body is its sequence of five
    loads and one store over the named stored value; the single store covers the output, so what the output
    reads afterwards does not depend on what it held. -/
theorem sound_kernel1 (c : Dev nD) (E : Set ℕ) (i : grid1.Coords)
    (arg1 : Memref sig .tc .vmem S6400x128 .f32) (harg1 : arg1.IsWhole) (arg2 : Memref sig .tc .vmem S6400x128 .f32) (harg2 : arg2.IsWhole)
    (arg3 : Memref sig .tc .vmem S6400x4 .f32) (harg3 : arg3.IsWhole) (arg4 : Memref sig .tc .vmem S128x4 .f32) (harg4 : arg4.IsWhole)
    (arg5 : Memref sig .tc .vmem S6400x4 .f32) (harg5 : arg5.IsWhole)
    (q k : Vec F S6400x128 .f32) (eb : Vec F S6400x4 .f32) (g : Vec F S128x4 .f32) (K : PUnit → sProp 𝕄) :
    iprop(owns (c : Thread nD τ) arg1 fullShare q ∗ owns (c : Thread nD τ) arg2 fullShare k
        ∗ owns (c : Thread nD τ) arg3 fullShare eb ∗ owns (c : Thread nD τ) arg4 fullShare g
        ∗ (∃ d, owns (c : Thread nD τ) arg5 fullShare d)
        ∗ (iprop(owns (c : Thread nD τ) arg1 fullShare q ∗ owns (c : Thread nD τ) arg2 fullShare k
            ∗ owns (c : Thread nD τ) arg3 fullShare eb ∗ owns (c : Thread nD τ) arg4 fullShare g
            ∗ owns (c : Thread nD τ) arg5 fullShare (out1_4 q k eb g)) -∗ K ⟨⟩))
      ⊢ wp frame (wpE (defs₀ (F := F)) Variants.none c none) E (cc1__attn_score_kernel i arg1 harg1 arg2 harg2 arg3 harg3 arg4 harg4 arg5 harg5) K := by
  simp only [cc1__attn_score_kernel_eq_skeleton]; unfold cc1__attn_score_kernel_skel
  unfold owns
  iintro ⟨⟨%fq, %hq, Hq⟩, ⟨%fk, %hk, Hk⟩, ⟨%fe, %he, He⟩, ⟨%fg, %hg, Hg⟩, ⟨%d, %fo, -, Ho⟩, Hret⟩
  subst hq hk he hg
  sl_exec
  sl_step
  -- the run is over: hand every buffer back, the inputs untouched, the output after its one store
  iapply Hret
  isplitl [Hq]; · iexists fq; isplitr; · ipureintro; rfl
                  iexact Hq
  isplitl [Hk]; · iexists fk; isplitr; · ipureintro; rfl
                  iexact Hk
  isplitl [He]; · iexists fe; isplitr; · ipureintro; rfl
                  iexact He
  isplitl [Hg]; · iexists fg; isplitr; · ipureintro; rfl
                  iexact Hg
  iexists _; isplitr
  swap; · iexact Ho
  -- a store that covers the buffer leaves the stored value at every index, whatever was there
  ipureintro
  exact View.read_writes_eq_canon _ _ _ (cover1_4 _)

/-! ## The proof data of the pipeline -/

/-- On core `c`: the five arrays as `V` holds them; after the body at slab `t` each input buffer still at its
    slab and the output buffer at the logits of the four slabs; the invariant carried from slab to slab is the
    untouched remainder of the core's state; every array held outright and nothing owed to other cores. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The arrays of `dat1` are `V`'s. -/
theorem A_eq1 (c : Dev nD) (w : Fin cfg1.W) : (dat1 V c).A w = V c (Pipeline.arrRef spec1 w) := by
  dsimp only [dat1]

/-- What the body leaves in each of the five buffers at slab `t`. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- What the body finds in each input buffer at slab `t`: the slab. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body at slab `t` -/

/-- What the pipeline holds when it calls the body at slab `t`: the invariant, the core's debts, and the five
    current buffers, each at what it then holds for some earlier contents `d`; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it wants back: the same at the next slab, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at slab `t` takes the one to the other. The four input buffers hold their slabs (`before1_w`), the
    output buffer holds something, so the triple on whole buffers applies with the slabs as the inputs'
    contents; the invariant and the debts do not depend on the slab and pass by. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Howe, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howe]; · iexact Howe
  isplitl [H0]; · iexact H0
  isplitl [H1]; · iexact H1
  isplitl [H2]; · iexact H2
  isplitl [H3]; · iexact H3
  iexact H4

/-- The obligation of the pipeline rule: the product over the five windows, written out, is the triple above. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg2.lean ====
import proofs.«163383_j64295660421655_1_alg».proof.Proof.Gen.KernelIdeal.Launch
import proofs.«163383_j64295660421655_1_alg».proof.Proof.Gen.KernelIdeal.Skeleton
import proofs.«163383_j64295660421655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The third kernel call of the program, `cc2__weighted_v_kernel`, as one region of the frame.

  The call walks 125 grid points. At point t it sees rows 6400·t … 6400·t + 6399 of the value rows
  (800000 × 128), the same rows of the attention weights (800000 × 4), all of the 4 × 128 head-spreading
  table, and it fills the same rows of the 800000 × 128 result. The body reads its three input blocks whole,
  forms ONE 6400 × 128 value from them and stores it over the whole output block.

  Everything here is stated for an arbitrary float instance and at a parameter `V`: what the TensorCore's
  buffers hold when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show -/

/-- The block of window `w` at grid point `t`, cut out of the window's array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer shows the window's block at EVERY point, for any proof data that starts from
    `V`'s array and whose body hands the block back unchanged. At a point with a fetch, the fetch put the block
    there; at a point without one the block index has not moved since the last fetch and the body kept the block,
    so the buffer still shows it. The three input windows are whole blocks (never cut, never idle), so the side
    conditions of `Dat.before_in_eq_fetched` hold by computation. -/

/-- The value rows (window 0): fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hblk : ∀ u, dat.blockOf 0 u = iblk2 V c 0 u := fun u => by unfold Dat.blockOf iblk2; rw [hA]
  refine (dat.before_in_eq_fetched 0 rfl (fun _ => rfl) (fun _ _ _ => rfl) (fun u => ?_) t d).trans (hblk t)
  exact (hafter u).trans (hblk u).symm

/-- The attention weights (window 1): fetched at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hblk : ∀ u, dat.blockOf 1 u = iblk2 V c 1 u := fun u => by unfold Dat.blockOf iblk2; rw [hA]
  refine (dat.before_in_eq_fetched 1 rfl (fun _ => rfl) (fun _ _ _ => rfl) (fun u => ?_) t d).trans (hblk t)
  exact (hafter u).trans (hblk u).symm

/-- The head-spreading table (window 2): its block index is constant, so it is fetched once, at the first point,
    and every later point finds that block still in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hblk : ∀ u, dat.blockOf 2 u = iblk2 V c 2 u := fun u => by unfold Dat.blockOf iblk2; rw [hA]
  refine (dat.before_in_eq_fetched 2 rfl (fun _ => rfl) (fun _ _ _ => rfl) (fun u => ?_) t d).trans (hblk t)
  exact (hafter u).trans (hblk u).symm

/-! ## What the body does to its four buffers

The body touches each buffer through ONE rectangle: the whole block, from offset (0, 0). -/

/-- All 6400 × 128 entries of a value-row block (read from window 0, written to window 3). -/
abbrev allRows2 : Rect S6400x128 := Rect.unit (s := S6400x128) ![0, 0] S6400x128.size inb_S6400x128_S6400x128_0_0
/-- All 6400 × 4 entries of a block of attention weights. -/
abbrev allWeights2 : Rect S6400x4 := Rect.unit (s := S6400x4) ![0, 0] S6400x4.size inb_S6400x4_S6400x4_0_0
/-- All 4 × 128 entries of the head-spreading table. -/
abbrev allTable2 : Rect S4x128 := Rect.unit (s := S4x128) ![0, 0] S4x128.size inb_S4x128_S4x128_0_0

/-- What the body leaves in the output block, as a function of the three input blocks `vs` (value rows),
    `an` (attention weights) and `gt` (the table): its single store, of the product
    vs ⊙ (an · gt) that the payload `k2_pay1` names, laid over the whole block. -/
def out2_3 (vs : Vec F S6400x128 .f32) (an : Vec F S6400x4 .f32) (gt : Vec F S4x128 .f32) : Vec F S6400x128 .f32 :=
  View.canon [⟨allRows2, k2_pay1 (View.ld vs allRows2) (View.ld an allWeights2) (View.ld gt allTable2)⟩]

/-- One store through the whole-block rectangle reaches every entry of the block, whatever is stored. -/
theorem cover2_3 (p : Vec F S6400x128 .f32) (y : S6400x128.Idx) :
    ∃ pc ∈ ([⟨allRows2, p⟩] : List (View.Piece (Elt F) S6400x128 .f32)), y ∈ pc.1.set :=
  View.cover_of_tiled [⟨allRows2, p⟩] S6400x128.size (by rfl) y

set_option maxHeartbeats 1000000 in
/-- The body, run on four whole staging buffers: the three inputs showing `vs`, `an`, `gt`, the output showing
    anything. It returns the inputs as they were and the output showing `out2_3 vs an gt`. The body also reads the
    output block before it overwrites it; that value is not used, and the store covers the block, so what the
    output showed on entry does not matter. -/
theorem sound_kernel2 (c : Dev nD) (E : Set ℕ) (i : grid2.Coords)
    (arg1 : Memref sig .tc .vmem S6400x128 .f32) (harg1 : arg1.IsWhole) (arg2 : Memref sig .tc .vmem S6400x4 .f32) (harg2 : arg2.IsWhole)
    (arg3 : Memref sig .tc .vmem S4x128 .f32) (harg3 : arg3.IsWhole) (arg4 : Memref sig .tc .vmem S6400x128 .f32) (harg4 : arg4.IsWhole)
    (vs : Vec F S6400x128 .f32) (an : Vec F S6400x4 .f32) (gt : Vec F S4x128 .f32) (K : PUnit → sProp 𝕄) :
    iprop(owns (c : Thread nD τ) arg1 fullShare vs ∗ owns (c : Thread nD τ) arg2 fullShare an ∗ owns (c : Thread nD τ) arg3 fullShare gt
        ∗ (∃ d, owns (c : Thread nD τ) arg4 fullShare d)
        ∗ (iprop(owns (c : Thread nD τ) arg1 fullShare vs ∗ owns (c : Thread nD τ) arg2 fullShare an ∗ owns (c : Thread nD τ) arg3 fullShare gt
            ∗ owns (c : Thread nD τ) arg4 fullShare (out2_3 vs an gt)) -∗ K ⟨⟩))
      ⊢ wp frame (wpE (defs₀ (F := F)) Variants.none c none) E (cc2__weighted_v_kernel i arg1 harg1 arg2 harg2 arg3 harg3 arg4 harg4) K := by
  rw [cc2__weighted_v_kernel_eq_skeleton]
  unfold cc2__weighted_v_kernel_skel owns
  iintro ⟨⟨%f1, %e1, H1⟩, ⟨%f2, %e2, H2⟩, ⟨%f3, %e3, H3⟩, ⟨%d, %f4, -, H4⟩, Hk⟩
  subst e1 e2 e3
  sl_exec
  sl_step
  -- the continuation gets the three inputs back unread-from-elsewhere, each at the contents it was found at,
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  -- and the output at the entry contents overwritten by the one store: read back, that is the store's payload
  -- everywhere, because the store reaches every entry.
  iexists _; isplitr
  rotate_left
  · iexact H4
  · ipureintro; exact View.read_writes_eq_canon _ _ _ (cover2_3 _)

/-! ## The proof data of the pipeline -/

/-- On core `c`: the arrays are what `V` holds; after the body at point `t` the three input buffers still show their
    blocks and the output buffer shows `out2_3` of those blocks; the invariant is the untouched rest of the core's
    state (`Pipeline.ΦA`); all shares are full and nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The arrays of the proof data are `V`'s. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- What the body finds in each input buffer: the window's block, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body at a grid point -/

/-- The invariant and the debts of the proof data are the same at every point of the grid. -/
theorem inv_const2 (c : Dev nD) (s s' : Fin (cfg2.N + 1)) : (dat2 V c).Φ s = (dat2 V c).Φ s' := rfl
theorem owes_const2 (c : Dev nD) (s s' : Fin (cfg2.N + 1)) : (dat2 V c).owesAt () s = (dat2 V c).owesAt () s' := rfl

/-- What the pipeline hands the body at point `t`: the invariant, the core's debts, and the four current staging
    buffers, each at what the proof data say it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it takes back: the same, the buffers at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at point `t` takes the one to the other. The three input buffers show their blocks (`before2_w`) and the
    output buffer shows something, which is all `sound_kernel2` asks; the invariant and the debts are the same
    before and after the point and are carried across untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [inv_const2 V c t.succ t.castSucc, owes_const2 V c t.succ t.castSucc, after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline rule asks of the body, at every grid point: the rule's conjunction over the four
    windows, written out window by window, is `bodyPre2` before and `bodyPost2` after. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Reg3.lean ====
import proofs.«163383_j64295660421655_1_alg».proof.Proof.Gen.KernelIdeal.Launch
import proofs.«163383_j64295660421655_1_alg».proof.Proof.Gen.KernelIdeal.Skeleton
import proofs.«163383_j64295660421655_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The last kernel region (the output layer): rows 5000·t … 5000·t + 4999 of the node features and of the
  aggregated messages meet four small whole arrays (two weight matrices and a bias for each of two affine maps)
  and leave one block of 5000 rows of the result. This file says, for ANY contents the core's buffers hold when
  the region is entered, what each staging buffer holds before and after the body at a grid point, and shows the
  body turns the one into the other.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block -/

/-- The part of window `w`'s array (at the entry contents `V`) that grid point `t` addresses: for the two row
    windows and the output, rows 5000·t onwards; for the five small arrays, all of the array at every point. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## What an input's staging buffer holds when the body runs

Each of the seven inputs is left in place by the body, is never idle and is never cut at the array's edge, so at
every point its buffer holds the block that point addresses. For the row windows the pipeline has just fetched it;
for the five small arrays the fetch happened at the first point and the block index has not moved since. The same
library fact (`Dat.before_in_eq_fetched`) covers both; it is stated for any proof data that agree with `V` on the
window's array and keep the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t := by
  have hblk : ∀ s, dat.blockOf 0 s = iblk3 V c 0 s := fun s => by
    unfold Dat.blockOf iblk3; exact congrArg _ hA
  refine (dat.before_in_eq_fetched 0 rfl (fun _ => rfl) (fun _ _ _ => rfl) (fun s => ?_) t d).trans (hblk t)
  exact (hafter s).trans (hblk s).symm

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t := by
  have hblk : ∀ s, dat.blockOf 1 s = iblk3 V c 1 s := fun s => by
    unfold Dat.blockOf iblk3; exact congrArg _ hA
  refine (dat.before_in_eq_fetched 1 rfl (fun _ => rfl) (fun _ _ _ => rfl) (fun s => ?_) t d).trans (hblk t)
  exact (hafter s).trans (hblk s).symm

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t := by
  have hblk : ∀ s, dat.blockOf 2 s = iblk3 V c 2 s := fun s => by
    unfold Dat.blockOf iblk3; exact congrArg _ hA
  refine (dat.before_in_eq_fetched 2 rfl (fun _ => rfl) (fun _ _ _ => rfl) (fun s => ?_) t d).trans (hblk t)
  exact (hafter s).trans (hblk s).symm

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t := by
  have hblk : ∀ s, dat.blockOf 3 s = iblk3 V c 3 s := fun s => by
    unfold Dat.blockOf iblk3; exact congrArg _ hA
  refine (dat.before_in_eq_fetched 3 rfl (fun _ => rfl) (fun _ _ _ => rfl) (fun s => ?_) t d).trans (hblk t)
  exact (hafter s).trans (hblk s).symm

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t := by
  have hblk : ∀ s, dat.blockOf 4 s = iblk3 V c 4 s := fun s => by
    unfold Dat.blockOf iblk3; exact congrArg _ hA
  refine (dat.before_in_eq_fetched 4 rfl (fun _ => rfl) (fun _ _ _ => rfl) (fun s => ?_) t d).trans (hblk t)
  exact (hafter s).trans (hblk s).symm

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t := by
  have hblk : ∀ s, dat.blockOf 5 s = iblk3 V c 5 s := fun s => by
    unfold Dat.blockOf iblk3; exact congrArg _ hA
  refine (dat.before_in_eq_fetched 5 rfl (fun _ => rfl) (fun _ _ _ => rfl) (fun s => ?_) t d).trans (hblk t)
  exact (hafter s).trans (hblk s).symm

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t := by
  have hblk : ∀ s, dat.blockOf 6 s = iblk3 V c 6 s := fun s => by
    unfold Dat.blockOf iblk3; exact congrArg _ hA
  refine (dat.before_in_eq_fetched 6 rfl (fun _ => rfl) (fun _ _ _ => rfl) (fun s => ?_) t d).trans (hblk t)
  exact (hafter s).trans (hblk s).symm

/-! ## The body's one store

The body reads each of its seven inputs whole, and writes the whole 5000 × 128 output block once. -/

/-- All of a 5000 × 128 block, -/
abbrev rect3_rows : Rect S5000x128 := Rect.unit (s := S5000x128) ![0, 0] S5000x128.size inb_S5000x128_S5000x128_0_0
/-- all of a 128 × 128 matrix, -/
abbrev rect3_mat : Rect S128x128 := Rect.unit (s := S128x128) ![0, 0] S128x128.size inb_S128x128_S128x128_0_0
/-- all of a vector of 128. -/
abbrev rect3_vec : Rect S128 := Rect.unit (s := S128) ![0] S128.size inb_S128_S128_0

/-- What the output's staging buffer holds after the body, given what the seven inputs' buffers hold (in window
    order: feature rows, aggregate rows, the projection's matrix and bias, the two matrices of the last affine map,
    its bias): the single store's value laid over the whole block. -/
def out3_7 (x0 : Vec F S5000x128 .f32) (x1 : Vec F S5000x128 .f32) (x2 : Vec F S128x128 .f32) (x3 : Vec F S128 .f32) (x4 : Vec F S128x128 .f32) (x5 : Vec F S128x128 .f32) (x6 : Vec F S128 .f32) : Vec F S5000x128 .f32 :=
  View.canon [⟨rect3_rows, k3_pay1 (View.ld x0 rect3_rows) (View.ld x1 rect3_rows) (View.ld x2 rect3_mat) (View.ld x3 rect3_vec) (View.ld x4 rect3_mat) (View.ld x5 rect3_mat) (View.ld x6 rect3_vec)⟩]

/-- That store leaves no element of the block unwritten: its rectangle is the block. -/
theorem cover3_7 (p : Vec F S5000x128 .f32) (y : S5000x128.Idx) :
    ∃ pc ∈ ([⟨rect3_rows, p⟩] : List (View.Piece (Elt F) S5000x128 .f32)), y ∈ pc.1.set :=
  View.cover_of_tiled [⟨rect3_rows, p⟩] S5000x128.size (by rfl) y

/-! ## The body, on any eight whole buffers -/

set_option maxHeartbeats 1000000 in
/-- Run on whole buffers of which the first seven read `x0 … x6` and the eighth reads anything, the body gives the
    seven back as they were and the eighth reading `out3_7 x0 … x6`. The body's text is a sequence of eight whole
    loads (the eighth, of the output buffer, is unused) and one whole store; the symbolic run walks it, and the store,
    covering the block, determines all of it whatever was there before. -/
theorem sound_kernel3 (c : Dev nD) (E : Set ℕ) (i : grid3.Coords) (a0 : Memref sig .tc .vmem S5000x128 .f32) (w0 : a0.IsWhole) (a1 : Memref sig .tc .vmem S5000x128 .f32) (w1 : a1.IsWhole) (a2 : Memref sig .tc .vmem S128x128 .f32) (w2 : a2.IsWhole) (a3 : Memref sig .tc .vmem S128 .f32) (w3 : a3.IsWhole) (a4 : Memref sig .tc .vmem S128x128 .f32) (w4 : a4.IsWhole) (a5 : Memref sig .tc .vmem S128x128 .f32) (w5 : a5.IsWhole) (a6 : Memref sig .tc .vmem S128 .f32) (w6 : a6.IsWhole) (a7 : Memref sig .tc .vmem S5000x128 .f32) (w7 : a7.IsWhole)
    (x0 : Vec F S5000x128 .f32) (x1 : Vec F S5000x128 .f32) (x2 : Vec F S128x128 .f32) (x3 : Vec F S128 .f32) (x4 : Vec F S128x128 .f32) (x5 : Vec F S128x128 .f32) (x6 : Vec F S128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out3_7 x0 x1 x2 x3 x4 x5 x6)) -∗ K ⟨⟩))
      ⊢ wp frame (wpE (defs₀ (F := F)) Variants.none c none) E (cc3__final_kernel i a0 w0 a1 w1 a2 w2 a3 w3 a4 w4 a5 w5 a6 w6 a7 w7) K := by
  rw [cc3__final_kernel_eq_skeleton]; unfold cc3__final_kernel_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d, %g, -, H7⟩, Hk⟩
  subst e0; subst e1; subst e2; subst e3; subst e4; subst e5; subst e6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  -- the eighth buffer: its points-to fixes the contents, and a covering write reads as its value everywhere
  iexists _; isplitr
  pick_goal 2
  · iexact H7
  · ipureintro; exact View.read_writes_eq_canon _ _ _ (cover3_7 _)

/-! ## The region's proof data -/

/-- On core `c`: every windowed array as the region finds it; after the body at point `t` each input's buffer still at
    the block that point addresses, and the output's at `out3_7` of those seven blocks; between points nothing but the
    untouched rest of the core's state; every array held in full; no signal owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

/-! The `after` field, one window at a time. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) :
    (dat3 V c).after 7 t = out3_7 (iblk3 V c 0 t) (iblk3 V c 1 t) (iblk3 V c 2 t) (iblk3 V c 3 t) (iblk3 V c 4 t) (iblk3 V c 5 t) (iblk3 V c 6 t) := by
  dsimp only [dat3]

/-! So each input's buffer holds its block when the body starts. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body at a grid point -/

/-- What the pipeline hands the body at point `t`: the invariant, the core's debt, and each window's current
    staging buffer at what it then holds. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- What the body hands back: the same, each buffer at what the proof data say it leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 1000000 in
/-- The invariant and the debt do not depend on the point and the body does not look at them; the seven inputs'
    buffers hold their blocks, the output's holds anything: exactly what `sound_kernel3` asks, and what it returns
    is the proof data's `after`. -/
theorem sound_body3 (c : Dev nD) (t : Fin cfg3.N) :
    bodyPre3 V c t ⊢ wp frame (wpE (defs₀ (F := F)) Variants.none c none) Set.univ (bodyAt3 t) (fun _ => bodyPost3 V c t) := by
  have hΦ : (dat3 V c).Φ t.succ = (dat3 V c).Φ t.castSucc := rfl
  have hO : (dat3 V c).owesAt () t.succ = (dat3 V c).owesAt () t.castSucc := rfl
  unfold bodyPre3 bodyPost3 bodyAt3
  rw [hΦ, hO, after3_0, after3_1, after3_2, after3_3, after3_4, after3_5, after3_6, after3_7]
  simp only [before3_0, before3_1, before3_2, before3_3, before3_4, before3_5, before3_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 (c := c) (E := Set.univ) (x0 := iblk3 V c 0 t) (x1 := iblk3 V c 1 t) (x2 := iblk3 V c 2 t) (x3 := iblk3 V c 3 t) (x4 := iblk3 V c 4 t) (x5 := iblk3 V c 5 t) (x6 := iblk3 V c 6 t))
  iframe H0 H1 H2 H3 H4 H5 H6
  isplitl [H7]
  · iexists _; iexact H7
  iintro ⟨H0, H1, H2, H3, H4, H5, H6, H7⟩
  iframe HΦ Ho H0 H1 H2 H3 H4 H5 H6 H7

/-- At every point, in the library's own form (its product over the eight windows written out). -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Fold.lean ====
import proofs.«163383_j64295660421655_1_alg».proof.Proof.Reg0
import proofs.«163383_j64295660421655_1_alg».proof.Proof.Reg1
import proofs.«163383_j64295660421655_1_alg».proof.Proof.Reg2
import proofs.«163383_j64295660421655_1_alg».proof.Proof.Reg3
import proofs.«163383_j64295660421655_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The contents of the TensorCore's unscoped buffers at each boundary between two items of @main, as a fold from the
  launch memory. @main is ten items: a stretch of host operations, the projection region, three stretches (the gathers
  and the grouping table), the attention-score region, a stretch (the global maximum, the exponentials, the
  per-node sums and the normalisation), the weighting region, a stretch (the per-node aggregation and the two halves
  of the last weight matrix), the output region.

  A host stretch takes the contents to the stretch's fold over them. A region takes them to the same contents except
  at its windows' arrays, each of which holds what the pipeline's write-backs leave: for an input window its entry
  contents, for the output window every block written where its index map puts it.

  No item writes an argument of @main: a host operation writes only its own result, and a region changes only its
  output array. So each argument's buffer, read through the whole fold, is the launch memory's.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The contents at each boundary -/

/-- At launch. -/
abbrev W0 : Dev nD → Valuation τ sig (Elt F) := fun c b => m (c, b)
/-- After the first host stretch: the projection region's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the projection region: its arrays at what the pipeline leaves, everything else as entered. -/
def W2 (c : Dev nD) : Valuation τ sig (Elt F) :=
  Pipeline.withArrays spec0 c (W1 m c) fun w => (dat0 (E1 m) c).arrAt w cfg0.N
abbrev W3 : Dev nD → Valuation τ sig (Elt F) := fun c => StableHlo.after hostOps1 (W2 m c)
abbrev W4 : Dev nD → Valuation τ sig (Elt F) := fun c => StableHlo.after hostOps1_1 (W3 m c)
/-- After the three stretches: the attention-score region's entry. -/
abbrev W5 : Dev nD → Valuation τ sig (Elt F) := fun c => StableHlo.after hostOps1_2 (W4 m c)
abbrev E5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (E5 m) c).arrAt w cfg1.N
/-- After the softmax stretch: the weighting region's entry. -/
abbrev W7 : Dev nD → Valuation τ sig (Elt F) := fun c => StableHlo.after hostOps2 (W6 m c)
abbrev E7 : (c : Dev nD) → (b : Ref sig .tc) → Buf (Elt F) ((c : Thread nD τ).loc b) := fun c b => W7 m c b
def W8 (c : Dev nD) : Valuation τ sig (Elt F) :=
  Pipeline.withArrays spec2 c (W7 m c) fun w => (dat2 (E7 m) c).arrAt w cfg2.N
/-- After the aggregation stretch: the output region's entry. -/
abbrev W9 : Dev nD → Valuation τ sig (Elt F) := fun c => StableHlo.after hostOps3 (W8 m c)
abbrev E9 : (c : Dev nD) → (b : Ref sig .tc) → Buf (Elt F) ((c : Thread nD τ).loc b) := fun c b => W9 m c b
/-- At the return. -/
def W10 (c : Dev nD) : Valuation τ sig (Elt F) :=
  Pipeline.withArrays spec3 c (W9 m c) fun w => (dat3 (E9 m) c).arrAt w cfg3.N

abbrev E2 : (c : Dev nD) → (b : Ref sig .tc) → Buf (Elt F) ((c : Thread nD τ).loc b) := fun c b => W2 m c b
abbrev E6 : (c : Dev nD) → (b : Ref sig .tc) → Buf (Elt F) ((c : Thread nD τ).loc b) := fun c b => W6 m c b
abbrev E8 : (c : Dev nD) → (b : Ref sig .tc) → Buf (Elt F) ((c : Thread nD τ).loc b) := fun c b => W8 m c b
abbrev E10 : (c : Dev nD) → (b : Ref sig .tc) → Buf (Elt F) ((c : Thread nD τ).loc b) := fun c b => W10 m c b

/-! ## A region's exit: its arrays, and everything else -/

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem W10_arr (c : Dev nD) (w : Fin cfg3.W) :
    W10 m c (Proc.devRef .tc (Pipeline.arrRef spec3 w)) = (dat3 (E9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb

/-- The two facts the exit of a region is assembled from: each of its arrays holds what the pipeline leaves, and every
    other buffer what it held at entry. -/
theorem hF0 (c : Dev nD) (w : Fin cfg0.W) : (dat0 (E1 m) c).arrAt w cfg0.N = E2 m c (Pipeline.arrRef spec0 w) := (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
theorem hF1 (c : Dev nD) (w : Fin cfg1.W) : (dat1 (E5 m) c).arrAt w cfg1.N = E6 m c (Pipeline.arrRef spec1 w) := (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)
theorem hF2 (c : Dev nD) (w : Fin cfg2.W) : (dat2 (E7 m) c).arrAt w cfg2.N = E8 m c (Pipeline.arrRef spec2 w) := (W8_arr m c w).symm
theorem hrest2 (c : Dev nD) : ∀ b, b ∉ Finset.univ.image (Pipeline.arrRef spec2) → E8 m c b = E7 m c b :=
  fun b hb => W8_of_ne m c b fun w e => hb (Finset.mem_image.mpr ⟨w, Finset.mem_univ _, e⟩)
theorem hF3 (c : Dev nD) (w : Fin cfg3.W) : (dat3 (E9 m) c).arrAt w cfg3.N = E10 m c (Pipeline.arrRef spec3 w) := (W10_arr m c w).symm
theorem hrest3 (c : Dev nD) : ∀ b, b ∉ Finset.univ.image (Pipeline.arrRef spec3) → E10 m c b = E9 m c b :=
  fun b hb => W10_of_ne m c b fun w e => hb (Finset.mem_image.mpr ⟨w, Finset.mem_univ _, e⟩)

/-! ## What a host stretch leaves alone -/

theorem W1_host (c : Dev nD) (r : Ref sig .tc) (h : r ∉ hostOps0_W) : W1 m c (Proc.devRef .tc r) = W0 m c (Proc.devRef .tc r) :=
  StableHlo.after_of_writes_sub hostOps0 _ hostOps0_writes h
theorem W3_host (c : Dev nD) (r : Ref sig .tc) (h : r ∉ hostOps1_W) : W3 m c (Proc.devRef .tc r) = W2 m c (Proc.devRef .tc r) :=
  StableHlo.after_of_writes_sub hostOps1 _ hostOps1_writes h
theorem W4_host (c : Dev nD) (r : Ref sig .tc) (h : r ∉ hostOps1_1_W) : W4 m c (Proc.devRef .tc r) = W3 m c (Proc.devRef .tc r) :=
  StableHlo.after_of_writes_sub hostOps1_1 _ hostOps1_1_writes h
theorem W5_host (c : Dev nD) (r : Ref sig .tc) (h : r ∉ hostOps1_2_W) : W5 m c (Proc.devRef .tc r) = W4 m c (Proc.devRef .tc r) :=
  StableHlo.after_of_writes_sub hostOps1_2 _ hostOps1_2_writes h
theorem W7_host (c : Dev nD) (r : Ref sig .tc) (h : r ∉ hostOps2_W) : W7 m c (Proc.devRef .tc r) = W6 m c (Proc.devRef .tc r) :=
  StableHlo.after_of_writes_sub hostOps2 _ hostOps2_writes h
theorem W9_host (c : Dev nD) (r : Ref sig .tc) (h : r ∉ hostOps3_W) : W9 m c (Proc.devRef .tc r) = W8 m c (Proc.devRef .tc r) :=
  StableHlo.after_of_writes_sub hostOps3 _ hostOps3_writes h

/-! ## An input window's array leaves its region as it entered -/

theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (E5 m) c).arrAt_in w hw _).trans (A_eq1 (E5 m) c w))
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((dat2 (E7 m) c).arrAt_in w hw _).trans (A_eq2 (E7 m) c w))
theorem W10_in (c : Dev nD) (w : Fin cfg3.W) (hw : (cfg3.win w).isOut = false) :
    W10 m c (Proc.devRef .tc (Pipeline.arrRef spec3 w)) = W9 m c (Proc.devRef .tc (Pipeline.arrRef spec3 w)) :=
  (W10_arr m c w).trans (((dat3 (E9 m) c).arrAt_in w hw _).trans (A_eq3 (E9 m) c w))

/-! ## Each argument ends as launched -/

/-- An argument that no region stages, or only as an input, read back through the ten items. The four region steps are
    given (each is `W…_in` at the window that stages the argument, or `W…_of_ne`); the six host steps are the
    stretches' write sets, none of which holds an argument. -/
theorem kept_of (c : Dev nD) (r : Ref sig .tc)
    (h10 : W10 m c (Proc.devRef .tc r) = W9 m c (Proc.devRef .tc r)) (h9 : r ∉ hostOps3_W)
    (h8 : W8 m c (Proc.devRef .tc r) = W7 m c (Proc.devRef .tc r)) (h7 : r ∉ hostOps2_W)
    (h6 : W6 m c (Proc.devRef .tc r) = W5 m c (Proc.devRef .tc r)) (h5 : r ∉ hostOps1_2_W) (h4 : r ∉ hostOps1_1_W) (h3 : r ∉ hostOps1_W)
    (h2 : W2 m c (Proc.devRef .tc r) = W1 m c (Proc.devRef .tc r)) (h1 : r ∉ hostOps0_W) :
    W10 m c (Proc.devRef .tc r) = m ((c : Thread nD τ).loc r) :=
  h10.trans <| (W9_host m c r h9).trans <| h8.trans <| (W7_host m c r h7).trans <| h6.trans <| (W5_host m c r h5).trans <|
    (W4_host m c r h4).trans <| (W3_host m c r h3).trans <| h2.trans <| (W1_host m c r h1).trans rfl

theorem kept_main_arg0 (c : Dev nD) : W10 m c (Proc.devRef .tc main_arg0) = m ((c : Thread nD τ).loc main_arg0) :=
  kept_of m c main_arg0 (W10_in m c 0 rfl) (by decide) (W8_of_ne m c _ (by decide)) (by decide) (W6_of_ne m c _ (by decide)) (by decide) (by decide) (by decide) (W2_in m c 0 rfl) (by decide)
theorem kept_main_arg1 (c : Dev nD) : W10 m c (Proc.devRef .tc main_arg1) = m ((c : Thread nD τ).loc main_arg1) :=
  kept_of m c main_arg1 (W10_of_ne m c _ (by decide)) (by decide) (W8_of_ne m c _ (by decide)) (by decide) (W6_of_ne m c _ (by decide)) (by decide) (by decide) (by decide) (W2_of_ne m c _ (by decide)) (by decide)
theorem kept_main_arg2 (c : Dev nD) : W10 m c (Proc.devRef .tc main_arg2) = m ((c : Thread nD τ).loc main_arg2) :=
  kept_of m c main_arg2 (W10_of_ne m c _ (by decide)) (by decide) (W8_of_ne m c _ (by decide)) (by decide) (W6_of_ne m c _ (by decide)) (by decide) (by decide) (by decide) (W2_of_ne m c _ (by decide)) (by decide)
theorem kept_main_arg3 (c : Dev nD) : W10 m c (Proc.devRef .tc main_arg3) = m ((c : Thread nD τ).loc main_arg3) :=
  kept_of m c main_arg3 (W10_of_ne m c _ (by decide)) (by decide) (W8_of_ne m c _ (by decide)) (by decide) (W6_of_ne m c _ (by decide)) (by decide) (by decide) (by decide) (W2_of_ne m c _ (by decide)) (by decide)
theorem kept_main_arg4 (c : Dev nD) : W10 m c (Proc.devRef .tc main_arg4) = m ((c : Thread nD τ).loc main_arg4) :=
  kept_of m c main_arg4 (W10_of_ne m c _ (by decide)) (by decide) (W8_of_ne m c _ (by decide)) (by decide) (W6_of_ne m c _ (by decide)) (by decide) (by decide) (by decide) (W2_of_ne m c _ (by decide)) (by decide)
theorem kept_main_arg5 (c : Dev nD) : W10 m c (Proc.devRef .tc main_arg5) = m ((c : Thread nD τ).loc main_arg5) :=
  kept_of m c main_arg5 (W10_of_ne m c _ (by decide)) (by decide) (W8_of_ne m c _ (by decide)) (by decide) (W6_of_ne m c _ (by decide)) (by decide) (by decide) (by decide) (W2_of_ne m c _ (by decide)) (by decide)
theorem kept_main_arg6 (c : Dev nD) : W10 m c (Proc.devRef .tc main_arg6) = m ((c : Thread nD τ).loc main_arg6) :=
  kept_of m c main_arg6 (W10_of_ne m c _ (by decide)) (by decide) (W8_of_ne m c _ (by decide)) (by decide) (W6_of_ne m c _ (by decide)) (by decide) (by decide) (by decide) (W2_of_ne m c _ (by decide)) (by decide)
theorem kept_main_arg7 (c : Dev nD) : W10 m c (Proc.devRef .tc main_arg7) = m ((c : Thread nD τ).loc main_arg7) :=
  kept_of m c main_arg7 (W10_in m c 2 rfl) (by decide) (W8_of_ne m c _ (by decide)) (by decide) (W6_of_ne m c _ (by decide)) (by decide) (by decide) (by decide) (W2_of_ne m c _ (by decide)) (by decide)
theorem kept_main_arg8 (c : Dev nD) : W10 m c (Proc.devRef .tc main_arg8) = m ((c : Thread nD τ).loc main_arg8) :=
  kept_of m c main_arg8 (W10_in m c 3 rfl) (by decide) (W8_of_ne m c _ (by decide)) (by decide) (W6_of_ne m c _ (by decide)) (by decide) (by decide) (by decide) (W2_of_ne m c _ (by decide)) (by decide)
theorem kept_main_arg9 (c : Dev nD) : W10 m c (Proc.devRef .tc main_arg9) = m ((c : Thread nD τ).loc main_arg9) :=
  kept_of m c main_arg9 (W10_of_ne m c _ (by decide)) (by decide) (W8_of_ne m c _ (by decide)) (by decide) (W6_of_ne m c _ (by decide)) (by decide) (by decide) (by decide) (W2_of_ne m c _ (by decide)) (by decide)
theorem kept_main_arg10 (c : Dev nD) : W10 m c (Proc.devRef .tc main_arg10) = m ((c : Thread nD τ).loc main_arg10) :=
  kept_of m c main_arg10 (W10_in m c 6 rfl) (by decide) (W8_of_ne m c _ (by decide)) (by decide) (W6_of_ne m c _ (by decide)) (by decide) (by decide) (by decide) (W2_of_ne m c _ (by decide)) (by decide)

end Cert.KernelIdeal.Hand

end
-- ==== Proof.Thread.lean ====
import proofs.«163383_j64295660421655_1_alg».proof.Proof.Fold

/-!
  The thread state every item of @main is entered from and left in, per core: every unscoped buffer whole at the
  boundary's contents (`Fold.lean`), the core's generator register at some state, and the core owing nothing to any
  other. Beside it: each pipeline's proof data at its region's entry contents, and a host stretch as a segment.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- No pipeline has a prefetched table. -/
abbrev adm : (p : Fin 4) → (pcfgs (F := F) p).Adm := fun p => (cfgs p).toPCfg_adm
/-- Each pipeline's proof data at its region's entry contents. -/
def pdats : (p : Fin 4) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E5 m) c
  | ⟨2, _⟩ => fun c => dat2 (E7 m) c
  | ⟨3, _⟩ => fun c => dat3 (E9 m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is one the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.SegReg0.lean ====
import proofs.«163383_j64295660421655_1_alg».proof.Proof.Thread

/-!
  Region 0 of @main as a segment over the thread state: entered with every unscoped buffer at `W1`, left with them at
  `W2`. At entry the region's windows' arrays are split out of the unscoped buffers, the generator register goes into
  the pipeline's invariant, and the core owes nothing; at exit the arrays come back at what the write-backs leave, the
  register comes back, and still nothing is owed. The kernel has no semaphore of its own and no prefetched table.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.SegReg1.lean ====
import proofs.«163383_j64295660421655_1_alg».proof.Proof.Thread

/-!
  Region 1 of @main as a segment over the thread state: entered with every unscoped buffer at `W5`, left with them at
  `W6`. At entry the region's windows' arrays are split out of the unscoped buffers, the generator register goes into
  the pipeline's invariant, and the core owes nothing; at exit the arrays come back at what the write-backs leave, the
  register comes back, and still nothing is owed. The kernel has no semaphore of its own and no prefetched table.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.SegReg2.lean ====
import proofs.«163383_j64295660421655_1_alg».proof.Proof.Thread

/-!
  Region 2 of @main as a segment over the thread state: entered with every unscoped buffer at `W7`, left with them at
  `W8`. At entry the region's windows' arrays are split out of the unscoped buffers, the generator register goes into
  the pipeline's invariant, and the core owes nothing; at exit the arrays come back at what the write-backs leave, the
  register comes back, and still nothing is owed. The kernel has no semaphore of its own and no prefetched table.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.SegReg3.lean ====
import proofs.«163383_j64295660421655_1_alg».proof.Proof.Thread

/-!
  Region 3 of @main as a segment over the thread state: entered with every unscoped buffer at `W9`, left with them at
  `W10`. At entry the region's windows' arrays are split out of the unscoped buffers, the generator register goes into
  the pipeline's invariant, and the core owes nothing; at exit the arrays come back at what the write-backs leave, the
  register comes back, and still nothing is owed. The kernel has no semaphore of its own and no prefetched table.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (E9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E9 m c) (E10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Whole.lean ====
import proofs.«163383_j64295660421655_1_alg».proof.Proof.SegReg0
import proofs.«163383_j64295660421655_1_alg».proof.Proof.SegReg1
import proofs.«163383_j64295660421655_1_alg».proof.Proof.SegReg2
import proofs.«163383_j64295660421655_1_alg».proof.Proof.SegReg3

/-!
  @main's launch. The ten items of @main are segments over the one thread state per core (`Thread.lean`): a host
  stretch moves the buffers' contents by its fold; a kernel region takes its arrays out of the buffers, runs the
  pipeline, and puts them back at what the write-backs leave (`SegReg0.lean` … `SegReg3.lean`).

  The launch theorem says: every weakly fair execution of @main terminates without a fault, and in every final
  state EVERY unscoped buffer holds the last boundary's contents. The frame claim (each argument as launched) and the
  result's value (the output region's array) are two readings of that one statement.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The last thread state without the `owes`. -/
abbrev Tₙ (c : Dev nD) : sProp 𝕄 := iprop(StableHlo.held (c : Thread nD τ) (Pipeline.ucRefs τ sig) (W10 m c) ∗ ∃ r, prngReg c r)

/-- @main's ten items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)),
    .region (reg3 m) ]

/-- @main IS the run of its segments. -/
theorem main_run (c : Dev nD) : main (F := F) c = Pipeline.Seg.run (segs m) := (main_chain c).trans (by chain_rfl)

set_option backward.isDefEq.respectTransparency.types false in
/-- THE LAUNCH: from any memory with zero counters every weakly fair execution of @main on the TensorCores terminates,
    nothing faulting, and in every final state each unscoped buffer of each core holds the last boundary's contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl,
      fun c => by
        -- the last region leaves the buffers, the register and "nothing owed"; regroup as the kit reads them
        show iprop(StableHlo.held (c : Thread nD τ) (Pipeline.ucRefs τ sig) (W10 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## Two readings of the launch -/

/-- The frame: each argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c),
     (h c _ (mem_uc main_arg6 (by decide))).trans (kept_main_arg6 m c),
     (h c _ (mem_uc main_arg7 (by decide))).trans (kept_main_arg7 m c),
     (h c _ (mem_uc main_arg8 (by decide))).trans (kept_main_arg8 m c),
     (h c _ (mem_uc main_arg9 (by decide))).trans (kept_main_arg9 m c),
     (h c _ (mem_uc main_arg10 (by decide))).trans (kept_main_arg10 m c)⟩)
    (run_all m ρ)

/-- The result: the output buffer ends at what the output region's write-backs leave, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v65) = (dat3 (E9 m) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v65 (by decide))).trans (W10_arr m c 7),
     (h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c),
     (h c _ (mem_uc main_arg6 (by decide))).trans (kept_main_arg6 m c),
     (h c _ (mem_uc main_arg7 (by decide))).trans (kept_main_arg7 m c),
     (h c _ (mem_uc main_arg8 (by decide))).trans (kept_main_arg8 m c),
     (h c _ (mem_uc main_arg9 (by decide))).trans (kept_main_arg9 m c),
     (h c _ (mem_uc main_arg10 (by decide))).trans (kept_main_arg10 m c)⟩)
    (run_all m ρ)

end Cert.KernelIdeal.Hand

end
-- ==== Proof.HeadDefs.lean ====
import proofs.«163383_j64295660421655_1_alg».proof.Proof.Gen.KernelIdeal

/-!
  The table that groups the 128 feature columns into 4 heads, as @main's host operations compose it:
  column numbers 0 … 127 (an iota), each floor-divided by 32 (jax's floor_divide: the truncating quotient,
  less one where the signs differ and the remainder is not zero), compared for equality with the head numbers
  0 … 3, and the one-bit result converted to a float: 1 where column k belongs to head h, else 0. The second
  table is the same with its axes swapped.
-/

noncomputable section

namespace Cert.KernelIdeal.Hand

open Idealize.ShloMosaic Cert.KernelIdeal Cert.KernelIdeal.Facts₀ Cert.KernelIdeal.Facts

/-- The column numbers as a 128×1 array of 32-bit words. -/
def colNumbers : IVec S128x1 32 := broadcastInDim S128x1 ![0] bcast_S128_S128x1_0 (iotaInDim S128 32 0)

/-- jax's floor division of a 128×1 array by a scalar, operation by operation. -/
def floorDivide (a : IVec S128x1 32) (b : IVec S_ 32) : IVec S128x1 32 :=
  select
    (andi (cmpi .ne (signi a) (broadcastInDim S128x1 ![] bcast_S_S128x1 (signi b)))
          (cmpi .ne (Host.remsi a (broadcastInDim S128x1 ![] bcast_S_S128x1 b))
                    (broadcastInDim S128x1 ![] bcast_S_S128x1 (constantI S_ 32 0#32))))
    (subi (Host.divsi a (broadcastInDim S128x1 ![] bcast_S_S128x1 b)) (broadcastInDim S128x1 ![] bcast_S_S128x1 (constantI S_ 32 1#32)))
    (Host.divsi a (broadcastInDim S128x1 ![] bcast_S_S128x1 b))

/-- Column k's head number against head h, as one bit. -/
def headBits : IVec S128x4 1 :=
  cmpi .eq (broadcastInDim S128x4 ![0, 1] bcast_S128x1_S128x4_0_1 (floorDivide colNumbers (constantI S_ 32 32#32)))
           (broadcastInDim S128x4 ![0, 1] bcast_S1x4_S128x4_0_1 (broadcastInDim S1x4 ![1] bcast_S4_S1x4_1 (iotaInDim S4 32 0)))

variable {F : FTy → Type} [FloatOps F]

/-- The 128×4 grouping table as floats. -/
def headTable : FVec F S128x4 .f32 := uitofp .f32 headBits
/-- The 4×128 table: the same, transposed. -/
def headTableT : FVec F S4x128 .f32 := transpose S4x128 [1, 0] (headTable (F := F)) transposes_S128x4_S4x128_1_0

end Cert.KernelIdeal.Hand

end
-- ==== Proof.Spec.lean ====
import proofs.«163383_j64295660421655_1_alg».proof.KernelIdeal
import Idealize.ShloMosaic.PureOps.Ideal
import Idealize.ShloMosaic.Lib.ValueIdx

/-!
  What each of the four kernel regions computes, as ONE function of whole arrays over the extended reals,
  element by element over explicit coordinates.

  * `qkvAt`      : row n, column j of x · [Wq | Wk | Wv]: the sum over k of x[n,k] · w[k,j].
  * `attnAt`     : edge e, head h: with p[e,k] = qd[e,k] · ks[e,k], the sum over the 128 columns of p[e,k] · g[k,h]
                   (g is the 0/1 table that groups the columns into heads), times the scale, plus the edge bias,
                   then the leaky rectifier a ↦ a if a ≥ 0 else 0.2 · a.
  * `weightedAt` : edge e, column j: vs[e,j] times the sum over the 4 heads of an[e,h] · gt[h,j]
                   (gt spreads a head's weight over its 32 columns).
  * `finalAt`    : row n, column j: max(0, (x·Wm₁)[n,j] + ((agg·Wo + bo)·Wm₂)[n,j] + bm[j]).
  * `headOf`     : the 0/1 table itself: 1 where column k belongs to head h (k / 32 = h), else 0.
-/

noncomputable section

namespace Cert.Spec

open Idealize.ShloMosaic Idealize.ShloMosaic.ValueIdx Cert.KernelIdeal
open scoped BigOperators

/-- The three float words the programs share: 32^(-1/2) rounded to f32, 0.2 rounded to f32, and zero. -/
abbrev scaleW : EReal := Ideal.ofBits .f32 0x3E3504F3#32
abbrev slopeW : EReal := Ideal.ofBits .f32 0x3E4CCCCD#32
abbrev zeroW : EReal := Ideal.ofBits .f32 0x00000000#32

/-- The leaky rectifier on one extended real, as both programs spell it: a select on the comparison a ≥ 0. -/
def leaky (a : EReal) : EReal :=
  Scalar.select (FloatOps.cmpf (F := Ideal) (φ := .f32) .oge a zeroW) a (slopeW * a)

/-- x · w at row n, column j. -/
def qkvAt (x : FVec Ideal S50000x128 .f32) (w : FVec Ideal S128x384 .f32) (n : Fin 50000) (j : Fin 384) : EReal :=
  ∑ k : Fin 128, x (ix2 n k) * w (ix2 k j)

def qkvSpec (x : FVec Ideal S50000x128 .f32) (w : FVec Ideal S128x384 .f32) : FVec Ideal S50000x384 .f32 :=
  fun i => qkvAt x w (i 0) (i 1)

/-- The attention logit of edge e and head h after the leaky rectifier. -/
def attnAt (qd ks : FVec Ideal S800000x128 .f32) (eb : FVec Ideal S800000x4 .f32) (g : FVec Ideal S128x4 .f32)
    (e : Fin 800000) (h : Fin 4) : EReal :=
  leaky ((∑ k : Fin 128, (qd (ix2 e k) * ks (ix2 e k)) * g (ix2 k h)) * scaleW + eb (ix2 e h))

def attnSpec (qd ks : FVec Ideal S800000x128 .f32) (eb : FVec Ideal S800000x4 .f32) (g : FVec Ideal S128x4 .f32) :
    FVec Ideal S800000x4 .f32 :=
  fun i => attnAt qd ks eb g (i 0) (i 1)

/-- The value row of edge e weighted, column by column, by its head's attention weight. -/
def weightedAt (vs : FVec Ideal S800000x128 .f32) (an : FVec Ideal S800000x4 .f32) (gt : FVec Ideal S4x128 .f32)
    (e : Fin 800000) (j : Fin 128) : EReal :=
  vs (ix2 e j) * ∑ h : Fin 4, an (ix2 e h) * gt (ix2 h j)

def weightedSpec (vs : FVec Ideal S800000x128 .f32) (an : FVec Ideal S800000x4 .f32) (gt : FVec Ideal S4x128 .f32) :
    FVec Ideal S800000x128 .f32 :=
  fun i => weightedAt vs an gt (i 0) (i 1)

/-- The projected aggregate (agg · Wo + bo) at row n, column j. -/
def projAt (agg : FVec Ideal S50000x128 .f32) (wo : FVec Ideal S128x128 .f32) (bo : FVec Ideal S128 .f32)
    (n : Fin 50000) (j : Fin 128) : EReal :=
  (∑ k : Fin 128, agg (ix2 n k) * wo (ix2 k j)) + bo (ix1 j)

/-- The output at row n, column j. -/
def finalAt (x agg : FVec Ideal S50000x128 .f32) (wo : FVec Ideal S128x128 .f32) (bo : FVec Ideal S128 .f32)
    (wm1 wm2 : FVec Ideal S128x128 .f32) (bm : FVec Ideal S128 .f32) (n : Fin 50000) (j : Fin 128) : EReal :=
  max (((∑ k : Fin 128, x (ix2 n k) * wm1 (ix2 k j)) + (∑ k : Fin 128, projAt agg wo bo n k * wm2 (ix2 k j))) + bm (ix1 j)) zeroW

def finalSpec (x agg : FVec Ideal S50000x128 .f32) (wo : FVec Ideal S128x128 .f32) (bo : FVec Ideal S128 .f32)
    (wm1 wm2 : FVec Ideal S128x128 .f32) (bm : FVec Ideal S128 .f32) : FVec Ideal S50000x128 .f32 :=
  fun i => finalAt x agg wo bo wm1 wm2 bm (i 0) (i 1)

/-- Column k belongs to head h exactly when k / 32 = h. -/
def headOf : FVec Ideal S128x4 .f32 := fun i => if (i 0).val / 32 = (i 1).val then 1 else 0
/-- The same table with its axes swapped. -/
def headOfT : FVec Ideal S4x128 .f32 := fun i => if (i 1).val / 32 = (i 0).val then 1 else 0

end Cert.Spec

end
-- ==== Proof.KStages.lean ====
import proofs.«163383_j64295660421655_1_alg».proof.Proof.HeadDefs
import proofs.«163383_j64295660421655_1_alg».proof.Proof.Spec

/-!
  The host side of the kernel program, as named functions of arrays: what @main's host operations compute between
  the four kernel regions.

  * `srcOf` / `dstOf`: the two rows of edge_index as vectors of 800000 words.
  * `rowIdx`: an index vector made ready for a row gather: a negative index has the row count 50000 added (jax's
    wrap-around), and the vector becomes an [800000, 1] array of start indices. `rawIdx`: the same array without the
    wrap-around (what a segment sum scatters by).
  * `wcat`: [Wq | Wk | Wv], side by side. `colsQ` / `colsK` / `colsV`: the three column blocks of the product.
  * `gatherRows`: rows of a [50000, 128] array picked by start indices.
  * `edgeBias`: edge_attr · We.
  * `softmaxChain`: the global maximum of the logits, the exponentials of the differences, their per-node sums
    (a scatter-add by dst), the sums gathered back per edge, floored at 1e-12, and the quotient.
  * `aggregate`: the per-node sum of the weighted value rows. `wmTop` / `wmBot`: the two halves of Wm.
  * `kernelOut`: the four regions' functions (`Spec.lean`) composed with these: the kernel program's result as ONE
    function of @main's arguments, at the ideal instance.
-/

noncomputable section

namespace Cert.KernelIdeal.Hand

open Idealize.ShloMosaic Cert.KernelIdeal Cert.KernelIdeal.Facts₀ Cert.KernelIdeal.Facts

variable {F : FTy → Type} [FloatOps F]

def srcOf (ei : IVec S2x800000 32) : IVec S800000 32 :=
  shapeCast S800000 (extractStridedSlice S1x800000 ![0, 0] ei slices_S2x800000_S1x800000_0_0) shapeCasts_S1x800000_S800000
def dstOf (ei : IVec S2x800000 32) : IVec S800000 32 :=
  shapeCast S800000 (extractStridedSlice S1x800000 ![1, 0] ei slices_S2x800000_S1x800000_1_0) shapeCasts_S1x800000_S800000

def rowIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
def rawIdx (v : IVec S800000 32) : IVec S800000x1 32 := broadcastInDim S800000x1 ![0] bcast_S800000_S800000x1_0 v

def wcat (wq wk wv : FVec F S128x128 .f32) : FVec F S128x384 .f32 :=
  concatenate S128x384 1 [⟨S128x128, wq⟩, ⟨S128x128, wk⟩, ⟨S128x128, wv⟩] concatenates_S128x128_S128x128_S128x128_S128x384_d1

def colsQ (p : FVec F S50000x384 .f32) : FVec F S50000x128 .f32 := extractStridedSlice S50000x128 ![0, 0] p slices_S50000x384_S50000x128_0_0
def colsK (p : FVec F S50000x384 .f32) : FVec F S50000x128 .f32 := extractStridedSlice S50000x128 ![0, 128] p slices_S50000x384_S50000x128_0_128
def colsV (p : FVec F S50000x384 .f32) : FVec F S50000x128 .f32 := extractStridedSlice S50000x128 ![0, 256] p slices_S50000x384_S50000x128_0_256

def gatherRows (a : FVec F S50000x128 .f32) (ix : IVec S800000x1 32) : FVec F S800000x128 .f32 :=
  Host.gather gather_S50000x128_S800000x1_S800000x128_1_0_n_n_0_1_1128 a ix

def edgeBias (ea : FVec F S800000x3 .f32) (we : FVec F S3x4 .f32) : FVec F S800000x4 .f32 :=
  Host.dotGeneral dot_S800000x3_S3x4_S800000x4_1_0_0_1_n_n none ea we

/-- The exponentials of the logits less their global maximum. -/
def expShifted (a : FVec F S800000x4 .f32) : FVec F S800000x4 .f32 :=
  Host.exp (subf a (broadcastInDim S800000x4 ![] bcast_S_S800000x4
    (Host.reduce FloatOps.maximumf a (constant S_ .f32 0xFF800000#32) reducesTo_S800000x4_S_d0_1 h_S_)))

def softmaxChain (a : FVec F S800000x4 .f32) (dstv : IVec S800000 32) : FVec F S800000x4 .f32 :=
  Host.divf (expShifted a)
    (maximumf
      (Host.gather gather_S50000x4_S800000x1_S800000x4_1_0_n_n_0_1_14
        (Host.scatterAdd scatter_S50000x4_S800000x1_S800000x4_1_0_0_1
          (broadcastInDim S50000x4 ![] bcast_S_S50000x4 (constant S_ .f32 0x00000000#32)) (rawIdx dstv) (expShifted a))
        (rowIdx dstv))
      (broadcastInDim S800000x4 ![] bcast_S_S800000x4 (constant S_ .f32 0x2B8CBCCC#32)))

def aggregate (u : FVec F S800000x128 .f32) (dstv : IVec S800000 32) : FVec F S50000x128 .f32 :=
  Host.scatterAdd scatter_S50000x128_S800000x1_S800000x128_1_0_0_1
    (broadcastInDim S50000x128 ![] bcast_S_S50000x128 (constant S_ .f32 0x00000000#32)) (rawIdx dstv) u

def wmTop (wm : FVec F S256x128 .f32) : FVec F S128x128 .f32 := extractStridedSlice S128x128 ![0, 0] wm slices_S256x128_S128x128_0_0
def wmBot (wm : FVec F S256x128 .f32) : FVec F S128x128 .f32 := extractStridedSlice S128x128 ![128, 0] wm slices_S256x128_S128x128_128_0

/-- The kernel program's result as one function of @main's arguments, at the ideal instance. -/
def kernelOut (x : FVec Ideal S50000x128 .f32) (ei : IVec S2x800000 32) (ea : FVec Ideal S800000x3 .f32)
    (wq wk wv : FVec Ideal S128x128 .f32) (we : FVec Ideal S3x4 .f32) (wo : FVec Ideal S128x128 .f32) (bo : FVec Ideal S128 .f32)
    (wm : FVec Ideal S256x128 .f32) (bm : FVec Ideal S128 .f32) : FVec Ideal S50000x128 .f32 :=
  Cert.Spec.finalSpec x
    (aggregate
      (Cert.Spec.weightedSpec (gatherRows (colsV (Cert.Spec.qkvSpec x (wcat wq wk wv))) (rowIdx (srcOf ei)))
        (softmaxChain
          (Cert.Spec.attnSpec (gatherRows (colsQ (Cert.Spec.qkvSpec x (wcat wq wk wv))) (rowIdx (dstOf ei)))
            (gatherRows (colsK (Cert.Spec.qkvSpec x (wcat wq wk wv))) (rowIdx (srcOf ei))) (edgeBias ea we) (headTable (F := Ideal)))
          (dstOf ei))
        (headTableT (F := Ideal)))
      (dstOf ei))
    wo bo (wmTop wm) (wmBot wm) bm

end Cert.KernelIdeal.Hand

end
-- ==== Proof.HostReads.lean ====
import proofs.«163383_j64295660421655_1_alg».proof.Proof.Fold
import proofs.«163383_j64295660421655_1_alg».proof.Proof.KStages
import Idealize.ShloMosaic.Lib.StableHlo.Run

/-!
  What @main's host stretches leave in the buffers the kernel regions are entered with, as the named host functions
  (`KStages.lean`) of the buffers the stretch found; and those buffers walked back through the earlier items to where
  they were written. Every read is the stretch's fold evaluated at ONE result buffer: each operation's result at its
  own buffer is its function of its operands' contents, and any other operation leaves that buffer alone.
-/

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-! ## The first stretch: the edge endpoints and the joined weight matrix -/

theorem read_src (c : Dev nD) : W1 m c (Proc.devRef .tc main_v1) = srcOf (m ((c : Thread nD τ).loc main_arg1)) := by
  show StableHlo.after hostOps0 (W0 m c) (Proc.devRef .tc main_v1) = _
  after_results
  rfl
theorem read_dst (c : Dev nD) : W1 m c (Proc.devRef .tc main_v3) = dstOf (m ((c : Thread nD τ).loc main_arg1)) := by
  show StableHlo.after hostOps0 (W0 m c) (Proc.devRef .tc main_v3) = _
  after_results
  rfl
theorem read_wcat (c : Dev nD) : W1 m c (Proc.devRef .tc main_v4) = wcat (m ((c : Thread nD τ).loc main_arg3)) (m ((c : Thread nD τ).loc main_arg4)) (m ((c : Thread nD τ).loc main_arg5)) := by
  show StableHlo.after hostOps0 (W0 m c) (Proc.devRef .tc main_v4) = _
  after_results
  rfl
theorem read_x_1 (c : Dev nD) : W1 m c (Proc.devRef .tc main_arg0) = (m ((c : Thread nD τ).loc main_arg0)) := W1_host m c main_arg0 (by decide)

/-! ## An early buffer seen from a later boundary -/

/-- A buffer written in the first stretch (or an argument), that no later stretch writes and no region stages, still
    holds at the output region's entry what it held after the first stretch. -/
theorem early_at_9 (c : Dev nD) (r : Ref sig .tc)
    (h9 : r ∉ hostOps3_W) (h8 : ∀ w, Pipeline.arrRef spec2 w ≠ r) (h7 : r ∉ hostOps2_W) (h6 : ∀ w, Pipeline.arrRef spec1 w ≠ r)
    (h5 : r ∉ hostOps1_2_W) (h4 : r ∉ hostOps1_1_W) (h3 : r ∉ hostOps1_W) (h2 : ∀ w, Pipeline.arrRef spec0 w ≠ r) :
    W9 m c (Proc.devRef .tc r) = W1 m c (Proc.devRef .tc r) :=
  (W9_host m c r h9).trans <| (W8_of_ne m c r h8).trans <| (W7_host m c r h7).trans <| (W6_of_ne m c r h6).trans <|
    (W5_host m c r h5).trans <| (W4_host m c r h4).trans <| (W3_host m c r h3).trans (W2_of_ne m c r h2)
theorem early_at_8 (c : Dev nD) (r : Ref sig .tc)
    (h8 : ∀ w, Pipeline.arrRef spec2 w ≠ r) (h7 : r ∉ hostOps2_W) (h6 : ∀ w, Pipeline.arrRef spec1 w ≠ r)
    (h5 : r ∉ hostOps1_2_W) (h4 : r ∉ hostOps1_1_W) (h3 : r ∉ hostOps1_W) (h2 : ∀ w, Pipeline.arrRef spec0 w ≠ r) :
    W8 m c (Proc.devRef .tc r) = W1 m c (Proc.devRef .tc r) :=
  (W8_of_ne m c r h8).trans <| (W7_host m c r h7).trans <| (W6_of_ne m c r h6).trans <|
    (W5_host m c r h5).trans <| (W4_host m c r h4).trans <| (W3_host m c r h3).trans (W2_of_ne m c r h2)
theorem early_at_6 (c : Dev nD) (r : Ref sig .tc) (h6 : ∀ w, Pipeline.arrRef spec1 w ≠ r)
    (h5 : r ∉ hostOps1_2_W) (h4 : r ∉ hostOps1_1_W) (h3 : r ∉ hostOps1_W) (h2 : ∀ w, Pipeline.arrRef spec0 w ≠ r) :
    W6 m c (Proc.devRef .tc r) = W1 m c (Proc.devRef .tc r) :=
  (W6_of_ne m c r h6).trans <| (W5_host m c r h5).trans <| (W4_host m c r h4).trans <| (W3_host m c r h3).trans (W2_of_ne m c r h2)

theorem dst_at_2 (c : Dev nD) : W2 m c (Proc.devRef .tc main_v3) = dstOf (m ((c : Thread nD τ).loc main_arg1)) := (W2_of_ne m c main_v3 (by decide)).trans (read_dst m c)
theorem src_at_2 (c : Dev nD) : W2 m c (Proc.devRef .tc main_v1) = srcOf (m ((c : Thread nD τ).loc main_arg1)) := (W2_of_ne m c main_v1 (by decide)).trans (read_src m c)
theorem dst_at_6 (c : Dev nD) : W6 m c (Proc.devRef .tc main_v3) = dstOf (m ((c : Thread nD τ).loc main_arg1)) :=
  (early_at_6 m c main_v3 (by decide) (by decide) (by decide) (by decide) (by decide)).trans (read_dst m c)
theorem dst_at_8 (c : Dev nD) : W8 m c (Proc.devRef .tc main_v3) = dstOf (m ((c : Thread nD τ).loc main_arg1)) :=
  (early_at_8 m c main_v3 (by decide) (by decide) (by decide) (by decide) (by decide) (by decide) (by decide)).trans (read_dst m c)
theorem ea_at_2 (c : Dev nD) : W2 m c (Proc.devRef .tc main_arg2) = (m ((c : Thread nD τ).loc main_arg2)) := (W2_of_ne m c main_arg2 (by decide)).trans (W1_host m c main_arg2 (by decide))
theorem we_at_2 (c : Dev nD) : W2 m c (Proc.devRef .tc main_arg6) = (m ((c : Thread nD τ).loc main_arg6)) := (W2_of_ne m c main_arg6 (by decide)).trans (W1_host m c main_arg6 (by decide))
theorem wm_at_8 (c : Dev nD) : W8 m c (Proc.devRef .tc main_arg9) = (m ((c : Thread nD τ).loc main_arg9)) :=
  (early_at_8 m c main_arg9 (by decide) (by decide) (by decide) (by decide) (by decide) (by decide) (by decide)).trans (W1_host m c main_arg9 (by decide))

/-! ## The stretch after the projection: the gathers and the edge bias -/

set_option maxHeartbeats 4000000 in
theorem read_qd (c : Dev nD) : W3 m c (Proc.devRef .tc main_v16)
    = gatherRows (colsQ (W2 m c (Proc.devRef .tc main_v5))) (rowIdx (W2 m c (Proc.devRef .tc main_v3))) := by
  show StableHlo.after hostOps1 (W2 m c) (Proc.devRef .tc main_v16) = _
  after_results
  rfl
set_option maxHeartbeats 4000000 in
theorem read_ks (c : Dev nD) : W3 m c (Proc.devRef .tc main_v23)
    = gatherRows (colsK (W2 m c (Proc.devRef .tc main_v5))) (rowIdx (W2 m c (Proc.devRef .tc main_v1))) := by
  show StableHlo.after hostOps1 (W2 m c) (Proc.devRef .tc main_v23) = _
  after_results
  rfl
set_option maxHeartbeats 4000000 in
theorem read_vs (c : Dev nD) : W3 m c (Proc.devRef .tc main_v30)
    = gatherRows (colsV (W2 m c (Proc.devRef .tc main_v5))) (rowIdx (W2 m c (Proc.devRef .tc main_v1))) := by
  show StableHlo.after hostOps1 (W2 m c) (Proc.devRef .tc main_v30) = _
  after_results
  rfl
set_option maxHeartbeats 4000000 in
theorem read_eb (c : Dev nD) : W3 m c (Proc.devRef .tc main_v9)
    = edgeBias (W2 m c (Proc.devRef .tc main_arg2)) (W2 m c (Proc.devRef .tc main_arg6)) := by
  show StableHlo.after hostOps1 (W2 m c) (Proc.devRef .tc main_v9) = _
  after_results
  rfl

/-! ## The stretch after the attention scores: the softmax over each node's incoming edges -/

set_option maxHeartbeats 4000000 in
theorem read_an (c : Dev nD) : W7 m c (Proc.devRef .tc main_v58)
    = softmaxChain (W6 m c (Proc.devRef .tc main_v41)) (W6 m c (Proc.devRef .tc main_v3)) := by
  show StableHlo.after hostOps2 (W6 m c) (Proc.devRef .tc main_v58) = _
  after_results
  rfl

/-! ## The stretch after the weighting: the per-node aggregation and the halves of Wm -/

set_option maxHeartbeats 4000000 in
theorem read_agg (c : Dev nD) : W9 m c (Proc.devRef .tc main_v62)
    = aggregate (W8 m c (Proc.devRef .tc main_v59)) (W8 m c (Proc.devRef .tc main_v3)) := by
  show StableHlo.after hostOps3 (W8 m c) (Proc.devRef .tc main_v62) = _
  after_results
  rfl
set_option maxHeartbeats 4000000 in
theorem read_wmTop (c : Dev nD) : W9 m c (Proc.devRef .tc main_v63) = wmTop (W8 m c (Proc.devRef .tc main_arg9)) := by
  show StableHlo.after hostOps3 (W8 m c) (Proc.devRef .tc main_v63) = _
  after_results
  rfl
set_option maxHeartbeats 4000000 in
theorem read_wmBot (c : Dev nD) : W9 m c (Proc.devRef .tc main_v64) = wmBot (W8 m c (Proc.devRef .tc main_arg9)) := by
  show StableHlo.after hostOps3 (W8 m c) (Proc.devRef .tc main_v64) = _
  after_results
  rfl

end Cert.KernelIdeal.Hand

end
-- ==== Proof.HeadReads.lean ====
import proofs.«163383_j64295660421655_1_alg».proof.Proof.Fold
import proofs.«163383_j64295660421655_1_alg».proof.Proof.KStages
import Idealize.ShloMosaic.Lib.StableHlo.Run

/-!
  The grouping table and its transpose, as @main's host operations leave them at the attention-score region's entry:
  the three stretches after the projection (the last of which inlines jax's floor_divide) composed at the two tables'
  buffers give exactly the operations of `HeadDefs.lean`.
-/

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 4000000 in
theorem read_table (c : Dev nD) : W5 m c (Proc.devRef .tc main_v39) = headTable (F := F) := by
  show StableHlo.after hostOps1_2 (StableHlo.after hostOps1_1 (StableHlo.after hostOps1 (W2 m c))) (Proc.devRef .tc main_v39) = _
  after_results
  try simp only [TRef.ofBuf, TRef.toBuf, cast_eq]
  rfl

set_option maxHeartbeats 4000000 in
theorem read_tableT (c : Dev nD) : W5 m c (Proc.devRef .tc main_v40) = headTableT (F := F) := by
  show StableHlo.after hostOps1_2 (StableHlo.after hostOps1_1 (StableHlo.after hostOps1 (W2 m c))) (Proc.devRef .tc main_v40) = _
  after_results
  try simp only [TRef.ofBuf, TRef.toBuf, cast_eq]
  rfl

end Cert.KernelIdeal.Hand

end
-- ==== Proof.Val0.lean ====
import proofs.«163383_j64295660421655_1_alg».proof.Proof.Reg0
import proofs.«163383_j64295660421655_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  Region 0 over the extended reals: after the ten points the result array holds  x · w,  entry (n, j) being the sum
  over k of x[n,k] · w[k,j].

  Three facts make it so.  Over the extended reals the roundings to the short format are the identity, so the value
  the body stores at (p, q) of its block is the plain sum over k of (x block)[p,k] · (table)[k,q].  The x block at
  point t is rows 5000·t … of x and the table's block is all of w, so that sum is entry (5000·t + p, q) of x · w:
  point t writes back exactly its own rows of x · w.  And the ten row blocks together are all 50000 rows.
-/

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

/-! ## The stored value at one place of the block -/

/-- In the product of a 5000 × 128 block by the 128 × 384 table, the left factor of output place j and summation
    place q sits in row j₀ … -/
theorem qkv0_lhs_row (j : S5000x384.Idx) (q : dot_S5000x128_S128x384_S5000x384_1_0_0_1_n_n.contr.Idx) :
    (dot_S5000x128_S128x384_S5000x384_1_0_0_1_n_n.lhsIdx j q 0).val = (j 0).val := by
  unfold DotDims.lhsIdx
  rw [dif_neg (show ¬(0 : Fin S5000x128.rank) ∈ dot_S5000x128_S128x384_S5000x384_1_0_0_1_n_n.lhsBatch by decide),
    dif_pos (show (0 : Fin S5000x128.rank) ∈ dot_S5000x128_S128x384_S5000x384_1_0_0_1_n_n.lhsNonContracting by decide)]
  rfl
/-- … and column q; -/
theorem qkv0_lhs_col (j : S5000x384.Idx) (q : dot_S5000x128_S128x384_S5000x384_1_0_0_1_n_n.contr.Idx) :
    (dot_S5000x128_S128x384_S5000x384_1_0_0_1_n_n.lhsIdx j q 1).val = (q ⟨0, by decide⟩).val :=
  dot_S5000x128_S128x384_S5000x384_1_0_0_1_n_n.lhsIdx_val_of_single rfl j q
/-- the right factor sits in row q … -/
theorem qkv0_rhs_row (j : S5000x384.Idx) (q : dot_S5000x128_S128x384_S5000x384_1_0_0_1_n_n.contr.Idx) :
    (dot_S5000x128_S128x384_S5000x384_1_0_0_1_n_n.rhsIdx j q 0).val = (q ⟨0, by decide⟩).val :=
  dot_S5000x128_S128x384_S5000x384_1_0_0_1_n_n.rhsIdx_val_of_single rfl j q
/-- … and column j₁. -/
theorem qkv0_rhs_col (j : S5000x384.Idx) (q : dot_S5000x128_S128x384_S5000x384_1_0_0_1_n_n.contr.Idx) :
    (dot_S5000x128_S128x384_S5000x384_1_0_0_1_n_n.rhsIdx j q 1).val = (j 1).val := by
  unfold DotDims.rhsIdx
  rw [dif_neg (show ¬(1 : Fin S128x384.rank) ∈ dot_S5000x128_S128x384_S5000x384_1_0_0_1_n_n.rhsBatch by decide),
    dif_pos (show (1 : Fin S128x384.rank) ∈ dot_S5000x128_S128x384_S5000x384_1_0_0_1_n_n.rhsNonContracting by decide)]
  rfl

/-- The value the body stores at place (p, q): with the roundings gone and the accumulator starting at zero, the
    sum over k of x[p,k] · w[k,q]. -/
theorem pay0_at (x : Vec Ideal S5000x128 .f32) (w : Vec Ideal S128x384 .f32) (p : Fin 5000) (q : Fin 384) :
    k0_pay1 x w (ix2 p q) = ∑ k : Fin 128, x (ix2 p k) * w (ix2 k q) := by
  unfold k0_pay1
  simp only [matmul]
  rw [Ideal.matmul_constant_zero_apply,
    ← Equiv.sum_comp (contrEquiv1 dot_S5000x128_S128x384_S5000x384_1_0_0_1_n_n 128 rfl rfl).symm]
  refine Finset.sum_congr rfl fun k _ => ?_
  have hk := contrEquiv1_symm_val dot_S5000x128_S128x384_S5000x384_1_0_0_1_n_n 128 rfl rfl k
  -- the two operand places, coordinate by coordinate
  have hl : dot_S5000x128_S128x384_S5000x384_1_0_0_1_n_n.lhsIdx (ix2 p q)
      ((contrEquiv1 dot_S5000x128_S128x384_S5000x384_1_0_0_1_n_n 128 rfl rfl).symm k) = ix2 p k :=
    funext fun a => Fin.ext (by
      match a with
      | ⟨0, _⟩ => exact qkv0_lhs_row _ _
      | ⟨1, _⟩ => exact (qkv0_lhs_col _ _).trans hk)
  have hr : dot_S5000x128_S128x384_S5000x384_1_0_0_1_n_n.rhsIdx (ix2 p q)
      ((contrEquiv1 dot_S5000x128_S128x384_S5000x384_1_0_0_1_n_n 128 rfl rfl).symm k) = ix2 k q :=
    funext fun a => Fin.ext (by
      match a with
      | ⟨0, _⟩ => exact (qkv0_rhs_row _ _).trans hk
      | ⟨1, _⟩ => exact qkv0_rhs_col _ _)
  rw [truncf_apply, truncf_apply, shapeCast_self, hl, hr]

/-- The stored value at any place j of the block, through its two coordinates. -/
theorem pay0_idx (x : Vec Ideal S5000x128 .f32) (w : Vec Ideal S128x384 .f32) (j : S5000x384.Idx) :
    k0_pay1 x w j = ∑ k : Fin 128, x (ix2 (j 0) k) * w (ix2 k (j 1)) :=
  (congrArg (k0_pay1 x w) (eq_ix2 j)).trans (pay0_at x w (j 0) (j 1))

/-! ## Where the blocks sit in their arrays

A block's place (y₀, y₁) is the array's place (index₀ · rows + y₀, index₁ · columns + y₁).  At point t the x block and
the result block have block index (t, 0); the table's block has block index (0, 0). -/

theorem zeroOff0 : (![0, 0] : Fin 2 → Nat) = fun _ => 0 := funext fun a => by fin_cases a <;> rfl

theorem blk_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Place y of the x block at point t is place (5000·t + y₀, y₁) of x. -/
theorem xblk0_at (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c (Pipeline.arrRef spec0 0) : S50000x128.Idx → EReal) i := by
  obtain ⟨e0, e1, -⟩ := blk_index0 t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Place y of the table's block, at any point, is place y of w. -/
theorem wblk0_at (c : Dev nD) (t : Fin cfg0.N) (y : S128x384.Idx) (i : S128x384.Idx)
    (h0 : (i 0).val = (y 0).val) (h1 : (i 1).val = (y 1).val) :
    (iblk0 V c 1 t : Vec Ideal S128x384 .f32) y = (V c (Pipeline.arrRef spec0 1) : S128x384.Idx → EReal) i := by
  obtain ⟨-, -, e2, e3, -⟩ := blk_index0 t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 128 + 1 * (y 0).val = (i 0).val; rw [e2, h0]; omega
  | ⟨1, _⟩ => show win0_1.index t (1 : Fin 2) * 384 + 1 * (y 1).val = (i 1).val; rw [e3, h1]; omega

/-- Entry i of x · w, written out. -/
theorem qkvSpec_at0 (X : FVec Ideal S50000x128 .f32) (W : FVec Ideal S128x384 .f32) (i : S50000x384.Idx) :
    Cert.Spec.qkvSpec X W i = ∑ k : Fin 128, X (ix2 (i 0) k) * W (ix2 k (i 1)) := rfl

/-! ## What point t writes back -/

/-- The value stored at place y of the result block at point t is entry (5000·t + y₀, y₁) of x · w: the sum runs
    over the same k, the left factors are row 5000·t + y₀ of x, the right factors column y₁ of w. -/
theorem stored0_at (c : Dev nD) (t : Fin cfg0.N) (y : S5000x384.Idx) (i : S50000x384.Idx)
    (h0 : (i 0).val = 5000 * t.val + (y 0).val) (h1 : (i 1).val = (y 1).val) :
    k0_pay1 (iblk0 V c 0 t) (iblk0 V c 1 t) y
      = Cert.Spec.qkvSpec (V c (Pipeline.arrRef spec0 0)) (V c (Pipeline.arrRef spec0 1)) i := by
  refine (pay0_idx _ _ y).trans (Eq.trans (Finset.sum_congr rfl fun k _ => ?_)
    (qkvSpec_at0 (V c (Pipeline.arrRef spec0 0)) (V c (Pipeline.arrRef spec0 1)) i).symm)
  exact congrArg₂ (fun a b : EReal => a * b) (xblk0_at V c t (ix2 (y 0) k) (ix2 (i 0) k) h0 rfl)
    (wblk0_at V c t (ix2 k (y 1)) (ix2 k (i 1)) rfl h1)

/-- So point t writes back its own block of x · w. -/
theorem flushed0_eq (c : Dev nD) (t : Fin cfg0.N) :
    (dat0 V c).flushed 2 t = ((cfg0.win 2).blk t).view.read (Elt Ideal)
      (Cert.Spec.qkvSpec (V c (Pipeline.arrRef spec0 0)) (V c (Pipeline.arrRef spec0 1))) := by
  obtain ⟨-, -, -, -, e4, e5⟩ := blk_index0 t
  show (cfg0.win 2).cut (grid0.coords t) ((dat0 V c).after 2 t) = _
  rw [after0_2]
  unfold out0_2
  rw [View.canon_unit_zero zeroOff0]
  simp only [View.ld_unit_zero (S := S5000x128) zeroOff0, View.ld_unit_zero (S := S128x384) zeroOff0]
  funext j
  rw [View.read_apply]
  refine stored0_at V c t _ _ ?_ ?_
  · show win0_2.index t (0 : Fin 2) * 5000 + 1 * (j 0).val = 5000 * t.val + (j 0).val
    rw [e4]; omega
  · show win0_2.index t (1 : Fin 2) * 384 + 1 * (j 1).val = (j 1).val
    rw [e5]; omega

/-! ## The ten row blocks are all of the array -/

/-- A place of the result array lies in point t's block when each coordinate lies in the block's range. -/
theorem mem_blk0 (t : Fin cfg0.N) (i : S50000x384.Idx) :
    i ∈ ((cfg0.win 2).blk t).view.set ↔ ∀ a : Fin 2, win0_2.index t a * S5000x384.size a ≤ (i a).val
      ∧ (i a).val < win0_2.index t a * S5000x384.size a + S5000x384.size a := by
  show i ∈ ((View.whole main_v5).slice (win0_2.rect t)).set ↔ _
  rw [View.set_slice_whole, Rect.mem_set_unit]
  exact Iff.rfl

/-- Row n lies in the block of point n / 5000. -/
theorem covered0 (i : S50000x384.Idx) :
    ∃ t : Fin cfg0.N, (cfg0.win 2).flush t = true ∧ i ∈ ((cfg0.win 2).blk t).view.set := by
  have hi0 : (i 0).val < 50000 := (i 0).isLt
  have hi1 : (i 1).val < 384 := (i 1).isLt
  have hN : cfg0.N = 10 := N_0
  refine ⟨⟨(i 0).val / 5000, by rw [hN]; omega⟩, flush0_2 _, ?_⟩
  obtain ⟨-, -, -, -, e4, e5⟩ := blk_index0 ⟨(i 0).val / 5000, by rw [hN]; omega⟩
  rw [mem_blk0]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 384 ≤ (i 1).val ∧ (i 1).val < win0_2.index _ (1 : Fin 2) * 384 + 384
    rw [e5]; omega

/-! ## The array after the run -/

/-- After the ten points the result array holds x · w of the arrays the region found. -/
theorem final0 (V : (c : Dev nD) → (b : Ref sig .tc) → Buf (Elt Ideal) ((c : Thread nD τ).loc b)) (c : Dev nD) :
    (dat0 (F := Ideal) V c).arrAt 2 cfg0.N
      = Cert.Spec.qkvSpec (V c (Pipeline.arrRef spec0 0)) (V c (Pipeline.arrRef spec0 1)) :=
  (dat0 V c).arrAt_eq_of_cover 2 _ (fun t _ => flushed0_eq V c t) covered0

end Cert.KernelIdeal.Hand

end
-- ==== Proof.Val1.lean ====
import proofs.«163383_j64295660421655_1_alg».proof.Proof.Reg1
import proofs.«163383_j64295660421655_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  # What the attention-score pipeline leaves in its output array, over the extended reals

  The 800000 × 4 array of logits after the 125 slabs is ONE function of the four arrays the pipeline found:
  at edge e and head h, the leaky rectifier of (∑ₖ qd[e,k] · ks[e,k] · g[k,h]) · scale + eb[e,h].

  * `pay1_at`: the value the body stores, read at (row, head) of a slab, is that expression of the four loaded
    blocks. The only step that is not read off elementwise is the block product, a sum over its one contracted
    axis (`headDot1_apply`).
  * `slab1_at_*`: a loaded block at (row r, column) of slab t is its array at (6400·t + r, column); the head table's
    block is the table.
  * `written1_eq`: so what slab t writes back is rows 6400·t … of the whole-array function;
  * `final1`: the 125 slabs tile the 800000 rows (edge e lies in slab e / 6400), hence the array ends holding
    the function everywhere.
-/

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

/-! ## The block product at an index -/

/-- The dimension numbers of the block product: rows × 128 times 128 × heads. -/
abbrev headDot1 := dot_S6400x128_S128x4_S6400x4_1_0_0_1_n_n

/-- At output position (row, head) and contraction position k the left operand is read at (row, k) … -/
theorem headDot1_lhs_0 (j : S6400x4.Idx) (k : headDot1.contr.Idx) : headDot1.lhsIdx j k 0 = j 0 := by
  simp [DotDims.lhsIdx, headDot1, dot_S6400x128_S128x4_S6400x4_1_0_0_1_n_n]; rfl
theorem headDot1_lhs_1 (j : S6400x4.Idx) (k : headDot1.contr.Idx) : (headDot1.lhsIdx j k 1).val = (k ⟨0, by decide⟩).val :=
  headDot1.lhsIdx_val_of_single (cl := 1) rfl j k
/-- … and the right operand at (k, head). -/
theorem headDot1_rhs_0 (j : S6400x4.Idx) (k : headDot1.contr.Idx) : (headDot1.rhsIdx j k 0).val = (k ⟨0, by decide⟩).val :=
  headDot1.rhsIdx_val_of_single (cr := 0) rfl j k
theorem headDot1_rhs_1 (j : S6400x4.Idx) (k : headDot1.contr.Idx) : headDot1.rhsIdx j k 1 = j 1 := by
  simp [DotDims.rhsIdx, headDot1, dot_S6400x128_S128x4_S6400x4_1_0_0_1_n_n]; rfl

/-- The block product into a zero accumulator, at (row, head): the sum over the 128 columns. -/
theorem headDot1_apply (a : FVec Ideal S6400x128 .bf16) (b : FVec Ideal S128x4 .bf16) (r : Fin 6400) (h : Fin 4) :
    matmul headDot1 none a b (constant S6400x4 .f32 0x00000000#32) (ix2 r h) = ∑ kk : Fin 128, a (ix2 r kk) * b (ix2 kk h) := by
  simp only [matmul]
  rw [Ideal.matmul_constant_zero_apply, ← Equiv.sum_comp (contrEquiv1 headDot1 128 rfl rfl).symm]
  refine Finset.sum_congr rfl fun kk _ => ?_
  have hl : headDot1.lhsIdx (ix2 r h) ((contrEquiv1 headDot1 128 rfl rfl).symm kk) = ix2 r kk := by
    funext a
    match a with
    | ⟨0, _⟩ => exact headDot1_lhs_0 _ _
    | ⟨1, _⟩ => exact Fin.ext ((headDot1_lhs_1 _ _).trans (contrEquiv1_symm_val headDot1 128 rfl rfl kk))
  have hr : headDot1.rhsIdx (ix2 r h) ((contrEquiv1 headDot1 128 rfl rfl).symm kk) = ix2 kk h := by
    funext a
    match a with
    | ⟨0, _⟩ => exact Fin.ext ((headDot1_rhs_0 _ _).trans (contrEquiv1_symm_val headDot1 128 rfl rfl kk))
    | ⟨1, _⟩ => exact headDot1_rhs_1 _ _
  rw [hl, hr]

/-- The stored value of the body at (row r, head h) of a slab, from the four loaded blocks: the leaky rectifier of
    (∑ₖ q[r,k]·k[r,k]·g[k,h])·scale + bias[r,h]. The shape casts are to the same shape and the format changes are
    the identity on extended reals, so only the product, the block product, the scale, the bias and the select
    remain. -/
theorem pay1_at (q k : Vec Ideal S6400x128 .f32) (g : Vec Ideal S128x4 .f32) (eb : Vec Ideal S6400x4 .f32)
    (r : Fin 6400) (h : Fin 4) :
    k1_pay1 q k g eb (ix2 r h)
      = Cert.Spec.leaky ((∑ kk : Fin 128, (q (ix2 r kk) * k (ix2 r kk)) * g (ix2 kk h)) * Cert.Spec.scaleW + eb (ix2 r h)) := by
  unfold k1_pay1
  simp only [shapeCast_self]
  rw [select_apply, cmpf_apply, mulf_apply, addf_apply, mulf_apply, headDot1_apply]
  rfl

/-! ## Where a slab's rows sit in the arrays -/

/-- The index maps over the 125 slabs: the queries, the keys, the bias and the output are at block (t, 0), the
    head table at block (0, 0). -/
theorem slab1_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row r, column kk of slab t of the queries is row 6400·t + r of the array. -/
theorem slab1_at_0 (c : Dev nD) (t : Fin cfg1.N) (r : Fin 6400) (kk : Fin 128) (e : Fin 800000) (he : e.val = t.val * 6400 + r.val) :
    (iblk1 V c 0 t : Vec Ideal S6400x128 .f32) (ix2 r kk) = (V c (Pipeline.arrRef spec1 0) : FVec Ideal S800000x128 .f32) (ix2 e kk) := by
  obtain ⟨h0, h1, -⟩ := slab1_index t
  show V c (Pipeline.arrRef spec1 0) (((cfg1.win 0).blk t).view.emb (ix2 r kk)) = V c (Pipeline.arrRef spec1 0) (ix2 e kk)
  refine congrArg (V c (Pipeline.arrRef spec1 0)) (funext fun a => Fin.ext ?_)
  match a with
  | ⟨0, _⟩ => show win1_0.index t (0 : Fin 2) * 6400 + 1 * r.val = e.val; omega
  | ⟨1, _⟩ => show win1_0.index t (1 : Fin 2) * 128 + 1 * kk.val = kk.val; omega

/-- Row r, column kk of slab t of the keys is row 6400·t + r of the array. -/
theorem slab1_at_1 (c : Dev nD) (t : Fin cfg1.N) (r : Fin 6400) (kk : Fin 128) (e : Fin 800000) (he : e.val = t.val * 6400 + r.val) :
    (iblk1 V c 1 t : Vec Ideal S6400x128 .f32) (ix2 r kk) = (V c (Pipeline.arrRef spec1 1) : FVec Ideal S800000x128 .f32) (ix2 e kk) := by
  obtain ⟨-, -, h0, h1, -⟩ := slab1_index t
  show V c (Pipeline.arrRef spec1 1) (((cfg1.win 1).blk t).view.emb (ix2 r kk)) = V c (Pipeline.arrRef spec1 1) (ix2 e kk)
  refine congrArg (V c (Pipeline.arrRef spec1 1)) (funext fun a => Fin.ext ?_)
  match a with
  | ⟨0, _⟩ => show win1_1.index t (0 : Fin 2) * 6400 + 1 * r.val = e.val; omega
  | ⟨1, _⟩ => show win1_1.index t (1 : Fin 2) * 128 + 1 * kk.val = kk.val; omega

/-- Row r, head h of slab t of the edge bias is row 6400·t + r of the array. -/
theorem slab1_at_2 (c : Dev nD) (t : Fin cfg1.N) (r : Fin 6400) (h : Fin 4) (e : Fin 800000) (he : e.val = t.val * 6400 + r.val) :
    (iblk1 V c 2 t : Vec Ideal S6400x4 .f32) (ix2 r h) = (V c (Pipeline.arrRef spec1 2) : FVec Ideal S800000x4 .f32) (ix2 e h) := by
  obtain ⟨-, -, -, -, h0, h1, -⟩ := slab1_index t
  show V c (Pipeline.arrRef spec1 2) (((cfg1.win 2).blk t).view.emb (ix2 r h)) = V c (Pipeline.arrRef spec1 2) (ix2 e h)
  refine congrArg (V c (Pipeline.arrRef spec1 2)) (funext fun a => Fin.ext ?_)
  match a with
  | ⟨0, _⟩ => show win1_2.index t (0 : Fin 2) * 6400 + 1 * r.val = e.val; omega
  | ⟨1, _⟩ => show win1_2.index t (1 : Fin 2) * 4 + 1 * h.val = h.val; omega

/-- The head table's block is the whole table at every slab. -/
theorem slab1_at_3 (c : Dev nD) (t : Fin cfg1.N) (kk : Fin 128) (h : Fin 4) :
    (iblk1 V c 3 t : Vec Ideal S128x4 .f32) (ix2 kk h) = (V c (Pipeline.arrRef spec1 3) : FVec Ideal S128x4 .f32) (ix2 kk h) := by
  obtain ⟨-, -, -, -, -, -, h0, h1, -⟩ := slab1_index t
  show V c (Pipeline.arrRef spec1 3) (((cfg1.win 3).blk t).view.emb (ix2 kk h)) = V c (Pipeline.arrRef spec1 3) (ix2 kk h)
  refine congrArg (V c (Pipeline.arrRef spec1 3)) (funext fun a => Fin.ext ?_)
  match a with
  | ⟨0, _⟩ => show win1_3.index t (0 : Fin 2) * 128 + 1 * kk.val = kk.val; omega
  | ⟨1, _⟩ => show win1_3.index t (1 : Fin 2) * 4 + 1 * h.val = h.val; omega

/-! ## What a slab writes back -/

omit V in
/-- Blocks that agree with four arrays along edge e (the queries', keys' and bias' row r is the arrays' row e, the
    table's block is the table) give, at (r, h), the logit of edge e and head h. -/
theorem pay1_slab (Q K : FVec Ideal S800000x128 .f32) (EB : FVec Ideal S800000x4 .f32) (G : FVec Ideal S128x4 .f32)
    (q k : Vec Ideal S6400x128 .f32) (g : Vec Ideal S128x4 .f32) (eb : Vec Ideal S6400x4 .f32)
    (r : Fin 6400) (h : Fin 4) (e : Fin 800000)
    (hq : ∀ kk, q (ix2 r kk) = Q (ix2 e kk)) (hk : ∀ kk, k (ix2 r kk) = K (ix2 e kk))
    (hg : ∀ kk, g (ix2 kk h) = G (ix2 kk h)) (hb : eb (ix2 r h) = EB (ix2 e h)) :
    k1_pay1 q k g eb (ix2 r h) = Cert.Spec.attnAt Q K EB G e h := by
  rw [pay1_at]
  unfold Cert.Spec.attnAt
  simp only [hq, hk, hg, hb]

theorem zeros1 : (![0, 0] : Fin 2 → Nat) = fun _ => 0 := funext fun a => by fin_cases a <;> rfl

omit V in
/-- A whole-array function read through slab t of the output, at (r, h): the function at row 6400·t + r. -/
theorem read_slab1 (G : FVec Ideal S800000x4 .f32) (t : Fin cfg1.N) (r : Fin 6400) (h : Fin 4) (e : Fin 800000)
    (he : e.val = t.val * 6400 + r.val) :
    ((cfg1.win 4).blk t).view.read (Elt Ideal) G (ix2 r h) = G (ix2 e h) := by
  obtain ⟨-, -, -, -, -, -, -, -, h0, h1⟩ := slab1_index t
  show G (((cfg1.win 4).blk t).view.emb (ix2 r h)) = G (ix2 e h)
  refine congrArg G (funext fun a => Fin.ext ?_)
  match a with
  | ⟨0, _⟩ => show win1_4.index t (0 : Fin 2) * 6400 + 1 * r.val = e.val; omega
  | ⟨1, _⟩ => show win1_4.index t (1 : Fin 2) * 4 + 1 * h.val = h.val; omega

omit V in
/-- The whole-array function at (e, h) is the logit of edge e and head h. -/
theorem attnSpec1_at (Q K : FVec Ideal S800000x128 .f32) (EB : FVec Ideal S800000x4 .f32) (G : FVec Ideal S128x4 .f32)
    (e : Fin 800000) (h : Fin 4) : Cert.Spec.attnSpec Q K EB G (ix2 e h) = Cert.Spec.attnAt Q K EB G e h := rfl

/-- Slab t writes back rows 6400·t … of the whole-array function of the four arrays the pipeline found. -/
theorem written1_eq (c : Dev nD) (t : Fin cfg1.N) :
    (dat1 (F := Ideal) V c).flushed 4 t
      = ((cfg1.win 4).blk t).view.read (Elt Ideal) (Cert.Spec.attnSpec (V c (Pipeline.arrRef spec1 0)) (V c (Pipeline.arrRef spec1 1))
          (V c (Pipeline.arrRef spec1 2)) (V c (Pipeline.arrRef spec1 3))) := by
  show (cfg1.win 4).cut (grid1.coords t) ((dat1 V c).after 4 t) = _
  rw [after1_4]
  unfold out1_4
  rw [View.canon_unit_zero zeros1]
  simp only [View.ld_unit_zero (S := S6400x128) zeros1, View.ld_unit_zero (S := S6400x4) zeros1, View.ld_unit_zero (S := S128x4) zeros1]
  have hN : t.val < 125 := N_1 ▸ t.isLt
  funext j
  obtain ⟨r, h, rfl⟩ : ∃ (r : Fin 6400) (h : Fin 4), j = ix2 r h := ⟨j 0, j 1, eq_ix2 j⟩
  have hr : r.val < 6400 := r.isLt
  refine (pay1_slab _ _ _ _ _ _ _ _ r h ⟨t.val * 6400 + r.val, by omega⟩
    (fun kk => slab1_at_0 V c t r kk _ rfl) (fun kk => slab1_at_1 V c t r kk _ rfl)
    (fun kk => slab1_at_3 V c t kk h) (slab1_at_2 V c t r h _ rfl)).trans ?_
  refine (attnSpec1_at _ _ _ _ _ h).symm.trans ?_
  exact (read_slab1 _ t r h _ rfl).symm

/-! ## The slabs tile the rows -/

/-- Edge e lies in slab e / 6400, and every slab is written back. -/
theorem cover1_rows (i : S800000x4.Idx) :
    ∃ t : Fin cfg1.N, (cfg1.win 4).flush t = true ∧ i ∈ ((cfg1.win 4).blk t).view.set := by
  have hi0 : (i 0).val < 800000 := (i 0).isLt
  have hi1 : (i 1).val < 4 := (i 1).isLt
  have ht : (i 0).val / 6400 < cfg1.N := by rw [show cfg1.N = 125 from N_1]; omega
  obtain ⟨-, -, -, -, -, -, -, -, h0, h1⟩ := slab1_index ⟨(i 0).val / 6400, ht⟩
  refine ⟨⟨(i 0).val / 6400, ht⟩, flush1_4 _, ?_⟩
  show i ∈ ((View.whole main_v41).slice (win1_4.rect ⟨(i 0).val / 6400, ht⟩)).set
  rw [View.set_slice_whole, Rect.mem_set_unit]
  intro a
  match a with
  | ⟨0, _⟩ =>
    show win1_4.index ⟨(i 0).val / 6400, ht⟩ (0 : Fin 2) * 6400 ≤ (i 0).val
      ∧ (i 0).val < win1_4.index ⟨(i 0).val / 6400, ht⟩ (0 : Fin 2) * 6400 + 6400
    rw [h0]; show (i 0).val / 6400 * 6400 ≤ (i 0).val ∧ (i 0).val < (i 0).val / 6400 * 6400 + 6400; omega
  | ⟨1, _⟩ =>
    show win1_4.index ⟨(i 0).val / 6400, ht⟩ (1 : Fin 2) * 4 ≤ (i 1).val
      ∧ (i 1).val < win1_4.index ⟨(i 0).val / 6400, ht⟩ (1 : Fin 2) * 4 + 4
    rw [h1]; omega

/-! ## The array after the last slab -/

/-- After the 125 slabs the output array holds the logit of every edge and head, computed from the four arrays
    as the pipeline found them. -/
theorem final1 (c : Dev nD) :
    (dat1 (F := Ideal) V c).arrAt 4 cfg1.N
      = Cert.Spec.attnSpec (V c (Pipeline.arrRef spec1 0)) (V c (Pipeline.arrRef spec1 1))
          (V c (Pipeline.arrRef spec1 2)) (V c (Pipeline.arrRef spec1 3)) :=
  (dat1 (F := Ideal) V c).arrAt_eq_of_cover 4 _ (fun t _ => written1_eq V c t) cover1_rows

end Cert.KernelIdeal.Hand

end
-- ==== Proof.Val2.lean ====
import proofs.«163383_j64295660421655_1_alg».proof.Proof.Reg2
import proofs.«163383_j64295660421655_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The value of the third kernel call over the extended reals: after its 125 grid points, the 800000 × 128 result
  array holds, at row e and column j,

      vs[e, j] · Σ_{h < 4} an[e, h] · gt[h, j]

  of the three arrays `vs`, `an`, `gt` the call found (`Cert.Spec.weightedSpec`).

  Three steps. (1) The body's one stored value, read at row r and column j of a block, is the block-local form of
  that expression: the matrix product into a zero accumulator is the sum over the four heads, the roundings to
  bf16 and the same-shape casts are identities over the extended reals. (2) Row r of the block at grid point t is
  row 6400·t + r of each row-blocked array, and the table's only block is the table; so what point t writes back
  is block t of the whole-array function. (3) Row e lies in the block of point e / 6400, so the blocks written
  back fill the array.
-/

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! ## The stored value at an entry of the block -/

/-! The matrix product [6400, 4] · [4, 128] contracts axis 1 of the left factor with axis 0 of the right. At output
    entry i and contraction position q, the left factor is read at (i 0, q) and the right at (q, i 1): one fact per
    operand axis. -/

theorem weighted2_lhs_0 (i : S6400x128.Idx) (q : dot_S6400x4_S4x128_S6400x128_1_0_0_1_n_n.contr.Idx) :
    (dot_S6400x4_S4x128_S6400x128_1_0_0_1_n_n.lhsIdx i q 0).val = (i 0).val := by
  unfold DotDims.lhsIdx
  rw [dif_neg (show ¬(0 : Fin S6400x4.rank) ∈ dot_S6400x4_S4x128_S6400x128_1_0_0_1_n_n.lhsBatch by decide),
    dif_pos (show (0 : Fin S6400x4.rank) ∈ dot_S6400x4_S4x128_S6400x128_1_0_0_1_n_n.lhsNonContracting by decide)]
  rfl

theorem weighted2_lhs_1 (i : S6400x128.Idx) (q : dot_S6400x4_S4x128_S6400x128_1_0_0_1_n_n.contr.Idx) :
    (dot_S6400x4_S4x128_S6400x128_1_0_0_1_n_n.lhsIdx i q 1).val = (q ⟨0, by decide⟩).val :=
  dot_S6400x4_S4x128_S6400x128_1_0_0_1_n_n.lhsIdx_val_of_single rfl i q

theorem weighted2_rhs_0 (i : S6400x128.Idx) (q : dot_S6400x4_S4x128_S6400x128_1_0_0_1_n_n.contr.Idx) :
    (dot_S6400x4_S4x128_S6400x128_1_0_0_1_n_n.rhsIdx i q 0).val = (q ⟨0, by decide⟩).val :=
  dot_S6400x4_S4x128_S6400x128_1_0_0_1_n_n.rhsIdx_val_of_single rfl i q

theorem weighted2_rhs_1 (i : S6400x128.Idx) (q : dot_S6400x4_S4x128_S6400x128_1_0_0_1_n_n.contr.Idx) :
    (dot_S6400x4_S4x128_S6400x128_1_0_0_1_n_n.rhsIdx i q 1).val = (i 1).val := by
  unfold DotDims.rhsIdx
  rw [dif_neg (show ¬(1 : Fin S4x128.rank) ∈ dot_S6400x4_S4x128_S6400x128_1_0_0_1_n_n.rhsBatch by decide),
    dif_pos (show (1 : Fin S4x128.rank) ∈ dot_S6400x4_S4x128_S6400x128_1_0_0_1_n_n.rhsNonContracting by decide)]
  rfl

/-- The stored value at row r, column j of the block: the value row's entry times the sum over the four heads of
    the row's attention weight for the head times the table's entry for the head and the column. -/
theorem weighted2_block_apply (vs : Vec Ideal S6400x128 .f32) (an : Vec Ideal S6400x4 .f32) (gt : Vec Ideal S4x128 .f32)
    (r : Fin 6400) (j : Fin 128) :
    k2_pay1 (F := Ideal) vs an gt (ix2 r j) = vs (ix2 r j) * ∑ h : Fin 4, an (ix2 r h) * gt (ix2 h j) := by
  unfold k2_pay1
  simp only [shapeCast_self, matmul]
  rw [mulf_apply, Ideal.matmul_constant_zero_apply,
    ← Equiv.sum_comp (contrEquiv1 dot_S6400x4_S4x128_S6400x128_1_0_0_1_n_n 4 rfl rfl).symm]
  refine congrArg (vs (ix2 r j) * ·) (Finset.sum_congr rfl fun h _ => ?_)
  have hk := contrEquiv1_symm_val dot_S6400x4_S4x128_S6400x128_1_0_0_1_n_n 4 rfl rfl h
  have el : dot_S6400x4_S4x128_S6400x128_1_0_0_1_n_n.lhsIdx (ix2 r j)
      ((contrEquiv1 dot_S6400x4_S4x128_S6400x128_1_0_0_1_n_n 4 rfl rfl).symm h) = ix2 r h :=
    funext fun a => Fin.ext (by
      match a with
      | ⟨0, _⟩ => exact weighted2_lhs_0 _ _
      | ⟨1, _⟩ => exact (weighted2_lhs_1 _ _).trans hk)
  have er : dot_S6400x4_S4x128_S6400x128_1_0_0_1_n_n.rhsIdx (ix2 r j)
      ((contrEquiv1 dot_S6400x4_S4x128_S6400x128_1_0_0_1_n_n 4 rfl rfl).symm h) = ix2 h j :=
    funext fun a => Fin.ext (by
      match a with
      | ⟨0, _⟩ => exact (weighted2_rhs_0 _ _).trans hk
      | ⟨1, _⟩ => exact weighted2_rhs_1 _ _)
  rw [truncf_apply, truncf_apply, el, er]

/-! ## The blocks at a grid point -/

/-- Where each window's block sits at point t, decided once over the 125 points: the two row-blocked inputs and the
    output are at row block t, column block 0; the table's block is always block (0, 0). -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row r of the block at point t is row 6400·t + r of the 800000 rows. -/
def edgeRow2 (t : Fin cfg2.N) (r : Fin 6400) : Fin 800000 :=
  ⟨6400 * t.val + r.val, by have ht : t.val < 125 := lt_of_lt_of_eq t.isLt N_2; have hr := r.isLt; omega⟩

variable (V : (c : Dev nD) → (b : Ref sig .tc) → Buf (Elt Ideal) ((c : Thread nD τ).loc b))

/-- The value rows' block at point t, entry (r, j): the array's entry (6400·t + r, j). -/
theorem vs_block2_apply (c : Dev nD) (t : Fin cfg2.N) (r : Fin 6400) (j : Fin 128) :
    iblk2 V c 0 t (ix2 r j) = V c (Pipeline.arrRef spec2 0) (ix2 (edgeRow2 t r) j) := by
  obtain ⟨h0, h1, -⟩ := block_index2 t
  unfold iblk2
  rw [View.read_apply]
  refine congrArg (V c (Pipeline.arrRef spec2 0)) (funext fun a => Fin.ext ?_)
  match a with
  | ⟨0, _⟩ => show win2_0.index t (0 : Fin 2) * 6400 + 1 * r.val = 6400 * t.val + r.val; rw [h0]; omega
  | ⟨1, _⟩ => show win2_0.index t (1 : Fin 2) * 128 + 1 * j.val = j.val; rw [h1]; omega

/-- The attention weights' block at point t, entry (r, h): the array's entry (6400·t + r, h). -/
theorem an_block2_apply (c : Dev nD) (t : Fin cfg2.N) (r : Fin 6400) (h : Fin 4) :
    iblk2 V c 1 t (ix2 r h) = V c (Pipeline.arrRef spec2 1) (ix2 (edgeRow2 t r) h) := by
  obtain ⟨-, -, h0, h1, -⟩ := block_index2 t
  unfold iblk2
  rw [View.read_apply]
  refine congrArg (V c (Pipeline.arrRef spec2 1)) (funext fun a => Fin.ext ?_)
  match a with
  | ⟨0, _⟩ => show win2_1.index t (0 : Fin 2) * 6400 + 1 * r.val = 6400 * t.val + r.val; rw [h0]; omega
  | ⟨1, _⟩ => show win2_1.index t (1 : Fin 2) * 4 + 1 * h.val = h.val; rw [h1]; omega

/-- The table's block at any point is the table. -/
theorem gt_block2_apply (c : Dev nD) (t : Fin cfg2.N) (h : Fin 4) (j : Fin 128) :
    iblk2 V c 2 t (ix2 h j) = V c (Pipeline.arrRef spec2 2) (ix2 h j) := by
  obtain ⟨-, -, -, -, h0, h1, -⟩ := block_index2 t
  unfold iblk2
  rw [View.read_apply]
  refine congrArg (V c (Pipeline.arrRef spec2 2)) (funext fun a => Fin.ext ?_)
  match a with
  | ⟨0, _⟩ => show win2_2.index t (0 : Fin 2) * 4 + 1 * h.val = h.val; rw [h0]; omega
  | ⟨1, _⟩ => show win2_2.index t (1 : Fin 2) * 128 + 1 * j.val = j.val; rw [h1]; omega

/-- Entry (r, j) of the output's block at point t is entry (6400·t + r, j) of the result array. -/
theorem out_block2_emb (t : Fin cfg2.N) (r : Fin 6400) (j : Fin 128) :
    ((cfg2.win 3).blk t).view.emb (ix2 r j) = ix2 (edgeRow2 t r) j := by
  obtain ⟨-, -, -, -, -, -, h0, h1⟩ := block_index2 t
  refine funext fun a => Fin.ext ?_
  match a with
  | ⟨0, _⟩ => show win2_3.index t (0 : Fin 2) * 6400 + 1 * r.val = 6400 * t.val + r.val; rw [h0]; omega
  | ⟨1, _⟩ => show win2_3.index t (1 : Fin 2) * 128 + 1 * j.val = j.val; rw [h1]; omega

/-! ## What a point writes back -/

theorem zeros2 : (![0, 0] : Fin 2 → Nat) = fun _ => 0 := funext fun a => by fin_cases a <;> rfl

/-- The stored value of point t at entry (r, j) of its block is the whole-array function at the array entry the
    block's (r, j) stands for: each factor is read at row 6400·t + r of its array (the table as it is). -/
theorem written2_at (c : Dev nD) (t : Fin cfg2.N) (r : Fin 6400) (j : Fin 128) :
    k2_pay1 (F := Ideal) (iblk2 V c 0 t) (iblk2 V c 1 t) (iblk2 V c 2 t) (ix2 r j)
      = Cert.Spec.weightedSpec (V c (Pipeline.arrRef spec2 0)) (V c (Pipeline.arrRef spec2 1)) (V c (Pipeline.arrRef spec2 2))
          (((cfg2.win 3).blk t).view.emb (ix2 r j)) := by
  rw [weighted2_block_apply, out_block2_emb, vs_block2_apply]
  simp only [an_block2_apply, gt_block2_apply]
  rfl

/-- What point t writes back to the result array is block t of the whole-array function. -/
theorem written2_3 (c : Dev nD) (t : Fin cfg2.N) :
    (dat2 (F := Ideal) V c).flushed 3 t
      = ((cfg2.win 3).blk t).view.read (Elt Ideal)
          (Cert.Spec.weightedSpec (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zeros2]
  simp only [View.ld_unit_zero (S := S6400x128) zeros2, View.ld_unit_zero (S := S6400x4) zeros2,
    View.ld_unit_zero (S := S4x128) zeros2]
  funext y
  obtain ⟨r, j, rfl⟩ : ∃ (r : Fin 6400) (j : Fin 128), y = ix2 r j := ⟨y 0, y 1, eq_ix2 y⟩
  exact written2_at V c t r j

/-! ## The blocks fill the array -/

/-- An entry of the result array lies in point t's block exactly when, on each axis, its coordinate lies in the
    block's range. -/
theorem mem_out_block2 (t : Fin cfg2.N) (i : S800000x128.Idx) :
    i ∈ ((cfg2.win 3).blk t).view.set
      ↔ ∀ a : Fin 2, win2_3.index t a * S6400x128.size a ≤ (i a).val ∧ (i a).val < win2_3.index t a * S6400x128.size a + S6400x128.size a := by
  show i ∈ ((View.whole main_v59).slice (win2_3.rect t)).set ↔ _
  rw [View.set_slice_whole, Rect.mem_set_unit]
  exact Iff.rfl

/-- Row e of the result lies in the block of point e / 6400, and every point writes its block back. -/
theorem out_blocks2_cover (i : S800000x128.Idx) :
    ∃ t : Fin cfg2.N, (cfg2.win 3).flush t = true ∧ i ∈ ((cfg2.win 3).blk t).view.set := by
  have hi0 : (i 0).val < 800000 := (i 0).isLt
  have hi1 : (i 1).val < 128 := (i 1).isLt
  have hN : cfg2.N = 125 := N_2
  obtain ⟨t, ht⟩ : ∃ t : Fin cfg2.N, t.val = (i 0).val / 6400 := ⟨⟨(i 0).val / 6400, by rw [hN]; omega⟩, rfl⟩
  obtain ⟨-, -, -, -, -, -, h0, h1⟩ := block_index2 t
  refine ⟨t, flush2_3 t, ?_⟩
  rw [mem_out_block2]
  intro a
  match a with
  | ⟨0, _⟩ =>
    show win2_3.index t (0 : Fin 2) * 6400 ≤ (i 0).val ∧ (i 0).val < win2_3.index t (0 : Fin 2) * 6400 + 6400
    rw [h0, ht]; omega
  | ⟨1, _⟩ =>
    show win2_3.index t (1 : Fin 2) * 128 ≤ (i 1).val ∧ (i 1).val < win2_3.index t (1 : Fin 2) * 128 + 128
    rw [h1]; omega

/-! ## The result array -/

/-- After the last point the result array is the whole-array function of the three arrays the call found. -/
theorem final2 (c : Dev nD) :
    (dat2 (F := Ideal) V c).arrAt 3 cfg2.N
      = Cert.Spec.weightedSpec (V c (Pipeline.arrRef spec2 0)) (V c (Pipeline.arrRef spec2 1)) (V c (Pipeline.arrRef spec2 2)) :=
  (dat2 V c).arrAt_eq_of_cover 3 _ (fun t _ => written2_3 V c t) out_blocks2_cover

end Cert.KernelIdeal.Hand

end
-- ==== Proof.Val3.lean ====
import proofs.«163383_j64295660421655_1_alg».proof.Proof.Reg3
import proofs.«163383_j64295660421655_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-!
  What the last region leaves in the result array, at the extended reals: every row of the node features and of the
  aggregated messages goes through the same two affine maps and a rectifier, so the array the ten write-backs leave
  is one function of the seven arrays the region found, `Cert.Spec.finalSpec`.
-/

/-! ## A 5000 × 128 by 128 × 128 product, entry by entry

All three products of the body contract the left operand's columns against the right operand's rows. Where the
dimension numbers send an output position (r, j) and a contraction position k: left operand (r, k), right operand (k, j). -/

theorem prod3_left_row (i : S5000x128.Idx) (q : dot_S5000x128_S128x128_S5000x128_1_0_0_1_n_n.contr.Idx) :
    (dot_S5000x128_S128x128_S5000x128_1_0_0_1_n_n.lhsIdx i q 0).val = (i 0).val := by
  simp [DotDims.lhsIdx, dot_S5000x128_S128x128_S5000x128_1_0_0_1_n_n]
  rfl

theorem prod3_left_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem prod3_right_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem prod3_right_col (i : S5000x128.Idx) (q : dot_S5000x128_S128x128_S5000x128_1_0_0_1_n_n.contr.Idx) :
    (dot_S5000x128_S128x128_S5000x128_1_0_0_1_n_n.rhsIdx i q 1).val = (i 1).val := by
  simp [DotDims.rhsIdx, dot_S5000x128_S128x128_S5000x128_1_0_0_1_n_n]
  rfl

/-- Accumulated into zero, the product at (r, j) is the sum over k of left (r, k) times right (k, j): no rounding
    is left at the extended reals, and the contraction's one-axis index set is the 128 values of k. -/
theorem prod3_apply (A : FVec Ideal S5000x128 .bf16) (B : FVec Ideal S128x128 .bf16) (r : Fin 5000) (j : Fin 128) :
    matmul dot_S5000x128_S128x128_S5000x128_1_0_0_1_n_n none A B (constant (F := Ideal) S5000x128 .f32 0x00000000#32) (ix2 r j)
      = ∑ k : Fin 128, A (ix2 r k) * B (ix2 k j) := by
  show FloatOps.matmul dot_S5000x128_S128x128_S5000x128_1_0_0_1_n_n none A B _ (ix2 r j) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 r j) ((contrEquiv1 dot_S5000x128_S128x128_S5000x128_1_0_0_1_n_n 128 rfl rfl).symm k) = ix2 r k := by
    funext a; apply Fin.ext
    match a with
    | ⟨0, _⟩ => exact prod3_left_row _ _
    | ⟨1, _⟩ => exact (prod3_left_col _ _).trans hk
  have hr : dot_S5000x128_S128x128_S5000x128_1_0_0_1_n_n.rhsIdx (ix2 r j) ((contrEquiv1 dot_S5000x128_S128x128_S5000x128_1_0_0_1_n_n 128 rfl rfl).symm k) = ix2 k j := by
    funext a; apply Fin.ext
    match a with
    | ⟨0, _⟩ => exact (prod3_right_row _ _).trans hk
    | ⟨1, _⟩ => exact prod3_right_col _ _
  rw [hl, hr]

/-! ## A bias laid along every row -/

/-- A vector of 128 viewed as one row and repeated down 5000 rows reads, at (r, j), the vector at j. -/
theorem biasRows3_apply (v : FVec Ideal S128 .f32) (r : Fin 5000) (j : Fin 128) :
    broadcastTo S5000x128 (shapeCast S1x128 v shapeCasts_S128_S1x128) broadcasts_S1x128_S5000x128 (ix2 r j) = v (ix1 j) :=
  (broadcastTo_1b_ab_apply _ broadcasts_S1x128_S5000x128 r j).trans (shapeCast_a_1a_apply v shapeCasts_S128_S1x128 0 j)

/-! ## The body's value at one entry of the block -/

/-- At row r and column j of the block: the features' row through the first matrix of the last affine map, plus the
    projected aggregate's row (the aggregate's row through the projection matrix, plus the projection's bias) through
    the second matrix, plus the last bias, cut off below at zero. The narrowings to bf16 change nothing at the
    extended reals; the three products are sums over the shared index; each bias is read at the column alone. -/
theorem pay3_apply (X0 X1 : FVec Ideal S5000x128 .f32) (X2 : FVec Ideal S128x128 .f32) (X3 : FVec Ideal S128 .f32)
    (X4 X5 : FVec Ideal S128x128 .f32) (X6 : FVec Ideal S128 .f32) (r : Fin 5000) (j : Fin 128) :
    k3_pay1 X0 X1 X2 X3 X4 X5 X6 (ix2 r j)
      = max (((∑ k : Fin 128, X0 (ix2 r k) * X4 (ix2 k j))
            + (∑ k : Fin 128, ((∑ l : Fin 128, X1 (ix2 r l) * X2 (ix2 l k)) + X3 (ix1 k)) * X5 (ix2 k j))) + X6 (ix1 j))
          (Ideal.ofBits .f32 0x00000000#32) := by
  unfold k3_pay1
  simp only [shapeCast_self, maximumf_apply, addf_apply, prod3_apply, biasRows3_apply, truncf_apply, broadcast_apply]
  rfl

/-- The same entry when the two row blocks are rows of two 50000-row arrays and the five small blocks are the small
    arrays themselves: if row r of each row block is row n of its array, the value is `Cert.Spec.finalAt` of the
    seven arrays at (n, j). -/
theorem pay3_at (X0 X1 : FVec Ideal S5000x128 .f32) (A0 A1 : FVec Ideal S50000x128 .f32) (X2 W2 : FVec Ideal S128x128 .f32)
    (X3 W3 : FVec Ideal S128 .f32) (X4 W4 X5 W5 : FVec Ideal S128x128 .f32) (X6 W6 : FVec Ideal S128 .f32)
    (r : Fin 5000) (n : Fin 50000) (j : Fin 128)
    (h0 : ∀ k, X0 (ix2 r k) = A0 (ix2 n k)) (h1 : ∀ k, X1 (ix2 r k) = A1 (ix2 n k))
    (h2 : X2 = W2) (h3 : X3 = W3) (h4 : X4 = W4) (h5 : X5 = W5) (h6 : X6 = W6) :
    k3_pay1 (F := Ideal) X0 X1 X2 X3 X4 X5 X6 (ix2 r j) = Cert.Spec.finalAt A0 A1 W2 W3 W4 W5 W6 n j := by
  subst h2 h3 h4 h5 h6
  rw [pay3_apply]
  unfold Cert.Spec.finalAt Cert.Spec.projAt
  simp only [h0, h1]

/-! ## Where each window's block sits in its array -/

variable (V : (c : Dev nD) → (b : Ref sig .tc) → Buf (Elt Ideal) ((c : Thread nD τ).loc b))

theorem zeroOff3_2 : (![0, 0] : Fin 2 → Nat) = fun _ => 0 := funext fun a => by fin_cases a <;> rfl
theorem zeroOff3_1 : (![0] : Fin 1 → Nat) = fun _ => 0 := funext fun a => by fin_cases a <;> rfl

/-- At grid point t the two row windows and the output address block (t, 0); the five small arrays always block 0.
    Decided over the ten points. -/
theorem idx3_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_7.index t (0 : Fin 2) = t.val ∧ win3_7.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 1) = 0 ∧ t.val < 10 :=
  (by decide +kernel : ∀ t : Fin grid3.N, _)

/-- Row r of the features' block at point t is row 5000·t + r of the features. -/
theorem rows3_0_apply (c : Dev nD) (t : Fin cfg3.N) (r : Fin 5000) (k : Fin 128) (n : Fin 50000) (hn : n.val = 5000 * t.val + r.val) :
    (iblk3 V c 0 t : FVec Ideal S5000x128 .f32) (ix2 r k) = (V c (Pipeline.arrRef spec3 0) : FVec Ideal S50000x128 .f32) (ix2 n k) := by
  obtain ⟨e0, e1, -⟩ := idx3_facts t
  unfold iblk3
  rw [View.read_apply]
  show V c (Pipeline.arrRef spec3 0) (((cfg3.win 0).blk t).view.emb (ix2 r k)) = V c (Pipeline.arrRef spec3 0) (ix2 n k)
  refine congrArg (V c (Pipeline.arrRef spec3 0)) (funext fun a => Fin.ext ?_)
  match a with
  | ⟨0, _⟩ => show win3_0.index t (0 : Fin 2) * 5000 + 1 * r.val = n.val; rw [e0, hn]; omega
  | ⟨1, _⟩ => show win3_0.index t (1 : Fin 2) * 128 + 1 * k.val = k.val; rw [e1]; omega

/-- Row r of the aggregate's block at point t is row 5000·t + r of the aggregate. -/
theorem rows3_1_apply (c : Dev nD) (t : Fin cfg3.N) (r : Fin 5000) (k : Fin 128) (n : Fin 50000) (hn : n.val = 5000 * t.val + r.val) :
    (iblk3 V c 1 t : FVec Ideal S5000x128 .f32) (ix2 r k) = (V c (Pipeline.arrRef spec3 1) : FVec Ideal S50000x128 .f32) (ix2 n k) := by
  obtain ⟨-, -, e0, e1, -⟩ := idx3_facts t
  unfold iblk3
  rw [View.read_apply]
  show V c (Pipeline.arrRef spec3 1) (((cfg3.win 1).blk t).view.emb (ix2 r k)) = V c (Pipeline.arrRef spec3 1) (ix2 n k)
  refine congrArg (V c (Pipeline.arrRef spec3 1)) (funext fun a => Fin.ext ?_)
  match a with
  | ⟨0, _⟩ => show win3_1.index t (0 : Fin 2) * 5000 + 1 * r.val = n.val; rw [e0, hn]; omega
  | ⟨1, _⟩ => show win3_1.index t (1 : Fin 2) * 128 + 1 * k.val = k.val; rw [e1]; omega

/-! Each small array's block is the array, at every point. -/
theorem whole3_2 (c : Dev nD) (t : Fin cfg3.N) : (iblk3 V c 2 t : FVec Ideal S128x128 .f32) = V c (Pipeline.arrRef spec3 2) := by
  obtain ⟨-, -, -, -, -, -, e0, e1, -⟩ := idx3_facts t
  funext y
  unfold iblk3
  rw [View.read_apply]
  show V c (Pipeline.arrRef spec3 2) (((cfg3.win 2).blk t).view.emb y) = V c (Pipeline.arrRef spec3 2) y
  refine congrArg (V c (Pipeline.arrRef spec3 2)) (funext fun a => Fin.ext ?_)
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

theorem whole3_3 (c : Dev nD) (t : Fin cfg3.N) : (iblk3 V c 3 t : FVec Ideal S128 .f32) = V c (Pipeline.arrRef spec3 3) := by
  obtain ⟨-, -, -, -, -, -, -, -, e0, -⟩ := idx3_facts t
  funext y
  unfold iblk3
  rw [View.read_apply]
  show V c (Pipeline.arrRef spec3 3) (((cfg3.win 3).blk t).view.emb y) = V c (Pipeline.arrRef spec3 3) y
  refine congrArg (V c (Pipeline.arrRef spec3 3)) (funext fun a => Fin.ext ?_)
  match a with
  | ⟨0, _⟩ => show win3_3.index t (0 : Fin 1) * 128 + 1 * (y 0).val = (y 0).val; rw [e0]; omega

theorem whole3_4 (c : Dev nD) (t : Fin cfg3.N) : (iblk3 V c 4 t : FVec Ideal S128x128 .f32) = V c (Pipeline.arrRef spec3 4) := by
  obtain ⟨-, -, -, -, -, -, -, -, -, e0, e1, -⟩ := idx3_facts t
  funext y
  unfold iblk3
  rw [View.read_apply]
  show V c (Pipeline.arrRef spec3 4) (((cfg3.win 4).blk t).view.emb y) = V c (Pipeline.arrRef spec3 4) y
  refine congrArg (V c (Pipeline.arrRef spec3 4)) (funext fun a => Fin.ext ?_)
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

theorem whole3_5 (c : Dev nD) (t : Fin cfg3.N) : (iblk3 V c 5 t : FVec Ideal S128x128 .f32) = V c (Pipeline.arrRef spec3 5) := by
  obtain ⟨-, -, -, -, -, -, -, -, -, -, -, e0, e1, -⟩ := idx3_facts t
  funext y
  unfold iblk3
  rw [View.read_apply]
  show V c (Pipeline.arrRef spec3 5) (((cfg3.win 5).blk t).view.emb y) = V c (Pipeline.arrRef spec3 5) y
  refine congrArg (V c (Pipeline.arrRef spec3 5)) (funext fun a => Fin.ext ?_)
  match a with
  | ⟨0, _⟩ => show win3_5.index t (0 : Fin 2) * 128 + 1 * (y 0).val = (y 0).val; rw [e0]; omega
  | ⟨1, _⟩ => show win3_5.index t (1 : Fin 2) * 128 + 1 * (y 1).val = (y 1).val; rw [e1]; omega

theorem whole3_6 (c : Dev nD) (t : Fin cfg3.N) : (iblk3 V c 6 t : FVec Ideal S128 .f32) = V c (Pipeline.arrRef spec3 6) := by
  obtain ⟨-, -, -, -, -, -, -, -, -, -, -, -, -, e0, -⟩ := idx3_facts t
  funext y
  unfold iblk3
  rw [View.read_apply]
  show V c (Pipeline.arrRef spec3 6) (((cfg3.win 6).blk t).view.emb y) = V c (Pipeline.arrRef spec3 6) y
  refine congrArg (V c (Pipeline.arrRef spec3 6)) (funext fun a => Fin.ext ?_)
  match a with
  | ⟨0, _⟩ => show win3_6.index t (0 : Fin 1) * 128 + 1 * (y 0).val = (y 0).val; rw [e0]; omega

/-! ## What a write-back writes, and the array the ten of them leave -/

set_option maxHeartbeats 1000000 in
/-- Point t writes back block t of `Cert.Spec.finalSpec` of the seven arrays: entry (r, j) of the block sits at row
    5000·t + r, column j of the result, whose value there reads rows 5000·t + r of the features and of the aggregate,
    the rows the two row windows hold at entry (r, ·). -/
theorem flushed3_eq (c : Dev nD) (t : Fin cfg3.N) :
    (dat3 (F := Ideal) V c).flushed 7 t
      = ((cfg3.win 7).blk t).view.read (Elt Ideal) (Cert.Spec.finalSpec (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 7).cut (grid3.coords t) ((dat3 V c).after 7 t) = _
  rw [after3_7]
  unfold out3_7
  rw [View.canon_unit_zero zeroOff3_2]
  simp only [View.ld_unit_zero (S := S5000x128) zeroOff3_2, View.ld_unit_zero (S := S128x128) zeroOff3_2,
    View.ld_unit_zero (S := S128) zeroOff3_1]
  obtain ⟨-, -, -, -, e0, e1, -⟩ := idx3_facts t
  funext y
  obtain ⟨r, j, rfl⟩ : ∃ (r : Fin 5000) (j : Fin 128), y = ix2 r j := ⟨y 0, y 1, eq_ix2 y⟩
  rw [View.read_apply]
  have hrow : ((((cfg3.win 7).blk t).view.emb (ix2 r j)) 0).val = 5000 * t.val + r.val := by
    show win3_7.index t (0 : Fin 2) * 5000 + 1 * r.val = _
    rw [e0]; omega
  have hcol : (((cfg3.win 7).blk t).view.emb (ix2 r j)) 1 = j := Fin.ext (by
    show win3_7.index t (1 : Fin 2) * 128 + 1 * j.val = j.val
    rw [e1]; omega)
  refine (pay3_at _ _ (V c (Pipeline.arrRef spec3 0)) (V c (Pipeline.arrRef spec3 1)) _ (V c (Pipeline.arrRef spec3 2)) _ (V c (Pipeline.arrRef spec3 3)) _ (V c (Pipeline.arrRef spec3 4)) _ (V c (Pipeline.arrRef spec3 5)) _ (V c (Pipeline.arrRef spec3 6)) r _ j
    (fun k => rows3_0_apply V c t r k _ hrow) (fun k => rows3_1_apply V c t r k _ hrow)
    (whole3_2 V c t) (whole3_3 V c t) (whole3_4 V c t) (whole3_5 V c t) (whole3_6 V c t)).trans ?_
  exact congrArg (Cert.Spec.finalAt (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) _) hcol.symm

/-- An array position is in point t's block when its row lies in 5000·t … 5000·t + 4999 (and its column in 0 … 127). -/
theorem mem_blk3 (t : Fin cfg3.N) (i : S50000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v65).slice (win3_7.rect t)).set ↔ _
  rw [View.set_slice_whole, Rect.mem_set_unit]
  exact Iff.rfl

/-- Every position of the result is written: row n by point n / 5000. -/
theorem cover3 (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨-, -, -, -, e0, e1, -⟩ := idx3_facts ⟨(i 0).val / 5000, ht⟩
  refine ⟨⟨(i 0).val / 5000, ht⟩, flush3_7 _, ?_⟩
  rw [mem_blk3]
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win3_7.index ⟨(i 0).val / 5000, ht⟩ (1 : Fin 2) * 128 ≤ (i 1).val
      ∧ (i 1).val < win3_7.index ⟨(i 0).val / 5000, ht⟩ (1 : Fin 2) * 128 + 128
    rw [e1]
    omega

/-- So after the last point the result array is `Cert.Spec.finalSpec` of the arrays the region found. -/
theorem final3 (c : Dev nD) :
    (dat3 (F := Ideal) V c).arrAt 7 cfg3.N = Cert.Spec.finalSpec (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) :=
  (dat3 (F := Ideal) V c).arrAt_eq_of_cover 7 (Cert.Spec.finalSpec (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)))
    (fun t _ => flushed3_eq V c t) cover3

end Cert.KernelIdeal.Hand

end
-- ==== Proof.KernelValue.lean ====
import proofs.«163383_j64295660421655_1_alg».proof.Proof.HostReads
import proofs.«163383_j64295660421655_1_alg».proof.Proof.HeadReads
import proofs.«163383_j64295660421655_1_alg».proof.Proof.Val0
import proofs.«163383_j64295660421655_1_alg».proof.Proof.Val1
import proofs.«163383_j64295660421655_1_alg».proof.Proof.Val2
import proofs.«163383_j64295660421655_1_alg».proof.Proof.Val3

/-!
  The kernel program's result as ONE function of @main's arguments, at the ideal instance: each region's output array
  is its whole-array function (`Spec.lean`) of the arrays it was entered with, each of those is a host function
  (`KStages.lean`) of earlier buffers, and every chain ends at the launch memory's argument arrays. Composed, the
  output region's array is `kernelOut` of the arguments.
-/

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The projection region leaves x · [Wq | Wk | Wv]. -/
theorem qkv_at_2 (c : Dev nD) : W2 m c (Proc.devRef .tc main_v5)
    = Cert.Spec.qkvSpec (m ((c : Thread nD τ).loc main_arg0)) (wcat (m ((c : Thread nD τ).loc main_arg3)) (m ((c : Thread nD τ).loc main_arg4)) (m ((c : Thread nD τ).loc main_arg5))) :=
  (W2_arr m c 2).trans ((final0 (E1 m) c).trans (by
    show Cert.Spec.qkvSpec (W1 m c (Proc.devRef .tc main_arg0)) (W1 m c (Proc.devRef .tc main_v4)) = _
    rw [read_x_1, read_wcat]))

/-- The gathered query, key and value rows, and the edge bias, at the attention-score region's entry. -/
theorem qd_at_5 (c : Dev nD) : W5 m c (Proc.devRef .tc main_v16)
    = gatherRows (colsQ (Cert.Spec.qkvSpec (m ((c : Thread nD τ).loc main_arg0)) (wcat (m ((c : Thread nD τ).loc main_arg3)) (m ((c : Thread nD τ).loc main_arg4)) (m ((c : Thread nD τ).loc main_arg5))))) (rowIdx (dstOf (m ((c : Thread nD τ).loc main_arg1)))) :=
  (W5_host m c main_v16 (by decide)).trans <| (W4_host m c main_v16 (by decide)).trans <| (read_qd m c).trans (by rw [qkv_at_2, dst_at_2])
theorem ks_at_5 (c : Dev nD) : W5 m c (Proc.devRef .tc main_v23)
    = gatherRows (colsK (Cert.Spec.qkvSpec (m ((c : Thread nD τ).loc main_arg0)) (wcat (m ((c : Thread nD τ).loc main_arg3)) (m ((c : Thread nD τ).loc main_arg4)) (m ((c : Thread nD τ).loc main_arg5))))) (rowIdx (srcOf (m ((c : Thread nD τ).loc main_arg1)))) :=
  (W5_host m c main_v23 (by decide)).trans <| (W4_host m c main_v23 (by decide)).trans <| (read_ks m c).trans (by rw [qkv_at_2, src_at_2])
theorem vs_at_5 (c : Dev nD) : W5 m c (Proc.devRef .tc main_v30)
    = gatherRows (colsV (Cert.Spec.qkvSpec (m ((c : Thread nD τ).loc main_arg0)) (wcat (m ((c : Thread nD τ).loc main_arg3)) (m ((c : Thread nD τ).loc main_arg4)) (m ((c : Thread nD τ).loc main_arg5))))) (rowIdx (srcOf (m ((c : Thread nD τ).loc main_arg1)))) :=
  (W5_host m c main_v30 (by decide)).trans <| (W4_host m c main_v30 (by decide)).trans <| (read_vs m c).trans (by rw [qkv_at_2, src_at_2])
theorem eb_at_5 (c : Dev nD) : W5 m c (Proc.devRef .tc main_v9) = edgeBias (F := Ideal) (m ((c : Thread nD τ).loc main_arg2)) (m ((c : Thread nD τ).loc main_arg6)) :=
  (W5_host m c main_v9 (by decide)).trans <| (W4_host m c main_v9 (by decide)).trans <| (read_eb m c).trans (by rw [ea_at_2, we_at_2])

/-- The attention-score region leaves the leaky logits. -/
theorem logits_at_6 (c : Dev nD) : W6 m c (Proc.devRef .tc main_v41)
    = Cert.Spec.attnSpec (gatherRows (colsQ (Cert.Spec.qkvSpec (m ((c : Thread nD τ).loc main_arg0)) (wcat (m ((c : Thread nD τ).loc main_arg3)) (m ((c : Thread nD τ).loc main_arg4)) (m ((c : Thread nD τ).loc main_arg5))))) (rowIdx (dstOf (m ((c : Thread nD τ).loc main_arg1)))))
        (gatherRows (colsK (Cert.Spec.qkvSpec (m ((c : Thread nD τ).loc main_arg0)) (wcat (m ((c : Thread nD τ).loc main_arg3)) (m ((c : Thread nD τ).loc main_arg4)) (m ((c : Thread nD τ).loc main_arg5))))) (rowIdx (srcOf (m ((c : Thread nD τ).loc main_arg1)))))
        (edgeBias (m ((c : Thread nD τ).loc main_arg2)) (m ((c : Thread nD τ).loc main_arg6))) (headTable (F := Ideal)) :=
  (W6_arr m c 4).trans ((final1 (E5 m) c).trans (by
    show Cert.Spec.attnSpec (W5 m c (Proc.devRef .tc main_v16)) (W5 m c (Proc.devRef .tc main_v23)) (W5 m c (Proc.devRef .tc main_v9))
      (W5 m c (Proc.devRef .tc main_v39)) = _
    rw [qd_at_5, ks_at_5, eb_at_5, read_table]))

/-- The attention weights, the value rows and the transposed table at the weighting region's entry. -/
theorem an_at_7 (c : Dev nD) : W7 m c (Proc.devRef .tc main_v58)
    = softmaxChain (Cert.Spec.attnSpec (gatherRows (colsQ (Cert.Spec.qkvSpec (m ((c : Thread nD τ).loc main_arg0)) (wcat (m ((c : Thread nD τ).loc main_arg3)) (m ((c : Thread nD τ).loc main_arg4)) (m ((c : Thread nD τ).loc main_arg5))))) (rowIdx (dstOf (m ((c : Thread nD τ).loc main_arg1)))))
        (gatherRows (colsK (Cert.Spec.qkvSpec (m ((c : Thread nD τ).loc main_arg0)) (wcat (m ((c : Thread nD τ).loc main_arg3)) (m ((c : Thread nD τ).loc main_arg4)) (m ((c : Thread nD τ).loc main_arg5))))) (rowIdx (srcOf (m ((c : Thread nD τ).loc main_arg1)))))
        (edgeBias (m ((c : Thread nD τ).loc main_arg2)) (m ((c : Thread nD τ).loc main_arg6))) (headTable (F := Ideal))) (dstOf (m ((c : Thread nD τ).loc main_arg1))) :=
  (read_an m c).trans (by rw [logits_at_6, dst_at_6])
theorem vs_at_7 (c : Dev nD) : W7 m c (Proc.devRef .tc main_v30)
    = gatherRows (colsV (Cert.Spec.qkvSpec (m ((c : Thread nD τ).loc main_arg0)) (wcat (m ((c : Thread nD τ).loc main_arg3)) (m ((c : Thread nD τ).loc main_arg4)) (m ((c : Thread nD τ).loc main_arg5))))) (rowIdx (srcOf (m ((c : Thread nD τ).loc main_arg1)))) :=
  (W7_host m c main_v30 (by decide)).trans <| (W6_of_ne m c main_v30 (by decide)).trans (vs_at_5 m c)
theorem tableT_at_7 (c : Dev nD) : W7 m c (Proc.devRef .tc main_v40) = headTableT (F := Ideal) :=
  (W7_host m c main_v40 (by decide)).trans <| (W6_of_ne m c main_v40 (by decide)).trans (read_tableT m c)

/-- The weighting region leaves the weighted value rows. -/
theorem weighted_at_8 (c : Dev nD) : W8 m c (Proc.devRef .tc main_v59)
    = Cert.Spec.weightedSpec (gatherRows (colsV (Cert.Spec.qkvSpec (m ((c : Thread nD τ).loc main_arg0)) (wcat (m ((c : Thread nD τ).loc main_arg3)) (m ((c : Thread nD τ).loc main_arg4)) (m ((c : Thread nD τ).loc main_arg5))))) (rowIdx (srcOf (m ((c : Thread nD τ).loc main_arg1)))))
        (softmaxChain (Cert.Spec.attnSpec (gatherRows (colsQ (Cert.Spec.qkvSpec (m ((c : Thread nD τ).loc main_arg0)) (wcat (m ((c : Thread nD τ).loc main_arg3)) (m ((c : Thread nD τ).loc main_arg4)) (m ((c : Thread nD τ).loc main_arg5))))) (rowIdx (dstOf (m ((c : Thread nD τ).loc main_arg1)))))
          (gatherRows (colsK (Cert.Spec.qkvSpec (m ((c : Thread nD τ).loc main_arg0)) (wcat (m ((c : Thread nD τ).loc main_arg3)) (m ((c : Thread nD τ).loc main_arg4)) (m ((c : Thread nD τ).loc main_arg5))))) (rowIdx (srcOf (m ((c : Thread nD τ).loc main_arg1)))))
          (edgeBias (m ((c : Thread nD τ).loc main_arg2)) (m ((c : Thread nD τ).loc main_arg6))) (headTable (F := Ideal))) (dstOf (m ((c : Thread nD τ).loc main_arg1))))
        (headTableT (F := Ideal)) :=
  (W8_arr m c 3).trans ((final2 (E7 m) c).trans (by
    show Cert.Spec.weightedSpec (W7 m c (Proc.devRef .tc main_v30)) (W7 m c (Proc.devRef .tc main_v58)) (W7 m c (Proc.devRef .tc main_v40)) = _
    rw [vs_at_7, an_at_7, tableT_at_7]))

/-- The arrays the output region is entered with. -/
theorem x_at_9 (c : Dev nD) : W9 m c (Proc.devRef .tc main_arg0) = m ((c : Thread nD τ).loc main_arg0) :=
  (W9_host m c main_arg0 (by decide)).trans <| (W8_of_ne m c main_arg0 (by decide)).trans <| (W7_host m c main_arg0 (by decide)).trans <|
    (W6_of_ne m c main_arg0 (by decide)).trans <| (W5_host m c main_arg0 (by decide)).trans <| (W4_host m c main_arg0 (by decide)).trans <|
    (W3_host m c main_arg0 (by decide)).trans <| (W2_in m c 0 rfl).trans (W1_host m c main_arg0 (by decide))
theorem wo_at_9 (c : Dev nD) : W9 m c (Proc.devRef .tc main_arg7) = m ((c : Thread nD τ).loc main_arg7) :=
  (early_at_9 m c main_arg7 (by decide) (by decide) (by decide) (by decide) (by decide) (by decide) (by decide) (by decide)).trans (W1_host m c main_arg7 (by decide))
theorem bo_at_9 (c : Dev nD) : W9 m c (Proc.devRef .tc main_arg8) = m ((c : Thread nD τ).loc main_arg8) :=
  (early_at_9 m c main_arg8 (by decide) (by decide) (by decide) (by decide) (by decide) (by decide) (by decide) (by decide)).trans (W1_host m c main_arg8 (by decide))
theorem bm_at_9 (c : Dev nD) : W9 m c (Proc.devRef .tc main_arg10) = m ((c : Thread nD τ).loc main_arg10) :=
  (early_at_9 m c main_arg10 (by decide) (by decide) (by decide) (by decide) (by decide) (by decide) (by decide) (by decide)).trans (W1_host m c main_arg10 (by decide))

/-- THE KERNEL'S VALUE: what the output region's write-backs leave is `kernelOut` of @main's arguments. -/
theorem kernel_value (c : Dev nD) : (dat3 (F := Ideal) (E9 m) c).arrAt 7 cfg3.N
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) :=
  (final3 (E9 m) c).trans (by
    show Cert.Spec.finalSpec (W9 m c (Proc.devRef .tc main_arg0)) (W9 m c (Proc.devRef .tc main_v62)) (W9 m c (Proc.devRef .tc main_arg7))
      (W9 m c (Proc.devRef .tc main_arg8)) (W9 m c (Proc.devRef .tc main_v63)) (W9 m c (Proc.devRef .tc main_v64)) (W9 m c (Proc.devRef .tc main_arg10)) = _
    rw [x_at_9, read_agg, weighted_at_8, dst_at_8, wo_at_9, bo_at_9, read_wmTop, read_wmBot, wm_at_8, bm_at_9]
    rfl)

end Cert.KernelIdeal.Hand

end
-- ==== Proof.RefRunHand.lean ====
import proofs.«163383_j64295660421655_1_alg».proof.Proof.RefRead
import Idealize.ShloMosaic.Lib.StableHlo.Run

/-!
  The reference program's run. @main is 94 host operations and nothing else, so every weakly fair execution
  terminates with each buffer at the fold of the operations' results over the launch memory. What is proved here is
  that fold AT THE RESULT BUFFER: it is the composition of the operations' functions, `val_main_v75` of the argument
  arrays, and at each argument's buffer it is the launch contents (no operation writes an argument).

  The operation list is cut in two just before the one concatenate ([x | agg·Wo + bo]): the 86 operations before it
  are read at the four buffers the rest needs (the projected aggregate and three arguments), each by one pass over
  the operations' results; the 8 from the concatenate on (the concatenate, the last product, the bias, the
  rectifier) are rewritten one operation at a time, which reaches inside the concatenate's list of operands where a
  single pass does not.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- @main's operations before the concatenate … -/
def opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v4 main_v5 rfl shapeCasts_S50000x128_S50000x4x32,
    binary main_arg0 main_arg4 main_v6 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v6 main_v7 rfl shapeCasts_S50000x128_S50000x4x32,
    binary main_arg0 main_arg5 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v8 main_v9 rfl shapeCasts_S50000x128_S50000x4x32,
    binary main_arg2 main_arg6 main_v10 ((fun l r => Host.dotGeneral dot_S800000x3_S3x4_S800000x4_1_0_0_1_n_n none l r) : (⟨S800000x3, .f32⟩ : BufTy).Contents (Elt F) → (⟨S3x4, .f32⟩ : BufTy).Contents (Elt F) → (⟨S800000x4, .f32⟩ : BufTy).Contents (Elt F)),
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_v5 main_v16 main_v17 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    nullary main_c_1 (constantI S_ 32 0#32),
    unary main_c_1 main_v18 (broadcastInDim S800000 ![] bcast_S_S800000 : (⟨S_, .i32⟩ : BufTy).Contents (Elt F) → (⟨S800000, .i32⟩ : BufTy).Contents (Elt F)),
    binary main_v1 main_v18 main_v19 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v20 (broadcastInDim S800000 ![] bcast_S_S800000 : (⟨S_, .i32⟩ : BufTy).Contents (Elt F) → (⟨S800000, .i32⟩ : BufTy).Contents (Elt F)),
    binary main_v1 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v7 main_v23 main_v24 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    binary main_v17 main_v24 main_v25 (mulf : (⟨S800000x4x32, .f32⟩ : BufTy).Contents (Elt F) → (⟨S800000x4x32, .f32⟩ : BufTy).Contents (Elt F) → (⟨S800000x4x32, .f32⟩ : BufTy).Contents (Elt F)),
    nullary main_cst (constant S_ .f32 0x00000000#32),
    binary main_v25 main_cst main_v26 ((fun x v => Host.reduceAdd x v reducesTo_S800000x4x32_S800000x4_d2 h_S_) : (⟨S800000x4x32, .f32⟩ : BufTy).Contents (Elt F) → (⟨S_, .f32⟩ : BufTy).Contents (Elt F) → (⟨S800000x4, .f32⟩ : BufTy).Contents (Elt F)),
    nullary main_cst_3 (constant S_ .f32 0x3E3504F3#32),
    unary main_cst_3 main_v27 (broadcastInDim S800000x4 ![] bcast_S_S800000x4 : (⟨S_, .f32⟩ : BufTy).Contents (Elt F) → (⟨S800000x4, .f32⟩ : BufTy).Contents (Elt F)),
    binary main_v26 main_v27 main_v28 (mulf : (⟨S800000x4, .f32⟩ : BufTy).Contents (Elt F) → (⟨S800000x4, .f32⟩ : BufTy).Contents (Elt F) → (⟨S800000x4, .f32⟩ : BufTy).Contents (Elt F)),
    binary main_v28 main_v10 main_v29 (addf : (⟨S800000x4, .f32⟩ : BufTy).Contents (Elt F) → (⟨S800000x4, .f32⟩ : BufTy).Contents (Elt F) → (⟨S800000x4, .f32⟩ : BufTy).Contents (Elt F)),
    nullary main_cst_4 (constant S_ .f32 0x00000000#32),
    unary main_cst_4 main_v30 (broadcastInDim S800000x4 ![] bcast_S_S800000x4 : (⟨S_, .f32⟩ : BufTy).Contents (Elt F) → (⟨S800000x4, .f32⟩ : BufTy).Contents (Elt F)),
    binary main_v29 main_v30 main_v31 (cmpf .oge : (⟨S800000x4, .f32⟩ : BufTy).Contents (Elt F) → (⟨S800000x4, .f32⟩ : BufTy).Contents (Elt F) → (⟨S800000x4, .i1⟩ : BufTy).Contents (Elt F)),
    nullary main_cst_5 (constant S_ .f32 0x3E4CCCCD#32),
    unary main_cst_5 main_v32 (broadcastInDim S800000x4 ![] bcast_S_S800000x4 : (⟨S_, .f32⟩ : BufTy).Contents (Elt F) → (⟨S800000x4, .f32⟩ : BufTy).Contents (Elt F)),
    binary main_v32 main_v29 main_v33 (mulf : (⟨S800000x4, .f32⟩ : BufTy).Contents (Elt F) → (⟨S800000x4, .f32⟩ : BufTy).Contents (Elt F) → (⟨S800000x4, .f32⟩ : BufTy).Contents (Elt F)),
    TRef.ternary (TRef.of (T := ⟨S800000x4, .i1⟩) main_v31) (TRef.of (T := ⟨S800000x4, .f32⟩) main_v29) (TRef.of (T := ⟨S800000x4, .f32⟩) main_v33) (TRef.of (T := ⟨S800000x4, .f32⟩) main_v34) select,
    nullary main_cst_6 (constant S_ .f32 0xFF800000#32),
    binary main_v34 main_cst_6 main_v35 ((fun x v => Host.reduce FloatOps.maximumf x v reducesTo_S800000x4_S_d0_1 h_S_) : (⟨S800000x4, .f32⟩ : BufTy).Contents (Elt F) → (⟨S_, .f32⟩ : BufTy).Contents (Elt F) → (⟨S_, .f32⟩ : BufTy).Contents (Elt F)),
    unary main_v35 main_v36 (broadcastInDim S800000x4 ![] bcast_S_S800000x4 : (⟨S_, .f32⟩ : BufTy).Contents (Elt F) → (⟨S800000x4, .f32⟩ : BufTy).Contents (Elt F)),
    binary main_v34 main_v36 main_v37 (subf : (⟨S800000x4, .f32⟩ : BufTy).Contents (Elt F) → (⟨S800000x4, .f32⟩ : BufTy).Contents (Elt F) → (⟨S800000x4, .f32⟩ : BufTy).Contents (Elt F)),
    unary main_v37 main_v38 (Host.exp : (⟨S800000x4, .f32⟩ : BufTy).Contents (Elt F) → (⟨S800000x4, .f32⟩ : BufTy).Contents (Elt F)),
    nullary main_cst_7 (constant S_ .f32 0x00000000#32),
    unary main_cst_7 main_v39 (broadcastInDim S50000x4 ![] bcast_S_S50000x4 : (⟨S_, .f32⟩ : BufTy).Contents (Elt F) → (⟨S50000x4, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x4_S800000x1_S800000x4_1_0_0_1 x i u) : (⟨S50000x4, .f32⟩ : BufTy).Contents (Elt F) → (⟨S800000x1, .i32⟩ : BufTy).Contents (Elt F) → (⟨S800000x4, .f32⟩ : BufTy).Contents (Elt F) → (⟨S50000x4, .f32⟩ : BufTy).Contents (Elt F)),
    nullary main_c_8 (constantI S_ 32 0#32),
    unary main_c_8 main_v42 (broadcastInDim S800000 ![] bcast_S_S800000 : (⟨S_, .i32⟩ : BufTy).Contents (Elt F) → (⟨S800000, .i32⟩ : BufTy).Contents (Elt F)),
    binary main_v3 main_v42 main_v43 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v44 (broadcastInDim S800000 ![] bcast_S_S800000 : (⟨S_, .i32⟩ : BufTy).Contents (Elt F) → (⟨S800000, .i32⟩ : BufTy).Contents (Elt F)),
    binary main_v3 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_v3 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_v41 main_v47 main_v48 ((fun x i => Host.gather gather_S50000x4_S800000x1_S800000x4_1_0_n_n_0_1_14 x i) : (⟨S50000x4, .f32⟩ : BufTy).Contents (Elt F) → (⟨S800000x1, .i32⟩ : BufTy).Contents (Elt F) → (⟨S800000x4, .f32⟩ : BufTy).Contents (Elt F)),
    nullary main_cst_10 (constant S_ .f32 0x2B8CBCCC#32),
    unary main_cst_10 main_v49 (broadcastInDim S800000x4 ![] bcast_S_S800000x4 : (⟨S_, .f32⟩ : BufTy).Contents (Elt F) → (⟨S800000x4, .f32⟩ : BufTy).Contents (Elt F)),
    binary main_v48 main_v49 main_v50 (maximumf : (⟨S800000x4, .f32⟩ : BufTy).Contents (Elt F) → (⟨S800000x4, .f32⟩ : BufTy).Contents (Elt F) → (⟨S800000x4, .f32⟩ : BufTy).Contents (Elt F)),
    binary main_v38 main_v50 main_v51 (Host.divf : (⟨S800000x4, .f32⟩ : BufTy).Contents (Elt F) → (⟨S800000x4, .f32⟩ : BufTy).Contents (Elt F) → (⟨S800000x4, .f32⟩ : BufTy).Contents (Elt F)),
    nullary main_c_11 (constantI S_ 32 0#32),
    unary main_c_11 main_v52 (broadcastInDim S800000 ![] bcast_S_S800000 : (⟨S_, .i32⟩ : BufTy).Contents (Elt F) → (⟨S800000, .i32⟩ : BufTy).Contents (Elt F)),
    binary main_v1 main_v52 main_v53 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v54 (broadcastInDim S800000 ![] bcast_S_S800000 : (⟨S_, .i32⟩ : BufTy).Contents (Elt F) → (⟨S800000, .i32⟩ : BufTy).Contents (Elt F)),
    binary main_v1 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_v1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v9 main_v57 main_v58 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    unary main_v51 main_v59 (broadcastInDim S800000x4x1 ![0, 1] bcast_S800000x4_S800000x4x1_0_1 : (⟨S800000x4, .f32⟩ : BufTy).Contents (Elt F) → (⟨S800000x4x1, .f32⟩ : BufTy).Contents (Elt F)),
    unary main_v59 main_v60 (broadcastInDim S800000x4x32 ![0, 1, 2] bcast_S800000x4x1_S800000x4x32_0_1_2 : (⟨S800000x4x1, .f32⟩ : BufTy).Contents (Elt F) → (⟨S800000x4x32, .f32⟩ : BufTy).Contents (Elt F)),
    binary main_v58 main_v60 main_v61 (mulf : (⟨S800000x4x32, .f32⟩ : BufTy).Contents (Elt F) → (⟨S800000x4x32, .f32⟩ : BufTy).Contents (Elt F) → (⟨S800000x4x32, .f32⟩ : BufTy).Contents (Elt F)),
    nullary main_cst_13 (constant S_ .f32 0x00000000#32),
    unary main_cst_13 main_v62 (broadcastInDim S50000x4x32 ![] bcast_S_S50000x4x32 : (⟨S_, .f32⟩ : BufTy).Contents (Elt F) → (⟨S50000x4x32, .f32⟩ : BufTy).Contents (Elt F)),
    unary main_v3 main_v63 (broadcastInDim S800000x1 ![0] bcast_S800000_S800000x1_0 : (⟨S800000, .i32⟩ : BufTy).Contents (Elt F) → (⟨S800000x1, .i32⟩ : BufTy).Contents (Elt F)),
    ternary main_v62 main_v63 main_v61 main_v64 ((fun x i u => Host.scatterAdd scatter_S50000x4x32_S800000x1_S800000x4x32_12_0_0_1 x i u) : (⟨S50000x4x32, .f32⟩ : BufTy).Contents (Elt F) → (⟨S800000x1, .i32⟩ : BufTy).Contents (Elt F) → (⟨S800000x4x32, .f32⟩ : BufTy).Contents (Elt F) → (⟨S50000x4x32, .f32⟩ : BufTy).Contents (Elt F)),
    reshape main_v64 main_v65 rfl shapeCasts_S50000x4x32_S50000x128,
    binary main_v65 main_arg7 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (addf : (⟨S50000x128, .f32⟩ : BufTy).Contents (Elt F) → (⟨S50000x128, .f32⟩ : BufTy).Contents (Elt F) → (⟨S50000x128, .f32⟩ : BufTy).Contents (Elt F)) ]

/-- … and from it on. -/
abbrev opsB : List (HloOp τ sig (Elt F)) :=
  [ binary main_arg0 main_v69 main_v70 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v70 main_arg9 main_v71 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v74) (TRef.of (T := ⟨S50000x128, .f32⟩) main_call1_v0) (TRef.of (T := ⟨S50000x128, .f32⟩) main_v75) maximumf ]

set_option maxRecDepth 8192 in
theorem ops_split : (ops : List (HloOp τ sig (Elt F))) = opsA ++ opsB := rfl

/-- The fold over a list cut in two is the fold over the second part of the fold over the first. -/
theorem after_cut (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

variable (m : (ℓ : Loc nD τ sig) → Buf (Elt F) ℓ) (c : Dev nD)

/-! ## The first 86 operations, at the buffers the rest reads -/

set_option maxRecDepth 8192 in
set_option maxHeartbeats 40000000 in
theorem before_proj : after opsA (launchContents m c) (Proc.devRef .tc main_v69)
    = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold opsA
  after_results_simp <;> rfl

set_option maxRecDepth 8192 in
set_option maxHeartbeats 40000000 in
theorem before_x : after opsA (launchContents m c) (Proc.devRef .tc main_arg0) = (m ((c.tc : Thread nD τ).loc main_arg0)) := by
  unfold opsA
  after_results_simp <;> rfl
set_option maxRecDepth 8192 in
set_option maxHeartbeats 40000000 in
theorem before_wm : after opsA (launchContents m c) (Proc.devRef .tc main_arg9) = (m ((c.tc : Thread nD τ).loc main_arg9)) := by
  unfold opsA
  after_results_simp <;> rfl
set_option maxRecDepth 8192 in
set_option maxHeartbeats 40000000 in
theorem before_bm : after opsA (launchContents m c) (Proc.devRef .tc main_arg10) = (m ((c.tc : Thread nD τ).loc main_arg10)) := by
  unfold opsA
  after_results_simp <;> rfl

/-! ## The result -/

set_option maxRecDepth 8192 in
set_option maxHeartbeats 40000000 in
theorem result_eq : after ops (launchContents m c) (Proc.devRef .tc main_v75)
    = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [ops_split, after_cut]
  after_results
  try simp only [TRef.ofBuf, TRef.toBuf, cast_eq]
  rw [before_proj, before_x, before_wm, before_bm]
  rfl

/-! ## The arguments -/

set_option maxRecDepth 8192 in
set_option maxHeartbeats 40000000 in
theorem kept_arg0 : after ops (launchContents m c) (Proc.devRef .tc main_arg0) = (m ((c.tc : Thread nD τ).loc main_arg0)) := by
  after_results_simp <;> rfl
set_option maxRecDepth 8192 in
set_option maxHeartbeats 40000000 in
theorem kept_arg1 : after ops (launchContents m c) (Proc.devRef .tc main_arg1) = (m ((c.tc : Thread nD τ).loc main_arg1)) := by
  after_results_simp <;> rfl
set_option maxRecDepth 8192 in
set_option maxHeartbeats 40000000 in
theorem kept_arg2 : after ops (launchContents m c) (Proc.devRef .tc main_arg2) = (m ((c.tc : Thread nD τ).loc main_arg2)) := by
  after_results_simp <;> rfl
set_option maxRecDepth 8192 in
set_option maxHeartbeats 40000000 in
theorem kept_arg3 : after ops (launchContents m c) (Proc.devRef .tc main_arg3) = (m ((c.tc : Thread nD τ).loc main_arg3)) := by
  after_results_simp <;> rfl
set_option maxRecDepth 8192 in
set_option maxHeartbeats 40000000 in
theorem kept_arg4 : after ops (launchContents m c) (Proc.devRef .tc main_arg4) = (m ((c.tc : Thread nD τ).loc main_arg4)) := by
  after_results_simp <;> rfl
set_option maxRecDepth 8192 in
set_option maxHeartbeats 40000000 in
theorem kept_arg5 : after ops (launchContents m c) (Proc.devRef .tc main_arg5) = (m ((c.tc : Thread nD τ).loc main_arg5)) := by
  after_results_simp <;> rfl
set_option maxRecDepth 8192 in
set_option maxHeartbeats 40000000 in
theorem kept_arg6 : after ops (launchContents m c) (Proc.devRef .tc main_arg6) = (m ((c.tc : Thread nD τ).loc main_arg6)) := by
  after_results_simp <;> rfl
set_option maxRecDepth 8192 in
set_option maxHeartbeats 40000000 in
theorem kept_arg7 : after ops (launchContents m c) (Proc.devRef .tc main_arg7) = (m ((c.tc : Thread nD τ).loc main_arg7)) := by
  after_results_simp <;> rfl
set_option maxRecDepth 8192 in
set_option maxHeartbeats 40000000 in
theorem kept_arg8 : after ops (launchContents m c) (Proc.devRef .tc main_arg8) = (m ((c.tc : Thread nD τ).loc main_arg8)) := by
  after_results_simp <;> rfl
set_option maxRecDepth 8192 in
set_option maxHeartbeats 40000000 in
theorem kept_arg9 : after ops (launchContents m c) (Proc.devRef .tc main_arg9) = (m ((c.tc : Thread nD τ).loc main_arg9)) := by
  after_results_simp <;> rfl
set_option maxRecDepth 8192 in
set_option maxHeartbeats 40000000 in
theorem kept_arg10 : after ops (launchContents m c) (Proc.devRef .tc main_arg10) = (m ((c.tc : Thread nD τ).loc main_arg10)) := by
  after_results_simp <;> rfl

/-! ## The run -/

/-- Every weakly fair execution of the reference's @main terminates with the result at the operations' composed
    function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v75).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c)⟩)
    (run_seq scopedRefs_eq scopedSems_eq defs main (fun _ => ops) main_eq (fun _ => ops_sub) m ρ)

end Cert.ReferenceIdeal.Hand

end
-- ==== Proof.HeadTable.lean ====
import proofs.«163383_j64295660421655_1_alg».proof.Proof.HeadDefs
import proofs.«163383_j64295660421655_1_alg».proof.Proof.Spec
import Idealize.ShloMosaic.Lib.ValueIdx
import Idealize.ShloMosaic.Lib.ValueLayout

/-!
  The table that groups the 128 feature columns into 4 heads, as the host operations compose it, is the
  specification's 0/1 table: 1 where column k belongs to head h (k / 32 = h), else 0; and its transpose likewise.

  Every operation of the table is pointwise, so one element is a statement about 32-bit words: the floor quotient of
  the word k by the word 32 compared with the word h. For k below 128 and h below 4 that compare decides k / 32 = h,
  and the bit converted to an extended real is 1 or 0.
-/

noncomputable section

namespace Cert.KernelIdeal.Hand

open Idealize.ShloMosaic Idealize.ShloMosaic.ValueIdx Cert.KernelIdeal Cert.KernelIdeal.Facts₀ Cert.KernelIdeal.Facts

/-! ## The words: floor division of one 32-bit word by another, operation by operation -/

/-- The sign of a word: 0, −1 or 1. -/
def signW (x : BitVec 32) : BitVec 32 := if x = 0 then 0 else if x.msb then -1 else 1

/-- The floor quotient of two words: the truncating quotient, less one where the signs differ and the remainder is
    not zero. -/
def floorW (a b : BitVec 32) : BitVec 32 :=
  Scalar.select (IntOp.andi (IntOp.cmpi .ne (signW a) (signW b)) (IntOp.cmpi .ne (IntOp.remsi .host a b) 0#32))
    (IntOp.subi (IntOp.divsi .host a b) 1#32) (IntOp.divsi .host a b)

/-- Every operation of the bit table is pointwise, and the broadcasts and iotas read their coordinate: at column k and
    head h the bit compares the floor quotient of the word k by the word 32 with the word h. -/
theorem headBits_apply (k : Fin 128) (h : Fin 4) :
    headBits (ix2 k h) = IntOp.cmpi .eq (floorW (BitVec.ofNat 32 k.val) 32#32) (BitVec.ofNat 32 h.val) := rfl

/-- For the 128 columns and 4 heads the compare decides k / 32 = h: the words are small and non-negative, so the
    truncating quotient is k / 32, the signs agree or k = 0, and no correction applies. Checked value by value. -/
theorem bit_small : ∀ (k : Fin 128) (h : Fin 4),
    IntOp.cmpi .eq (floorW (BitVec.ofNat 32 k.val) 32#32) (BitVec.ofNat 32 h.val)
      = BitVec.ofBool (decide (k.val / 32 = h.val)) := by
  decide +kernel

/-! ## One bit as an extended real -/

/-- A bit converted unsigned is 1 for the set bit and 0 for the clear one. -/
theorem uitofp_ofBool (b : Bool) :
    (FloatOps.uitofp (F := Ideal) .f32 (BitVec.ofBool b) : EReal) = if b = true then 1 else 0 := by
  cases b
  · show ((((0#1 : BitVec 1).toNat : ℝ)) : EReal) = 0
    simp
  · show ((((1#1 : BitVec 1).toNat : ℝ)) : EReal) = 1
    simp

/-! ## The table -/

/-- The table at column k and head h. -/
theorem headTable_apply (k : Fin 128) (h : Fin 4) :
    headTable (F := Ideal) (ix2 k h) = if k.val / 32 = h.val then 1 else 0 := by
  show FloatOps.uitofp (F := Ideal) .f32 (headBits (ix2 k h)) = _
  rw [headBits_apply, bit_small, uitofp_ofBool]
  by_cases hc : k.val / 32 = h.val
  · rw [if_pos (decide_eq_true hc), if_pos hc]
  · rw [if_neg (by simpa using hc), if_neg hc]

/-- The grouping table is the specification's. -/
theorem headTable_eq : headTable (F := Ideal) = Cert.Spec.headOf := by
  funext i
  obtain ⟨k, h, rfl⟩ : ∃ (k : Fin 128) (h : Fin 4), i = ix2 k h := ⟨i 0, i 1, eq_ix2 i⟩
  exact headTable_apply k h

/-- The transposed table at head h and column k is the table at column k and head h. -/
theorem headTableT_apply (h : Fin 4) (k : Fin 128) :
    headTableT (F := Ideal) (ix2 h k) = if k.val / 32 = h.val then 1 else 0 :=
  (transpose_ix2_apply (headTable (F := Ideal)) transposes_S128x4_S4x128_1_0 h k).trans (headTable_apply k h)

/-- The transposed table is the specification's. -/
theorem headTableT_eq : headTableT (F := Ideal) = Cert.Spec.headOfT := by
  funext i
  obtain ⟨h, k, rfl⟩ : ∃ (h : Fin 4) (k : Fin 128), i = ix2 h k := ⟨i 0, i 1, eq_ix2 i⟩
  exact headTableT_apply h k

end Cert.KernelIdeal.Hand

end
-- ==== Proof.BridgeQKV.lean ====
import proofs.«163383_j64295660421655_1_alg».proof.Proof.Gen.ReferenceIdeal
import proofs.«163383_j64295660421655_1_alg».proof.Proof.Gen.KernelIdeal
import proofs.«163383_j64295660421655_1_alg».proof.Proof.Spec
import Idealize.ShloMosaic.Lib.Pipeline.Value
import Idealize.ShloMosaic.Lib.ValueIdx
import Idealize.ShloMosaic.PureOps.Ideal.Laws

/-!
  The three projections, two ways.  One program multiplies x by the three 128 × 128 weight matrices one at a time;
  the other joins the three side by side into one 128 × 384 matrix, multiplies once, and cuts the 384 columns of the
  product back into three groups of 128.  Over the extended reals they agree entry by entry:

    (x · [wq | wk | wv])[n, 128·p + j]  =  Σₖ x[n,k] · [wq | wk | wv][k, 128·p + j]  =  Σₖ x[n,k] · w_p[k, j]  =  (x · w_p)[n, j],

  because column 128·p + j of the joined matrix is column j of its p-th part.  No sum is reordered.
-/

noncomputable section

namespace Cert.Bridge

open Idealize.ShloMosaic Idealize.ShloMosaic.ValueIdx
open Cert.KernelIdeal (S50000x128 S128x128 S128x384 S50000x384)
open scoped BigOperators

/-- The three weight matrices side by side. -/
abbrev wcat (wq wk wv : FVec Ideal S128x128 .f32) : FVec Ideal S128x384 .f32 :=
  concatenate Cert.KernelIdeal.S128x384 1
    [⟨Cert.KernelIdeal.S128x128, wq⟩, ⟨Cert.KernelIdeal.S128x128, wk⟩, ⟨Cert.KernelIdeal.S128x128, wv⟩]
    Cert.KernelIdeal.Facts₀.concatenates_S128x128_S128x128_S128x128_S128x384_d1

/-! ## The joined matrix, column by column -/

/-- Columns 0 … 127 of the joined matrix are the first matrix; -/
theorem qkv_wcat_q (wq wk wv : FVec Ideal S128x128 .f32) (k j : Fin 128) (j' : Fin 384) (hj : j'.val = 0 + j.val) :
    wcat wq wk wv (ix2 k j') = wq (ix2 k j) := by
  unfold wcat
  refine concatenate_apply_piece 1 _ _ (ix2 k j') 0 (by show (0 : ℕ) < 3; omega) S128x128 wq rfl rfl 0 rfl (ix2 k j) (fun b hb => ?_) ?_
  · match b with
    | ⟨0, _⟩ => rfl
    | ⟨1, _⟩ => exact absurd rfl hb
  · exact hj.symm

/-- columns 128 … 255 are the second; -/
theorem qkv_wcat_k (wq wk wv : FVec Ideal S128x128 .f32) (k j : Fin 128) (j' : Fin 384) (hj : j'.val = 128 + j.val) :
    wcat wq wk wv (ix2 k j') = wk (ix2 k j) := by
  unfold wcat
  refine concatenate_apply_piece 1 _ _ (ix2 k j') 1 (by show (1 : ℕ) < 3; omega) S128x128 wk rfl rfl 128 rfl (ix2 k j) (fun b hb => ?_) ?_
  · match b with
    | ⟨0, _⟩ => rfl
    | ⟨1, _⟩ => exact absurd rfl hb
  · exact hj.symm

/-- columns 256 … 383 are the third. -/
theorem qkv_wcat_v (wq wk wv : FVec Ideal S128x128 .f32) (k j : Fin 128) (j' : Fin 384) (hj : j'.val = 256 + j.val) :
    wcat wq wk wv (ix2 k j') = wv (ix2 k j) := by
  unfold wcat
  refine concatenate_apply_piece 1 _ _ (ix2 k j') 2 (by show (2 : ℕ) < 3; omega) S128x128 wv rfl rfl 256 rfl (ix2 k j) (fun b hb => ?_) ?_
  · match b with
    | ⟨0, _⟩ => rfl
    | ⟨1, _⟩ => exact absurd rfl hb
  · exact hj.symm

/-! ## One product x · w at an entry -/

/-- In the product of the 50000 × 128 array by a 128 × 128 matrix, the left factor of output place i and summation
    place q sits in row i₀ … -/
theorem qkv_proj_lhs_row (i : S50000x128.Idx)
    (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide),
    dif_pos (show (0 : Fin S50000x128.rank) ∈ Cert.ReferenceIdeal.dot_S50000x128_S128x128_S50000x128_1_0_0_1_n_n.lhsNonContracting by decide)]
  rfl
/-- … and column q; -/
theorem qkv_proj_lhs_col (i : S50000x128.Idx)
    (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- the right factor sits in row q … -/
theorem qkv_proj_rhs_row (i : S50000x128.Idx)
    (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
/-- … and column i₁. -/
theorem qkv_proj_rhs_col (i : S50000x128.Idx)
    (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide),
    dif_pos (show (1 : Fin S128x128.rank) ∈ Cert.ReferenceIdeal.dot_S50000x128_S128x128_S50000x128_1_0_0_1_n_n.rhsNonContracting by decide)]
  rfl

/-- Entry (n, j) of x · w is the sum over k of x[n,k] · w[k,j]. -/
theorem qkv_proj_at (x : FVec Ideal S50000x128 .f32) (w : FVec Ideal S128x128 .f32) (n : Fin 50000) (j : Fin 128) :
    Host.dotGeneral Cert.ReferenceIdeal.dot_S50000x128_S128x128_S50000x128_1_0_0_1_n_n none x w (ix2 n j)
      = ∑ k : Fin 128, x (ix2 n k) * w (ix2 k j) := by
  simp only [Host.dotGeneral]
  rw [Ideal.dotGeneral_apply,
    ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have hl : Cert.ReferenceIdeal.dot_S50000x128_S128x128_S50000x128_1_0_0_1_n_n.lhsIdx (ix2 n j)
      ((contrEquiv1 Cert.ReferenceIdeal.dot_S50000x128_S128x128_S50000x128_1_0_0_1_n_n 128 rfl rfl).symm k) = ix2 n k :=
    funext fun a => Fin.ext (by
      match a with
      | ⟨0, _⟩ => exact qkv_proj_lhs_row _ _
      | ⟨1, _⟩ => exact (qkv_proj_lhs_col _ _).trans hk)
  have hr : Cert.ReferenceIdeal.dot_S50000x128_S128x128_S50000x128_1_0_0_1_n_n.rhsIdx (ix2 n j)
      ((contrEquiv1 Cert.ReferenceIdeal.dot_S50000x128_S128x128_S50000x128_1_0_0_1_n_n 128 rfl rfl).symm k) = ix2 k j :=
    funext fun a => Fin.ext (by
      match a with
      | ⟨0, _⟩ => exact (qkv_proj_rhs_row _ _).trans hk
      | ⟨1, _⟩ => exact qkv_proj_rhs_col _ _)
  rw [hl, hr]

/-! ## A column group of the joint product is one of the three products -/

/-- Entry i of x · w for the wide matrix, written out. -/
theorem qkv_spec_at (x : FVec Ideal S50000x128 .f32) (w : FVec Ideal S128x384 .f32) (i : S50000x384.Idx) :
    Cert.Spec.qkvSpec x w i = ∑ k : Fin 128, x (ix2 (i 0) k) * w (ix2 k (i 1)) := rfl

/-- Columns 0 … 127 of x · [wq | wk | wv] are x · wq. -/
theorem qkv_bridge_q (x : FVec Ideal S50000x128 .f32) (wq wk wv : FVec Ideal S128x128 .f32) :
    extractStridedSlice Cert.KernelIdeal.S50000x128 ![0, 0] (Cert.Spec.qkvSpec x (wcat wq wk wv))
        Cert.KernelIdeal.Facts₀.slices_S50000x384_S50000x128_0_0
      = Host.dotGeneral Cert.ReferenceIdeal.dot_S50000x128_S128x128_S50000x128_1_0_0_1_n_n none x wq := by
  funext i
  obtain ⟨n, j, rfl⟩ : ∃ (n : Fin 50000) (j : Fin 128), i = ix2 n j := ⟨i 0, i 1, eq_ix2 i⟩
  refine (extractStridedSlice_apply _ _ _ (ix2 n j) (ix2 n ⟨0 + j.val, by omega⟩) fun a => ?_).trans ?_
  · match a with
    | ⟨0, _⟩ => exact (Nat.zero_add _).symm
    | ⟨1, _⟩ => rfl
  rw [qkv_spec_at, qkv_proj_at]
  exact Finset.sum_congr rfl fun k _ => congrArg (x (ix2 n k) * ·) (qkv_wcat_q wq wk wv k j _ rfl)

/-- Columns 128 … 255 are x · wk. -/
theorem qkv_bridge_k (x : FVec Ideal S50000x128 .f32) (wq wk wv : FVec Ideal S128x128 .f32) :
    extractStridedSlice Cert.KernelIdeal.S50000x128 ![0, 128] (Cert.Spec.qkvSpec x (wcat wq wk wv))
        Cert.KernelIdeal.Facts₀.slices_S50000x384_S50000x128_0_128
      = Host.dotGeneral Cert.ReferenceIdeal.dot_S50000x128_S128x128_S50000x128_1_0_0_1_n_n none x wk := by
  funext i
  obtain ⟨n, j, rfl⟩ : ∃ (n : Fin 50000) (j : Fin 128), i = ix2 n j := ⟨i 0, i 1, eq_ix2 i⟩
  refine (extractStridedSlice_apply _ _ _ (ix2 n j) (ix2 n ⟨128 + j.val, by omega⟩) fun a => ?_).trans ?_
  · match a with
    | ⟨0, _⟩ => exact (Nat.zero_add _).symm
    | ⟨1, _⟩ => rfl
  rw [qkv_spec_at, qkv_proj_at]
  exact Finset.sum_congr rfl fun k _ => congrArg (x (ix2 n k) * ·) (qkv_wcat_k wq wk wv k j _ rfl)

/-- Columns 256 … 383 are x · wv. -/
theorem qkv_bridge_v (x : FVec Ideal S50000x128 .f32) (wq wk wv : FVec Ideal S128x128 .f32) :
    extractStridedSlice Cert.KernelIdeal.S50000x128 ![0, 256] (Cert.Spec.qkvSpec x (wcat wq wk wv))
        Cert.KernelIdeal.Facts₀.slices_S50000x384_S50000x128_0_256
      = Host.dotGeneral Cert.ReferenceIdeal.dot_S50000x128_S128x128_S50000x128_1_0_0_1_n_n none x wv := by
  funext i
  obtain ⟨n, j, rfl⟩ : ∃ (n : Fin 50000) (j : Fin 128), i = ix2 n j := ⟨i 0, i 1, eq_ix2 i⟩
  refine (extractStridedSlice_apply _ _ _ (ix2 n j) (ix2 n ⟨256 + j.val, by omega⟩) fun a => ?_).trans ?_
  · match a with
    | ⟨0, _⟩ => exact (Nat.zero_add _).symm
    | ⟨1, _⟩ => rfl
  rw [qkv_spec_at, qkv_proj_at]
  exact Finset.sum_congr rfl fun k _ => congrArg (x (ix2 n k) * ·) (qkv_wcat_v wq wk wv k j _ rfl)

end Cert.Bridge

end
-- ==== Proof.BridgeQKVRef.lean ====
import proofs.«163383_j64295660421655_1_alg».proof.Proof.BridgeQKV
import proofs.«163383_j64295660421655_1_alg».proof.Proof.RefRead

/-!
  The reference program's three projection stages are the three products x · wq, x · wk, x · wv as the bridge
  states them, word for word; so each is a column group of the joint product x · [wq | wk | wv].
-/

noncomputable section

namespace Cert.Bridge

open Idealize.ShloMosaic
open Cert.KernelIdeal (S50000x128 S128x128)

/-- The stage that multiplies by wq is the product x · wq; -/
theorem qkv_ref_q (x : FVec Ideal S50000x128 .f32) (wq : FVec Ideal S128x128 .f32) :
    Cert.ReferenceIdeal.ReadP.val_main_v4 (F := Ideal) x wq
      = Host.dotGeneral Cert.ReferenceIdeal.dot_S50000x128_S128x128_S50000x128_1_0_0_1_n_n none x wq := rfl
/-- the stage that multiplies by wk is x · wk; -/
theorem qkv_ref_k (x : FVec Ideal S50000x128 .f32) (wk : FVec Ideal S128x128 .f32) :
    Cert.ReferenceIdeal.ReadP.val_main_v6 (F := Ideal) x wk
      = Host.dotGeneral Cert.ReferenceIdeal.dot_S50000x128_S128x128_S50000x128_1_0_0_1_n_n none x wk := rfl
/-- the stage that multiplies by wv is x · wv. -/
theorem qkv_ref_v (x : FVec Ideal S50000x128 .f32) (wv : FVec Ideal S128x128 .f32) :
    Cert.ReferenceIdeal.ReadP.val_main_v8 (F := Ideal) x wv
      = Host.dotGeneral Cert.ReferenceIdeal.dot_S50000x128_S128x128_S50000x128_1_0_0_1_n_n none x wv := rfl

/-- Columns 0 … 127 of the joint product are the first stage, -/
theorem qkv_stage_q (x : FVec Ideal S50000x128 .f32) (wq wk wv : FVec Ideal S128x128 .f32) :
    extractStridedSlice Cert.KernelIdeal.S50000x128 ![0, 0] (Cert.Spec.qkvSpec x (wcat wq wk wv))
        Cert.KernelIdeal.Facts₀.slices_S50000x384_S50000x128_0_0
      = Cert.ReferenceIdeal.ReadP.val_main_v4 (F := Ideal) x wq :=
  (qkv_bridge_q x wq wk wv).trans (qkv_ref_q x wq).symm
/-- columns 128 … 255 the second, -/
theorem qkv_stage_k (x : FVec Ideal S50000x128 .f32) (wq wk wv : FVec Ideal S128x128 .f32) :
    extractStridedSlice Cert.KernelIdeal.S50000x128 ![0, 128] (Cert.Spec.qkvSpec x (wcat wq wk wv))
        Cert.KernelIdeal.Facts₀.slices_S50000x384_S50000x128_0_128
      = Cert.ReferenceIdeal.ReadP.val_main_v6 (F := Ideal) x wk :=
  (qkv_bridge_k x wq wk wv).trans (qkv_ref_k x wk).symm
/-- columns 256 … 383 the third. -/
theorem qkv_stage_v (x : FVec Ideal S50000x128 .f32) (wq wk wv : FVec Ideal S128x128 .f32) :
    extractStridedSlice Cert.KernelIdeal.S50000x128 ![0, 256] (Cert.Spec.qkvSpec x (wcat wq wk wv))
        Cert.KernelIdeal.Facts₀.slices_S50000x384_S50000x128_0_256
      = Cert.ReferenceIdeal.ReadP.val_main_v8 (F := Ideal) x wv :=
  (qkv_bridge_v x wq wk wv).trans (qkv_ref_v x wv).symm

end Cert.Bridge

end
-- ==== Proof.LibGatherRows.lean ====
/-
  Gathers of whole rows, read at an index written by coordinates.

  Indexing an array on its leading axis by an integer array, A[idx], prints as a gather whose start indices have shape
  [E, 1] (one scalar start per result row), whose offset axes are the result's trailing axes, whose one collapsed axis
  and one start-index-map axis are the operand's leading axis, and whose slice is one whole row (sizes [1, rest…]).
  Result row e is the operand's row at the start index idx[e, 0], read as a signed integer and clamped into [0, N − 1];
  the trailing coordinates pass through unchanged. Stated for a matrix [N, C] and for a rank-3 array [N, H, D], generic
  in every extent.
-/
import Idealize.ShloMosaic.Lib.ValueIdx

noncomputable section

namespace Cert.LibGatherRows

open Idealize.ShloMosaic Idealize.ShloMosaic.ValueIdx

variable {α : Type}

/-- The row a start index names: entry (e, 0) of the start indices read as a signed integer and clamped into
    [0, N − 1] (negative starts go to row 0, starts past the end to the last row). -/
def rowOf {E N : ℕ} (hN : 0 < N) {w : ℕ} (idx : IVec ⟨2, ![E, 1]⟩ w) (e : Fin E) : Fin N :=
  ⟨min (idx (ix2 e (0 : Fin 1))).toInt.toNat (N - 1), by omega⟩

/-- The clamped row as a natural number: the minimum of the signed start, cut at zero, and N − 1. -/
theorem rowOf_val {E N : ℕ} (hN : 0 < N) {w : ℕ} (idx : IVec ⟨2, ![E, 1]⟩ w) (e : Fin E) :
    (rowOf hN idx e).val = min (idx (ix2 e (0 : Fin 1))).toInt.toNat (N - 1) := rfl

/-! ## A matrix [N, C] gathered by rows -/

/-- The dimension numbers of a row gather of a matrix: operand [N, C], start indices [E, 1], result [E, C]; offset axis
    1, collapsed axis 0, start index map [0], index vector on axis 1, slice one row [1, C]. Their conditions wf are
    decided on a program's literal shapes. -/
abbrev rows2Dims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Rows2
variable {N E C w : ℕ} (hN : 0 < N)
  (wf : GatherDims.WF ⟨2, ![N, C]⟩ ⟨2, ![E, 1]⟩ ⟨2, ![E, C]⟩ [1] [0] [] [0] [] 1 ![1, C])

/-- The start-indices entry result index (e, j) of a matrix row gather reads is (e, 0). -/
theorem rows2_siIdx (e : Fin E) (j : Fin C) :
    (rows2Dims N E C wf).siIdx (ix2 e j) ⟨List.idxOf (0 : Fin 2) (rows2Dims N E C wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- On the leading operand axis the operand index is the clamped start: the axis is collapsed, so it carries no offset,
    and there is no batching axis. -/
theorem rows2_coord0 (idx : IVec ⟨2, ![E, 1]⟩ w) (e : Fin E) (j : Fin C) :
    ((rows2Dims N E C wf).operandIdx (ix2 e j) idx (0 : Fin 2)).val = (rowOf hN idx e).val := by
  show (rows2Dims N E C wf).start (ix2 e j) idx (0 : Fin 2) + (rows2Dims N E C wf).batchCoord (ix2 e j) (0 : Fin 2)
    + (rows2Dims N E C wf).offCoord (ix2 e j) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rows2Dims N E C wf).startIndexMap from List.mem_singleton.mpr rfl),
    rows2_siIdx wf e j]
  rfl

/-- On the trailing operand axis the operand index is the result's column: the axis is outside the start index map, so
    its start is 0, and it is the one kept axis, read by the one offset axis. -/
theorem rows2_coord1 (idx : IVec ⟨2, ![E, 1]⟩ w) (e : Fin E) (j : Fin C) :
    ((rows2Dims N E C wf).operandIdx (ix2 e j) idx (1 : Fin 2)).val = j.val := by
  show (rows2Dims N E C wf).start (ix2 e j) idx (1 : Fin 2) + (rows2Dims N E C wf).batchCoord (ix2 e j) (1 : Fin 2)
    + (rows2Dims N E C wf).offCoord (ix2 e j) (1 : Fin 2) = _
  have hsim : (1 : Fin 2) ∉ (rows2Dims N E C wf).startIndexMap := fun h =>
    absurd (List.mem_singleton.mp h) (by decide : (1 : Fin 2) ≠ 0)
  have hk : (1 : Fin 2) ∈ (rows2Dims N E C wf).sKept :=
    (GatherDims.mem_sKept _ _).mpr
      ⟨fun h => absurd (List.mem_singleton.mp h) (by decide : (1 : Fin 2) ≠ 0), List.not_mem_nil⟩
  rw [GatherDims.batchCoord_eq_zero _ _ _ List.not_mem_nil]
  unfold GatherDims.start
  rw [dif_neg hsim]
  unfold GatherDims.offCoord
  rw [dif_pos hk]
  simp only [Nat.add_zero, Nat.zero_add]
  rfl

/-- A MATRIX ROW GATHER READ AT (e, j): the operand at row idx[e, 0] (signed, clamped into [0, N − 1]), column j. -/
theorem gather_rows2_apply (x : (⟨2, ![N, C]⟩ : Shape).Idx → α) (idx : IVec ⟨2, ![E, 1]⟩ w)
    (e : Fin E) (j : Fin C) :
    Host.gather (rows2Dims N E C wf) x idx (ix2 e j) = x (ix2 (rowOf hN idx e) j) := by
  unfold Host.gather
  congr 1
  funext a
  match a with
  | ⟨0, _⟩ => exact Fin.ext (rows2_coord0 hN wf idx e j)
  | ⟨1, _⟩ => exact Fin.ext (rows2_coord1 wf idx e j)

end Rows2

/-! ## A rank-3 array [N, H, D] gathered by rows -/

/-- The dimension numbers of a row gather of a rank-3 array: operand [N, H, D], start indices [E, 1], result [E, H, D];
    offset axes 1 and 2, collapsed axis 0, start index map [0], index vector on axis 1, slice one row [1, H, D]. Their
    conditions wf are decided on a program's literal shapes. -/
abbrev rows3Dims (N E H D : ℕ)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

section Rows3
variable {N E H D w : ℕ} (hN : 0 < N)
  (wf : GatherDims.WF ⟨3, ![N, H, D]⟩ ⟨2, ![E, 1]⟩ ⟨3, ![E, H, D]⟩ [1, 2] [0] [] [0] [] 1 ![1, H, D])

/-- The start-indices entry result index (e, h, d) of a rank-3 row gather reads is (e, 0). -/
theorem rows3_siIdx (e : Fin E) (h : Fin H) (d : Fin D) :
    (rows3Dims N E H D wf).siIdx (ix3 e h d) ⟨List.idxOf (0 : Fin 3) (rows3Dims N E H D wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- On the leading operand axis the operand index is the clamped start: the axis is collapsed, so it carries no offset,
    and there is no batching axis. -/
theorem rows3_coord0 (idx : IVec ⟨2, ![E, 1]⟩ w) (e : Fin E) (h : Fin H) (d : Fin D) :
    ((rows3Dims N E H D wf).operandIdx (ix3 e h d) idx (0 : Fin 3)).val = (rowOf hN idx e).val := by
  show (rows3Dims N E H D wf).start (ix3 e h d) idx (0 : Fin 3)
    + (rows3Dims N E H D wf).batchCoord (ix3 e h d) (0 : Fin 3)
    + (rows3Dims N E H D wf).offCoord (ix3 e h d) (0 : Fin 3) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (rows3Dims N E H D wf).startIndexMap from List.mem_singleton.mpr rfl),
    rows3_siIdx wf e h d]
  rfl

/-- On the middle operand axis the operand index is the result's middle coordinate: the axis is outside the start index
    map, so its start is 0, and it is the first kept axis, read by the first offset axis. -/
theorem rows3_coord1 (idx : IVec ⟨2, ![E, 1]⟩ w) (e : Fin E) (h : Fin H) (d : Fin D) :
    ((rows3Dims N E H D wf).operandIdx (ix3 e h d) idx (1 : Fin 3)).val = h.val := by
  show (rows3Dims N E H D wf).start (ix3 e h d) idx (1 : Fin 3)
    + (rows3Dims N E H D wf).batchCoord (ix3 e h d) (1 : Fin 3)
    + (rows3Dims N E H D wf).offCoord (ix3 e h d) (1 : Fin 3) = _
  have hsim : (1 : Fin 3) ∉ (rows3Dims N E H D wf).startIndexMap := fun m =>
    absurd (List.mem_singleton.mp m) (by decide : (1 : Fin 3) ≠ 0)
  have hk : (1 : Fin 3) ∈ (rows3Dims N E H D wf).sKept :=
    (GatherDims.mem_sKept _ _).mpr
      ⟨fun m => absurd (List.mem_singleton.mp m) (by decide : (1 : Fin 3) ≠ 0), List.not_mem_nil⟩
  rw [GatherDims.batchCoord_eq_zero _ _ _ List.not_mem_nil]
  unfold GatherDims.start
  rw [dif_neg hsim]
  unfold GatherDims.offCoord
  rw [dif_pos hk]
  simp only [Nat.add_zero, Nat.zero_add]
  rfl

/-- On the last operand axis the operand index is the result's last coordinate: the axis is outside the start index
    map, so its start is 0, and it is the second kept axis, read by the second offset axis. -/
theorem rows3_coord2 (idx : IVec ⟨2, ![E, 1]⟩ w) (e : Fin E) (h : Fin H) (d : Fin D) :
    ((rows3Dims N E H D wf).operandIdx (ix3 e h d) idx (2 : Fin 3)).val = d.val := by
  show (rows3Dims N E H D wf).start (ix3 e h d) idx (2 : Fin 3)
    + (rows3Dims N E H D wf).batchCoord (ix3 e h d) (2 : Fin 3)
    + (rows3Dims N E H D wf).offCoord (ix3 e h d) (2 : Fin 3) = _
  have hsim : (2 : Fin 3) ∉ (rows3Dims N E H D wf).startIndexMap := fun m =>
    absurd (List.mem_singleton.mp m) (by decide : (2 : Fin 3) ≠ 0)
  have hk : (2 : Fin 3) ∈ (rows3Dims N E H D wf).sKept :=
    (GatherDims.mem_sKept _ _).mpr
      ⟨fun m => absurd (List.mem_singleton.mp m) (by decide : (2 : Fin 3) ≠ 0), List.not_mem_nil⟩
  rw [GatherDims.batchCoord_eq_zero _ _ _ List.not_mem_nil]
  unfold GatherDims.start
  rw [dif_neg hsim]
  unfold GatherDims.offCoord
  rw [dif_pos hk]
  simp only [Nat.add_zero, Nat.zero_add]
  rfl

/-- A RANK-3 ROW GATHER READ AT (e, h, d): the operand at row idx[e, 0] (signed, clamped into [0, N − 1]), trailing
    coordinates (h, d). -/
theorem gather_rows3_apply (x : (⟨3, ![N, H, D]⟩ : Shape).Idx → α) (idx : IVec ⟨2, ![E, 1]⟩ w)
    (e : Fin E) (h : Fin H) (d : Fin D) :
    Host.gather (rows3Dims N E H D wf) x idx (ix3 e h d) = x (ix3 (rowOf hN idx e) h d) := by
  unfold Host.gather
  congr 1
  funext a
  match a with
  | ⟨0, _⟩ => exact Fin.ext (rows3_coord0 hN wf idx e h d)
  | ⟨1, _⟩ => exact Fin.ext (rows3_coord1 wf idx e h d)
  | ⟨2, _⟩ => exact Fin.ext (rows3_coord2 wf idx e h d)

end Rows3

end Cert.LibGatherRows

end
-- ==== Proof.RowGathers.lean ====
/-
  The row gathers of the two programs, read at an index written by coordinates.

  Both programs index a node array on its leading axis by an edge's endpoint: the kernel gathers rows of a
  [50000, 128] matrix (and of a [50000, 4] matrix), the reference rows of a [50000, 4, 32] array (and of a [50000, 4]
  matrix), each at 800000 start indices of shape [800000, 1]. Result row e is the operand's row at the start index
  idx[e, 0], read as a signed integer and clamped into [0, 49999]; the trailing coordinates pass through unchanged.
  Each statement is the generic row gather at the program's literal extents.
-/
import proofs.«163383_j64295660421655_1_alg».proof.Proof.LibGatherRows
import proofs.«163383_j64295660421655_1_alg».proof.Proof.Gen.KernelIdeal
import proofs.«163383_j64295660421655_1_alg».proof.Proof.Gen.ReferenceIdeal

noncomputable section

namespace Cert.RowGathers

open Idealize.ShloMosaic Idealize.ShloMosaic.ValueIdx Cert.LibGatherRows

variable {α : Type}

/-- The kernel's gather of rows of a [50000, 128] matrix, read at (e, j): the operand at row idx[e, 0] (signed, clamped
    into [0, 49999]), column j. -/
theorem kernel_gather_apply (x : (⟨2, ![50000, 128]⟩ : Shape).Idx → α) (idx : IVec ⟨2, ![800000, 1]⟩ 32)
    (e : Fin 800000) (j : Fin 128) :
    Host.gather Cert.KernelIdeal.gather_S50000x128_S800000x1_S800000x128_1_0_n_n_0_1_1128 x idx (ix2 e j)
      = x (ix2 (rowOf (by decide) idx e) j) :=
  gather_rows2_apply (by decide)
    Cert.KernelIdeal.Facts₀.gather_S50000x128_S800000x1_S800000x128_1_0_n_n_0_1_1128_wf x idx e j

/-- The kernel's gather of rows of a [50000, 4] matrix, read at (e, h): the operand at row idx[e, 0] (signed, clamped
    into [0, 49999]), column h. -/
theorem kernel_gather4_apply (x : (⟨2, ![50000, 4]⟩ : Shape).Idx → α) (idx : IVec ⟨2, ![800000, 1]⟩ 32)
    (e : Fin 800000) (h : Fin 4) :
    Host.gather Cert.KernelIdeal.gather_S50000x4_S800000x1_S800000x4_1_0_n_n_0_1_14 x idx (ix2 e h)
      = x (ix2 (rowOf (by decide) idx e) h) :=
  gather_rows2_apply (by decide)
    Cert.KernelIdeal.Facts₀.gather_S50000x4_S800000x1_S800000x4_1_0_n_n_0_1_14_wf x idx e h

/-- The reference's gather of rows of a [50000, 4, 32] array, read at (e, h, d): the operand at row idx[e, 0] (signed,
    clamped into [0, 49999]), trailing coordinates (h, d). -/
theorem reference_gather_apply (x : (⟨3, ![50000, 4, 32]⟩ : Shape).Idx → α) (idx : IVec ⟨2, ![800000, 1]⟩ 32)
    (e : Fin 800000) (h : Fin 4) (d : Fin 32) :
    Host.gather Cert.ReferenceIdeal.gather_S50000x4x32_S800000x1_S800000x4x32_12_0_n_n_0_1_1432 x idx (ix3 e h d)
      = x (ix3 (rowOf (by decide) idx e) h d) :=
  gather_rows3_apply (by decide)
    Cert.ReferenceIdeal.Facts₀.gather_S50000x4x32_S800000x1_S800000x4x32_12_0_n_n_0_1_1432_wf x idx e h d

/-- The reference's gather of rows of a [50000, 4] matrix, read at (e, h): the operand at row idx[e, 0] (signed,
    clamped into [0, 49999]), column h. -/
theorem reference_gather4_apply (x : (⟨2, ![50000, 4]⟩ : Shape).Idx → α) (idx : IVec ⟨2, ![800000, 1]⟩ 32)
    (e : Fin 800000) (h : Fin 4) :
    Host.gather Cert.ReferenceIdeal.gather_S50000x4_S800000x1_S800000x4_1_0_n_n_0_1_14 x idx (ix2 e h)
      = x (ix2 (rowOf (by decide) idx e) h) :=
  gather_rows2_apply (by decide)
    Cert.ReferenceIdeal.Facts₀.gather_S50000x4_S800000x1_S800000x4_1_0_n_n_0_1_14_wf x idx e h

end Cert.RowGathers

end
-- ==== Proof.BridgeLogits.lean ====
/-
  The reference's attention logits are the specification's.

  For edge e and head h the reference reshapes the projected queries and keys [50000, 128] to [50000, 4, 32], gathers the
  rows of the edge's two endpoints, multiplies them, and sums the 32 products of head h starting from zero; it then
  multiplies by the scale, adds the edge bias and applies the leaky rectifier. The specification gathers the rows as
  [800000, 128] and sums, over all 128 columns, the product times the 0/1 head table. Column 32·h + d of a row is entry
  (h, d) of the reshaped row, and the head table keeps exactly the 32 columns 32·h + d of head h: splitting the 128
  columns as 4 × 32, the other heads' terms are products with 0 and head h's are products with 1.
-/
import proofs.«163383_j64295660421655_1_alg».proof.Proof.Gen.ReferenceIdeal
import proofs.«163383_j64295660421655_1_alg».proof.Proof.Gen.KernelIdeal
import proofs.«163383_j64295660421655_1_alg».proof.Proof.Spec
import proofs.«163383_j64295660421655_1_alg».proof.Proof.RowGathers
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.ReferenceIdeal Cert.ReferenceIdeal.Gen Cert.LibGatherRows
open scoped BigOperators

/-! ## The 128 columns as 4 heads of 32 -/

/-- Column 32·h + d: entry d of head h. -/
def headCol (h : Fin 4) (d : Fin 32) : Fin 128 := ⟨32 * h.val + d.val, by omega⟩

/-- The 128 columns are the pairs (head, entry): k = 32·(k / 32) + k % 32. -/
def headEquiv : Fin 4 × Fin 32 ≃ Fin 128 where
  toFun p := headCol p.1 p.2
  invFun k := (⟨k.val / 32, by omega⟩, ⟨k.val % 32, by omega⟩)
  left_inv p := by
    refine Prod.ext (Fin.ext ?_) (Fin.ext ?_)
    · show (32 * p.1.val + p.2.val) / 32 = p.1.val; omega
    · show (32 * p.1.val + p.2.val) % 32 = p.2.val; omega
  right_inv k := by
    refine Fin.ext ?_
    show 32 * (k.val / 32) + k.val % 32 = k.val; omega

/-- A sum over the 128 columns of f(k) times the 0/1 indicator of head h is the sum of f over head h's 32 columns:
    the other heads contribute products with 0, head h products with 1. -/
theorem sum_head (f : Fin 128 → EReal) (h : Fin 4) :
    ∑ k : Fin 128, f k * (if k.val / 32 = h.val then (1 : EReal) else 0) = ∑ d : Fin 32, f (headCol h d) := by
  rw [← Equiv.sum_comp headEquiv, Fintype.sum_prod_type, Finset.sum_eq_single h]
  · refine Finset.sum_congr rfl fun d _ => ?_
    have hd : (headEquiv (h, d)).val / 32 = h.val := by
      show (32 * h.val + d.val) / 32 = h.val; omega
    rw [if_pos hd, mul_one]; rfl
  · intro a _ ha
    refine Finset.sum_eq_zero fun d _ => ?_
    have hd : ¬(headEquiv (a, d)).val / 32 = h.val := by
      show ¬(32 * a.val + d.val) / 32 = h.val
      intro hq; exact ha (Fin.ext (by omega))
    rw [if_neg hd, mul_zero]
  · intro hh; exact absurd (Finset.mem_univ h) hh

/-! ## The reference's stage, its upstream values as variables -/

/-- The logits before the rectifier: rows of q and k reshaped to [50000, 4, 32] and gathered at the two endpoints,
    multiplied, summed over the last axis from zero, times the scale, plus the edge bias. -/
def refPre (q k : FVec Ideal S50000x128 .f32) (idxd idxs : IVec S800000x1 32) (eb : FVec Ideal S800000x4 .f32) :
    FVec Ideal S800000x4 .f32 :=
  addf (mulf (Host.reduceAdd (F := Ideal)
      (mulf (Host.gather gather_S50000x4x32_S800000x1_S800000x4x32_12_0_n_n_0_1_1432
          (shapeCast _ q shapeCasts_S50000x128_S50000x4x32) idxd)
        (Host.gather gather_S50000x4x32_S800000x1_S800000x4x32_12_0_n_n_0_1_1432
          (shapeCast _ k shapeCasts_S50000x128_S50000x4x32) idxs))
      (constant (F := Ideal) S_ .f32 0x00000000#32) reducesTo_S800000x4x32_S800000x4_d2 h_S_)
    (broadcastInDim S800000x4 ![] bcast_S_S800000x4 (constant (F := Ideal) S_ .f32 0x3E3504F3#32))) eb

/-- The logits: the leaky rectifier a ↦ a if a ≥ 0 else 0.2 · a on the value above, as a select on the comparison. -/
def refLogits (q k : FVec Ideal S50000x128 .f32) (idxd idxs : IVec S800000x1 32) (eb : FVec Ideal S800000x4 .f32) :
    FVec Ideal S800000x4 .f32 :=
  select (cmpf .oge (refPre q k idxd idxs eb)
      (broadcastInDim S800000x4 ![] bcast_S_S800000x4 (constant (F := Ideal) S_ .f32 0x00000000#32)))
    (refPre q k idxd idxs eb)
    (mulf (broadcastInDim S800000x4 ![] bcast_S_S800000x4 (constant (F := Ideal) S_ .f32 0x3E4CCCCD#32))
      (refPre q k idxd idxs eb))

/-! ## Its operations read at an index -/

/-- A scalar constant broadcast to [800000, 4] reads the extended real its word encodes. -/
theorem bcast_const_apply (w : BitVec 32) (i : S800000x4.Idx) :
    broadcastInDim S800000x4 ![] bcast_S_S800000x4 (constant (F := Ideal) S_ .f32 w) i = Ideal.ofBits .f32 w :=
  broadcastInDim_apply _ bcast_S_S800000x4 (constant (F := Ideal) S_ .f32 w) i (fun a => a.elim0) (fun a => a.elim0)

/-- The sum over the last axis from the zero constant, at (e, h): the sum of the 32 entries (e, h, d). -/
theorem reduce_last_apply (p : FVec Ideal S800000x4x32 .f32) (e : Fin 800000) (h : Fin 4) :
    Host.reduceAdd (F := Ideal) p (constant (F := Ideal) S_ .f32 0x00000000#32) reducesTo_S800000x4x32_S800000x4_d2 h_S_
      (ix2 e h) = ∑ d : Fin 32, p (ix3 e h d) := by
  simp only [Host.reduceAdd, Ideal.hostReduceAdd_def]
  rw [Ideal.hostReduceAdd_single reducesTo_S800000x4x32_S800000x4_d2 (by decide)]
  refine (congrArg (· + _) ((constant_apply _ _).trans Ideal.ofBits_zero_f32)).trans ?_
  rw [zero_add]
  refine Finset.sum_congr rfl fun d _ => ?_
  exact congrArg p (funext fun a => Fin.ext (by match a with | ⟨0, _⟩ => rfl | ⟨1, _⟩ => rfl | ⟨2, _⟩ => rfl))

/-- A row of the reshaped [50000, 4, 32] array gathered at a start index, at (e, h, d): column 32·h + d of the
    [50000, 128] array's row at the clamped start. -/
theorem gather_reshaped_apply (q : FVec Ideal S50000x128 .f32) (idx : IVec S800000x1 32) (e : Fin 800000) (h : Fin 4)
    (d : Fin 32) :
    Host.gather gather_S50000x4x32_S800000x1_S800000x4x32_12_0_n_n_0_1_1432
      (shapeCast _ q shapeCasts_S50000x128_S50000x4x32) idx (ix3 e h d)
      = q (ix2 (rowOf (N := 50000) (by decide) idx e) (headCol h d)) := by
  refine (Cert.RowGathers.reference_gather_apply _ idx e h d).trans ?_
  refine shapeCast_apply q shapeCasts_S50000x128_S50000x4x32 _ _ ?_
  rw [Shape.rowMajor_val_two, Shape.rowMajor_val_three]
  show (rowOf (N := 50000) (by decide) idx e).val * 128 + (32 * h.val + d.val)
    = ((rowOf (N := 50000) (by decide) idx e).val * 4 + h.val) * 32 + d.val
  omega

/-- The value before the rectifier at (e, h): the sum over head h's 32 columns of the two gathered rows' products,
    times the scale, plus the edge bias. -/
theorem refPre_apply (q k : FVec Ideal S50000x128 .f32) (idxd idxs : IVec S800000x1 32) (eb : FVec Ideal S800000x4 .f32)
    (e : Fin 800000) (h : Fin 4) :
    refPre q k idxd idxs eb (ix2 e h)
      = (∑ d : Fin 32, q (ix2 (rowOf (N := 50000) (by decide) idxd e) (headCol h d))
            * k (ix2 (rowOf (N := 50000) (by decide) idxs e) (headCol h d))) * Cert.Spec.scaleW + eb (ix2 e h) := by
  unfold refPre
  rw [addf_apply, mulf_apply, bcast_const_apply, reduce_last_apply]
  refine congrArg (fun s => s * Cert.Spec.scaleW + eb (ix2 e h)) (Finset.sum_congr rfl fun d _ => ?_)
  rw [mulf_apply, gather_reshaped_apply, gather_reshaped_apply]

/-! ## The specification read at an index, and the bridge -/

/-- The specification's logit at (e, h) over rows gathered as [800000, 128]: the same sum over head h's 32 columns. -/
theorem attnAt_gathered (q k : FVec Ideal S50000x128 .f32) (idxd idxs : IVec S800000x1 32) (eb : FVec Ideal S800000x4 .f32)
    (e : Fin 800000) (h : Fin 4) :
    Cert.Spec.attnAt
        (Host.gather Cert.KernelIdeal.gather_S50000x128_S800000x1_S800000x128_1_0_n_n_0_1_1128 q idxd)
        (Host.gather Cert.KernelIdeal.gather_S50000x128_S800000x1_S800000x128_1_0_n_n_0_1_1128 k idxs)
        eb Cert.Spec.headOf e h
      = Cert.Spec.leaky ((∑ d : Fin 32, q (ix2 (rowOf (N := 50000) (by decide) idxd e) (headCol h d))
            * k (ix2 (rowOf (N := 50000) (by decide) idxs e) (headCol h d))) * Cert.Spec.scaleW + eb (ix2 e h)) := by
  unfold Cert.Spec.attnAt
  refine congrArg (fun s => Cert.Spec.leaky (s * Cert.Spec.scaleW + eb (ix2 e h))) ?_
  refine Eq.trans (Finset.sum_congr rfl fun c _ => ?_)
    (sum_head (fun c => q (ix2 (rowOf (N := 50000) (by decide) idxd e) c)
      * k (ix2 (rowOf (N := 50000) (by decide) idxs e) c)) h)
  rw [Cert.RowGathers.kernel_gather_apply, Cert.RowGathers.kernel_gather_apply]
  rfl

/-- THE REFERENCE'S LOGITS ARE THE SPECIFICATION'S, as whole arrays: the specification reads the rows gathered as
    [800000, 128] and the 0/1 head table. -/
theorem logits_bridge (q k : FVec Ideal S50000x128 .f32) (idxd idxs : IVec S800000x1 32) (eb : FVec Ideal S800000x4 .f32) :
    refLogits q k idxd idxs eb
      = Cert.Spec.attnSpec
          (Host.gather Cert.KernelIdeal.gather_S50000x128_S800000x1_S800000x128_1_0_n_n_0_1_1128 q idxd)
          (Host.gather Cert.KernelIdeal.gather_S50000x128_S800000x1_S800000x128_1_0_n_n_0_1_1128 k idxs)
          eb Cert.Spec.headOf := by
  funext i
  obtain ⟨e, h, rfl⟩ : ∃ (e : Fin 800000) (h : Fin 4), i = ix2 e h := ⟨i 0, i 1, eq_ix2 i⟩
  refine Eq.trans ?_ (attnAt_gathered q k idxd idxs eb e h).symm
  unfold refLogits
  rw [select_apply, cmpf_apply, mulf_apply, bcast_const_apply, bcast_const_apply, refPre_apply]
  rfl

end Cert.Bridge

end
-- ==== Proof.BridgeLogitsRef.lean ====
/-
  The reference's logits stage is the bridged function of its upstream stages: the projected queries and keys, the two
  arrays of normalised endpoint indices, and the edge bias. Both sides are the same chain of operations, so the
  equation holds by unfolding.
-/
import proofs.«163383_j64295660421655_1_alg».proof.Proof.RefRead
import proofs.«163383_j64295660421655_1_alg».proof.Proof.BridgeLogits

noncomputable section

namespace Cert.Bridge

open Idealize.ShloMosaic Cert.ReferenceIdeal Cert.ReferenceIdeal.ReadP

/-- The reference's value after the leaky rectifier is the logits function at the reference's own upstream values. -/
theorem val_main_v34_eq (x0 : (⟨S50000x128, .f32⟩ : BufTy).Contents (Elt Ideal))
    (x1 : (⟨S2x800000, .i32⟩ : BufTy).Contents (Elt Ideal)) (x2 : (⟨S800000x3, .f32⟩ : BufTy).Contents (Elt Ideal))
    (x3 x4 : (⟨S128x128, .f32⟩ : BufTy).Contents (Elt Ideal)) (x6 : (⟨S3x4, .f32⟩ : BufTy).Contents (Elt Ideal)) :
    val_main_v34 (F := Ideal) x0 x1 x2 x3 x4 x6
      = refLogits (val_main_v4 (F := Ideal) x0 x3) (val_main_v6 (F := Ideal) x0 x4) (val_main_v16 (F := Ideal) x1)
          (val_main_v23 (F := Ideal) x1) (val_main_v10 (F := Ideal) x2 x6) := rfl

end Cert.Bridge

end
-- ==== Proof.BridgeWeighted.lean ====
import proofs.«163383_j64295660421655_1_alg».proof.Proof.Gen.ReferenceIdeal
import proofs.«163383_j64295660421655_1_alg».proof.Proof.Gen.KernelIdeal
import proofs.«163383_j64295660421655_1_alg».proof.Proof.Spec
import proofs.«163383_j64295660421655_1_alg».proof.Proof.RowGathers
import Idealize.ShloMosaic.Lib.Pipeline.Value
import Idealize.ShloMosaic.Lib.ValueIdx
import Idealize.ShloMosaic.PureOps.Ideal.Laws

/-!
  The weighted values, reference side against specification side.

  The reference keeps the 128 value columns of a node as 4 heads × 32 columns: it reshapes the projected values
  [50000, 128] to [50000, 4, 32], takes for each edge e the row of its source node, and multiplies entry (e, h, d) by
  the edge's normalised attention weight for head h (the [800000, 4] weights spread along a new trailing axis of
  length 32). The specification works on the flat [800000, 128] layout: entry (e, j) of the gathered rows times
  Σ_{h' < 4} an[e, h'] · [j / 32 = h'].

  At column j = 32·h + d the two agree. The reshape reads flat column 32·h + d; the bracket [j / 32 = h'] is 1 for
  h' = h and 0 otherwise, so the sum over the four heads is its single term an[e, h] (a product with 0 is 0 and a
  product with 1 is the other factor for every extended real, the infinities included).
-/

noncomputable section

namespace Cert.Bridge

open Cert.ReferenceIdeal Cert.ReferenceIdeal.Gen Idealize.ShloMosaic Idealize.ShloMosaic.ValueIdx Idealize.ShloMosaic.StableHlo
open Cert.LibGatherRows
open scoped BigOperators

/-- The reference's weighted values as a function of the projected values `v`, the edges' source indices `idxs` and
    the normalised attention weights `an`: reshape, gather the source rows, spread the weights over the 32 columns
    of each head, multiply. -/
def refWeighted (v : FVec Ideal S50000x128 .f32) (idxs : IVec S800000x1 32) (an : FVec Ideal S800000x4 .f32) :
    FVec Ideal S800000x4x32 .f32 :=
  mulf
    (Host.gather gather_S50000x4x32_S800000x1_S800000x4x32_12_0_n_n_0_1_1432
      (shapeCast _ v shapeCasts_S50000x128_S50000x4x32) idxs)
    (broadcastInDim S800000x4x32 ![0, 1, 2] bcast_S800000x4x1_S800000x4x32_0_1_2
      (broadcastInDim S800000x4x1 ![0, 1] bcast_S800000x4_S800000x4x1_0_1 an))

/-- Column d of head h is flat column 32·h + d. -/
def flatCol (h : Fin 4) (d : Fin 32) : Fin 128 := ⟨32 * h.val + d.val, by have := h.isLt; have := d.isLt; omega⟩

/-- The reshape [50000, 128] → [50000, 4, 32] read at (r, h, d): the matrix at (r, 32·h + d), both being position
    128·r + 32·h + d in row-major order. -/
theorem reshaped_apply (v : FVec Ideal S50000x128 .f32) (r : Fin 50000) (h : Fin 4) (d : Fin 32) :
    shapeCast S50000x4x32 v shapeCasts_S50000x128_S50000x4x32 (ix3 r h d) = v (ix2 r (flatCol h d)) :=
  shapeCast_apply v shapeCasts_S50000x128_S50000x4x32 (ix3 r h d) (ix2 r (flatCol h d)) (by
    rewrite [Shape.rowMajor_val_two, Shape.rowMajor_val_three]
    have hh := h.isLt; have hd := d.isLt
    show r.val * 128 + (32 * h.val + d.val) = (r.val * 4 + h.val) * 32 + d.val
    omega)

/-- The weights spread along the new trailing axis and then over its 32 columns, read at (e, h, d): the weight at
    (e, h). -/
theorem spread_apply (an : FVec Ideal S800000x4 .f32) (e : Fin 800000) (h : Fin 4) (d : Fin 32) :
    broadcastInDim S800000x4x32 ![0, 1, 2] bcast_S800000x4x1_S800000x4x32_0_1_2
        (broadcastInDim S800000x4x1 ![0, 1] bcast_S800000x4_S800000x4x1_0_1 an) (ix3 e h d)
      = an (ix2 e h) := by
  rw [broadcastInDim_apply _ bcast_S800000x4x1_S800000x4x32_0_1_2 _ (ix3 e h d) (ix3 e h (0 : Fin 1)) (fun a => match a with
      | ⟨0, _⟩ => by show e.val = if (800000 : Nat) = 1 then 0 else e.val; rw [if_neg (by decide)]
      | ⟨1, _⟩ => by show h.val = if (4 : Nat) = 1 then 0 else h.val; rw [if_neg (by decide)]
      | ⟨2, _⟩ => by show 0 = if (1 : Nat) = 1 then 0 else d.val; rw [if_pos rfl]),
    broadcastInDim_apply _ bcast_S800000x4_S800000x4x1_0_1 an (ix3 e h (0 : Fin 1)) (ix2 e h) (fun a => match a with
      | ⟨0, _⟩ => by show e.val = if (800000 : Nat) = 1 then 0 else e.val; rw [if_neg (by decide)]
      | ⟨1, _⟩ => by show h.val = if (4 : Nat) = 1 then 0 else h.val; rw [if_neg (by decide)])]

/-- Over the four heads, only head h contributes at flat column 32·h + d. -/
theorem head_sum (an : FVec Ideal S800000x4 .f32) (e : Fin 800000) (h : Fin 4) (d : Fin 32) :
    ∑ h' : Fin 4, an (ix2 e h') * Cert.Spec.headOfT (ix2 h' (flatCol h d)) = an (ix2 e h) := by
  have hh := h.isLt; have hd := d.isLt
  have hq : (32 * h.val + d.val) / 32 = h.val := by omega
  rw [Finset.sum_eq_single h]
  · show an (ix2 e h) * (if (32 * h.val + d.val) / 32 = h.val then 1 else 0) = _
    rw [if_pos hq, mul_one]
  · intro h' _ hne
    show an (ix2 e h') * (if (32 * h.val + d.val) / 32 = h'.val then 1 else 0) = 0
    rw [if_neg (fun hc => hne (Fin.ext (hc.symm.trans hq))), mul_zero]
  · intro hn; exact absurd (Finset.mem_univ h) hn

/-- Entry (e, h, d) of the reference's weighted values is entry (e, 32·h + d) of the specification's, taken of the
    flat gathered rows, the same weights and the 0/1 head table. -/
theorem weighted_bridge (v : FVec Ideal S50000x128 .f32) (idxs : IVec S800000x1 32) (an : FVec Ideal S800000x4 .f32)
    (e : Fin 800000) (h : Fin 4) (d : Fin 32) :
    refWeighted v idxs an (ix3 e h d)
      = Cert.Spec.weightedSpec
          (Host.gather Cert.KernelIdeal.gather_S50000x128_S800000x1_S800000x128_1_0_n_n_0_1_1128 v idxs) an
          Cert.Spec.headOfT (ix2 e ⟨32 * h.val + d.val, by have := h.isLt; have := d.isLt; omega⟩) := by
  show Host.gather gather_S50000x4x32_S800000x1_S800000x4x32_12_0_n_n_0_1_1432
        (shapeCast _ v shapeCasts_S50000x128_S50000x4x32) idxs (ix3 e h d)
      * broadcastInDim S800000x4x32 ![0, 1, 2] bcast_S800000x4x1_S800000x4x32_0_1_2
          (broadcastInDim S800000x4x1 ![0, 1] bcast_S800000x4_S800000x4x1_0_1 an) (ix3 e h d)
    = Host.gather Cert.KernelIdeal.gather_S50000x128_S800000x1_S800000x128_1_0_n_n_0_1_1128 v idxs (ix2 e (flatCol h d))
      * ∑ h' : Fin 4, an (ix2 e h') * Cert.Spec.headOfT (ix2 h' (flatCol h d))
  rw [Cert.RowGathers.reference_gather_apply, reshaped_apply, spread_apply, Cert.RowGathers.kernel_gather_apply, head_sum]

end Cert.Bridge

end
-- ==== Proof.BridgeWeightedRef.lean ====
import proofs.«163383_j64295660421655_1_alg».proof.Proof.RefRead
import proofs.«163383_j64295660421655_1_alg».proof.Proof.BridgeWeighted

/-!
  The reference program's weighted-values stage is `Cert.Bridge.refWeighted` of three earlier stages: the projected
  values, the edges' normalised source indices and the normalised attention weights. The stage's chain of operations
  (reshape, row gather, two broadcasts, product) is the function's body word for word, so the two unfold to the
  same term.
-/

noncomputable section

namespace Cert.Bridge

open Cert.ReferenceIdeal Idealize.ShloMosaic

theorem val_main_v61_eq (x0 : (⟨S50000x128, .f32⟩ : BufTy).Contents (Elt Ideal)) (x1 : (⟨S2x800000, .i32⟩ : BufTy).Contents (Elt Ideal))
    (x2 : (⟨S800000x3, .f32⟩ : BufTy).Contents (Elt Ideal)) (x3 x4 x5 : (⟨S128x128, .f32⟩ : BufTy).Contents (Elt Ideal))
    (x6 : (⟨S3x4, .f32⟩ : BufTy).Contents (Elt Ideal)) :
    ReadP.val_main_v61 (F := Ideal) x0 x1 x2 x3 x4 x5 x6
      = refWeighted (ReadP.val_main_v8 (F := Ideal) x0 x5) (ReadP.val_main_v57 (F := Ideal) x1)
          (ReadP.val_main_v51 (F := Ideal) x0 x1 x2 x3 x4 x6) := rfl

end Cert.Bridge

end
-- ==== Proof.LibScatterRows.lean ====
/-
  THE HOST'S ACCUMULATING SCATTER OF WHOLE ROWS, READ AT AN INDEX (ideal instance).

  A sum of update rows into the rows of an operand along the leading axis: update row `e` is added to operand row
  `idx[e, 0]`, every trailing coordinate kept. As a scatter with an addition body its dimension numbers are:
  update window axes = the trailing axes of the updates, inserted window axes = `[0]`, scatter-dims-to-operand-dims =
  `[0]`, index vector axis = `1`, over scatter indices of shape `[E, 1]`. The start index is read SIGNED and is NOT
  clamped: an update row whose index is negative or at least the number of operand rows contributes nothing.

  At the ideal instance the scatter is the exact sum (`Ideal.hostScatterAdd`): element `i` of the result is `x i` plus
  the sum of the update elements whose result index is `i`. Here that sum over update ELEMENTS is brought to a sum over
  update ROWS: the update elements landing on `(n, j)` are exactly the `(e, j)` with `idx[e, 0] = n`, and `e ↦ (e, j)`
  is an injection. Rank 2 (`rows2`, `scatter_rows2_apply`) and rank 3 (`rows3`, `scatter_rows3_apply`), for all
  extents; the dimension record's conditions `wf` are an argument, decided on a program's literal shapes.
-/
import Idealize.ShloMosaic.PureOps.Ideal
import Idealize.ShloMosaic.Lib.ValueIdx

noncomputable section

open scoped BigOperators

namespace Cert.LibScatterRows

open Idealize.ShloMosaic Idealize.ShloMosaic.ValueIdx

/-- Update row `e` lands on operand row `n`: the scatter index `idx[e, 0]`, read as a signed integer, is `n`. -/
def landsOn {E N w : ℕ} (idx : IVec ⟨2, ![E, 1]⟩ w) (e : Fin E) (n : Fin N) : Prop :=
  (idx (ix2 e 0)).toInt = (n.val : ℤ)

/-- Landing on a row is an equation of integers, hence decidable. -/
instance landsOn.decidable {E N w : ℕ} (idx : IVec ⟨2, ![E, 1]⟩ w) (e : Fin E) (n : Fin N) :
    Decidable (landsOn idx e n) := by
  unfold landsOn; infer_instance

/-- An update row lands on at most one operand row: two rows it lands on have the same number. -/
theorem landsOn_unique {E N w : ℕ} {idx : IVec ⟨2, ![E, 1]⟩ w} {e : Fin E} {n n' : Fin N}
    (h : landsOn idx e n) (h' : landsOn idx e n') : n = n' := by
  unfold landsOn at h h'
  exact Fin.ext (by omega)

/-- Every index of a rank-3 shape's axes is `0`, `1` or `2`: a statement over all three axes is the three statements. -/
theorem forall_fin_three {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-! ## Rank 2: operand `[N, C]`, scatter indices `[E, 1]`, updates `[E, C]` -/

/-- The row scatter's dimension numbers at rank 2: the updates' axis 1 is the window axis and goes to the operand's
    axis 1; the operand's axis 0 is inserted and is the one the scatter index names. -/
abbrev rows2 (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section R2
variable {N E C w : ℕ} (wf : ScatterDims.WF ⟨2, ![N, C]⟩ ⟨2, ![E, 1]⟩ ⟨2, ![E, C]⟩ [1] [0] [0] 1)

/-- On the row axis the window of update element `(e, j)` starts at the scatter index `idx[e, 0]`, read signed. -/
theorem rows2_start0 (idx : IVec ⟨2, ![E, 1]⟩ w) (e : Fin E) (j : Fin C) :
    (rows2 N E C wf).start (ix2 e j) idx 0 = (idx (ix2 e 0)).toInt := by
  unfold ScatterDims.start
  rw [dif_pos (show (0 : Fin 2) ∈ (rows2 N E C wf).scatterDimsToOperandDims from List.mem_singleton.mpr rfl)]
  congr 2
  funext b; refine Fin.ext ?_
  match b with
  | ⟨0, _⟩ => rfl
  | ⟨1, _⟩ => rfl

/-- On the column axis, which the scatter index does not name, the window starts at `0`. -/
theorem rows2_start1 (idx : IVec ⟨2, ![E, 1]⟩ w) (e : Fin E) (j : Fin C) :
    (rows2 N E C wf).start (ix2 e j) idx 1 = 0 := by
  unfold ScatterDims.start
  exact dif_neg (show (1 : Fin 2) ∉ ([0] : List (Fin 2)) from by decide)

/-- The row axis is inserted: the window coordinate there is `0`. -/
theorem rows2_window0 (e : Fin E) (j : Fin C) : (rows2 N E C wf).window (ix2 e j) 0 = 0 := by
  unfold ScatterDims.window
  exact dif_neg (show (0 : Fin 2) ∉ (List.finRange 2).filter (fun a : Fin 2 => a ∉ ([0] : List (Fin 2))) from by decide)

/-- On the column axis the window coordinate of update element `(e, j)` is its column `j`. -/
theorem rows2_window1 (e : Fin E) (j : Fin C) : (rows2 N E C wf).window (ix2 e j) 1 = j.val := by
  unfold ScatterDims.window
  rw [dif_pos (show (1 : Fin 2) ∈ (rows2 N E C wf).sKept from
    (show (1 : Fin 2) ∈ (List.finRange 2).filter (fun a : Fin 2 => a ∉ ([0] : List (Fin 2))) from by decide))]
  rfl

/-- The operand's row extent, as the natural it is. -/
theorem size2_0 : (⟨2, ![N, C]⟩ : Shape).size 0 = N := rfl
/-- The operand's column extent, as the natural it is. -/
theorem size2_1 : (⟨2, ![N, C]⟩ : Shape).size 1 = C := rfl

/-- WHERE AN UPDATE ELEMENT LANDS: update element `(e, j)` has result index `(n, j₀)` exactly when row `e` lands on
    row `n` and the columns agree. (Start plus window coordinate is `idx[e, 0] + 0` on the row axis and `0 + j` on the
    column axis; it is inside the operand exactly when `0 ≤ idx[e, 0] < N`.) -/
theorem rows2_resultIdx_iff (idx : IVec ⟨2, ![E, 1]⟩ w) (e : Fin E) (j : Fin C) (n : Fin N) (j₀ : Fin C) :
    (rows2 N E C wf).resultIdx? (ix2 e j) idx = some (ix2 n j₀) ↔ landsOn idx e n ∧ j = j₀ := by
  have s0 := rows2_start0 wf idx e j
  have s1 := rows2_start1 wf idx e j
  have w0 := rows2_window0 wf e j
  have w1 := rows2_window1 wf e j
  unfold landsOn
  unfold ScatterDims.resultIdx?
  constructor
  · intro h
    split at h
    · rename_i hh
      have h' := Option.some.inj h
      have h0 : ((rows2 N E C wf).start (ix2 e j) idx 0 + ((rows2 N E C wf).window (ix2 e j) 0 : ℕ)).toNat = n.val :=
        congrArg (fun f => (f 0).val) h'
      have h1 : ((rows2 N E C wf).start (ix2 e j) idx 1 + ((rows2 N E C wf).window (ix2 e j) 1 : ℕ)).toNat = j₀.val :=
        congrArg (fun f => (f 1).val) h'
      have hh0 := (hh 0).1
      refine ⟨by omega, Fin.ext (by omega)⟩
    · exact absurd h (by simp)
  · rintro ⟨hl, rfl⟩
    have hN := n.isLt
    have hC := j.isLt
    have hh : ∀ a, 0 ≤ (rows2 N E C wf).start (ix2 e j) idx a + ((rows2 N E C wf).window (ix2 e j) a : ℕ) ∧
        (rows2 N E C wf).start (ix2 e j) idx a + ((rows2 N E C wf).window (ix2 e j) a : ℕ)
          < ((⟨2, ![N, C]⟩ : Shape).size a : ℕ) :=
      Fin.forall_fin_two.2 ⟨by rw [size2_0]; omega, by rw [size2_1]; omega⟩
    rw [dif_pos hh]
    refine congrArg some (funext fun a => Fin.ext ?_)
    revert a
    refine Fin.forall_fin_two.2 ⟨?_, ?_⟩
    · show ((rows2 N E C wf).start (ix2 e j) idx 0 + ((rows2 N E C wf).window (ix2 e j) 0 : ℕ)).toNat = n.val
      omega
    · show ((rows2 N E C wf).start (ix2 e j) idx 1 + ((rows2 N E C wf).window (ix2 e j) 1 : ℕ)).toNat = j.val
      omega

/-- THE UPDATE ELEMENTS LANDING ON `(n, j)`, SUMMED, ARE THE ROWS LANDING ON `n`, SUMMED AT COLUMN `j`: the former
    set is the image of the latter under the injection `e ↦ (e, j)`. For any summand `f`. -/
theorem rows2_sum_landing {M : Type} [AddCommMonoid M] (idx : IVec ⟨2, ![E, 1]⟩ w)
    (f : (⟨2, ![E, C]⟩ : Shape).Idx → M) (n : Fin N) (j : Fin C) :
    ∑ y ∈ Finset.univ.filter (fun y => (rows2 N E C wf).resultIdx? y idx = some (ix2 n j)), f y
      = ∑ e ∈ Finset.univ.filter (fun e : Fin E => landsOn idx e n), f (ix2 e j) := by
  symm
  refine Finset.sum_bij (fun e _ => ix2 e j) ?_ ?_ ?_ (fun _ _ => rfl)
  · intro e he
    rw [Finset.mem_filter] at he ⊢
    exact ⟨Finset.mem_univ _, (rows2_resultIdx_iff wf idx e j n j).2 ⟨he.2, rfl⟩⟩
  · intro a _ b _ hab
    exact congrFun hab 0
  · intro y hy
    rw [Finset.mem_filter] at hy
    have hy2 := hy.2
    rw [eq_ix2 y] at hy2 ⊢
    obtain ⟨hl, hj⟩ := (rows2_resultIdx_iff wf idx (y 0) (y 1) n j).1 hy2
    exact ⟨y 0, Finset.mem_filter.2 ⟨Finset.mem_univ _, hl⟩, congrArg (ix2 (y 0)) hj.symm⟩

/-- THE ROW SCATTER READ AT `(n, j)`, rank 2: the operand's element plus the sum, over the update rows `e` whose
    scatter index is `n`, of the updates' element `(e, j)`. An update row whose index names no operand row appears in
    no such sum. -/
theorem scatter_rows2_apply (x : FVec Ideal ⟨2, ![N, C]⟩ .f32) (idx : IVec ⟨2, ![E, 1]⟩ w)
    (u : FVec Ideal ⟨2, ![E, C]⟩ .f32) (n : Fin N) (j : Fin C) :
    Host.scatterAdd (F := Ideal) (rows2 N E C wf) x idx u (ix2 n j)
      = x (ix2 n j) + ∑ e ∈ Finset.univ.filter (fun e : Fin E => landsOn idx e n), u (ix2 e j) := by
  show x (ix2 n j) + _ = _
  exact congrArg (x (ix2 n j) + ·) (rows2_sum_landing wf idx u n j)

end R2

/-! ## Rank 3: operand `[N, H, D]`, scatter indices `[E, 1]`, updates `[E, H, D]` -/

/-- The row scatter's dimension numbers at rank 3: the updates' axes 1 and 2 are the window axes and go to the
    operand's axes 1 and 2; the operand's axis 0 is inserted and is the one the scatter index names. -/
abbrev rows3 (N E H D : ℕ)
    (wf : ScatterDims.WF ⟨3, ![N, H, D]⟩ ⟨2, ![E, 1]⟩ ⟨3, ![E, H, D]⟩ [1, 2] [0] [0] 1) :
    ScatterDims ⟨3, ![N, H, D]⟩ ⟨2, ![E, 1]⟩ ⟨3, ![E, H, D]⟩ where
  updateWindowDims := [1, 2]
  insertedWindowDims := [0]
  scatterDimsToOperandDims := [0]
  indexVectorDim := 1
  wf := wf

section R3
variable {N E H D w : ℕ} (wf : ScatterDims.WF ⟨3, ![N, H, D]⟩ ⟨2, ![E, 1]⟩ ⟨3, ![E, H, D]⟩ [1, 2] [0] [0] 1)

/-- On the row axis the window of update element `(e, h, d)` starts at the scatter index `idx[e, 0]`, read signed. -/
theorem rows3_start0 (idx : IVec ⟨2, ![E, 1]⟩ w) (e : Fin E) (h : Fin H) (d : Fin D) :
    (rows3 N E H D wf).start (ix3 e h d) idx 0 = (idx (ix2 e 0)).toInt := by
  unfold ScatterDims.start
  rw [dif_pos (show (0 : Fin 3) ∈ (rows3 N E H D wf).scatterDimsToOperandDims from List.mem_singleton.mpr rfl)]
  congr 2
  funext b; refine Fin.ext ?_
  match b with
  | ⟨0, _⟩ => rfl
  | ⟨1, _⟩ => rfl

/-- On axis 1, which the scatter index does not name, the window starts at `0`. -/
theorem rows3_start1 (idx : IVec ⟨2, ![E, 1]⟩ w) (e : Fin E) (h : Fin H) (d : Fin D) :
    (rows3 N E H D wf).start (ix3 e h d) idx 1 = 0 := by
  unfold ScatterDims.start
  exact dif_neg (show (1 : Fin 3) ∉ ([0] : List (Fin 3)) from by decide)

/-- On axis 2, which the scatter index does not name, the window starts at `0`. -/
theorem rows3_start2 (idx : IVec ⟨2, ![E, 1]⟩ w) (e : Fin E) (h : Fin H) (d : Fin D) :
    (rows3 N E H D wf).start (ix3 e h d) idx 2 = 0 := by
  unfold ScatterDims.start
  exact dif_neg (show (2 : Fin 3) ∉ ([0] : List (Fin 3)) from by decide)

/-- The row axis is inserted: the window coordinate there is `0`. -/
theorem rows3_window0 (e : Fin E) (h : Fin H) (d : Fin D) : (rows3 N E H D wf).window (ix3 e h d) 0 = 0 := by
  unfold ScatterDims.window
  exact dif_neg (show (0 : Fin 3) ∉ (List.finRange 3).filter (fun a : Fin 3 => a ∉ ([0] : List (Fin 3))) from by decide)

/-- On axis 1 the window coordinate of update element `(e, h, d)` is `h`. -/
theorem rows3_window1 (e : Fin E) (h : Fin H) (d : Fin D) : (rows3 N E H D wf).window (ix3 e h d) 1 = h.val := by
  unfold ScatterDims.window
  rw [dif_pos (show (1 : Fin 3) ∈ (rows3 N E H D wf).sKept from
    (show (1 : Fin 3) ∈ (List.finRange 3).filter (fun a : Fin 3 => a ∉ ([0] : List (Fin 3))) from by decide))]
  rfl

/-- On axis 2 the window coordinate of update element `(e, h, d)` is `d`. -/
theorem rows3_window2 (e : Fin E) (h : Fin H) (d : Fin D) : (rows3 N E H D wf).window (ix3 e h d) 2 = d.val := by
  unfold ScatterDims.window
  rw [dif_pos (show (2 : Fin 3) ∈ (rows3 N E H D wf).sKept from
    (show (2 : Fin 3) ∈ (List.finRange 3).filter (fun a : Fin 3 => a ∉ ([0] : List (Fin 3))) from by decide))]
  rfl

/-- The operand's extent on axis 0, as the natural it is. -/
theorem size3_0 : (⟨3, ![N, H, D]⟩ : Shape).size 0 = N := rfl
/-- The operand's extent on axis 1, as the natural it is. -/
theorem size3_1 : (⟨3, ![N, H, D]⟩ : Shape).size 1 = H := rfl
/-- The operand's extent on axis 2, as the natural it is. -/
theorem size3_2 : (⟨3, ![N, H, D]⟩ : Shape).size 2 = D := rfl

/-- WHERE AN UPDATE ELEMENT LANDS: update element `(e, h, d)` has result index `(n, h₀, d₀)` exactly when row `e`
    lands on row `n` and the trailing coordinates agree. -/
theorem rows3_resultIdx_iff (idx : IVec ⟨2, ![E, 1]⟩ w) (e : Fin E) (h : Fin H) (d : Fin D) (n : Fin N)
    (h₀ : Fin H) (d₀ : Fin D) :
    (rows3 N E H D wf).resultIdx? (ix3 e h d) idx = some (ix3 n h₀ d₀) ↔ landsOn idx e n ∧ h = h₀ ∧ d = d₀ := by
  have s0 := rows3_start0 wf idx e h d
  have s1 := rows3_start1 wf idx e h d
  have s2 := rows3_start2 wf idx e h d
  have w0 := rows3_window0 wf e h d
  have w1 := rows3_window1 wf e h d
  have w2 := rows3_window2 wf e h d
  unfold landsOn
  unfold ScatterDims.resultIdx?
  constructor
  · intro hr
    split at hr
    · rename_i hh
      have h' := Option.some.inj hr
      have h0 : ((rows3 N E H D wf).start (ix3 e h d) idx 0 + ((rows3 N E H D wf).window (ix3 e h d) 0 : ℕ)).toNat = n.val :=
        congrArg (fun f => (f 0).val) h'
      have h1 : ((rows3 N E H D wf).start (ix3 e h d) idx 1 + ((rows3 N E H D wf).window (ix3 e h d) 1 : ℕ)).toNat = h₀.val :=
        congrArg (fun f => (f 1).val) h'
      have h2 : ((rows3 N E H D wf).start (ix3 e h d) idx 2 + ((rows3 N E H D wf).window (ix3 e h d) 2 : ℕ)).toNat = d₀.val :=
        congrArg (fun f => (f 2).val) h'
      have hh0 := (hh 0).1
      refine ⟨by omega, Fin.ext (by omega), Fin.ext (by omega)⟩
    · exact absurd hr (by simp)
  · rintro ⟨hl, rfl, rfl⟩
    have hN := n.isLt
    have hH := h.isLt
    have hD := d.isLt
    have hh : ∀ a, 0 ≤ (rows3 N E H D wf).start (ix3 e h d) idx a + ((rows3 N E H D wf).window (ix3 e h d) a : ℕ) ∧
        (rows3 N E H D wf).start (ix3 e h d) idx a + ((rows3 N E H D wf).window (ix3 e h d) a : ℕ)
          < ((⟨3, ![N, H, D]⟩ : Shape).size a : ℕ) :=
      forall_fin_three.2 ⟨by rw [size3_0]; omega, by rw [size3_1]; omega, by rw [size3_2]; omega⟩
    rw [dif_pos hh]
    refine congrArg some (funext fun a => Fin.ext ?_)
    revert a
    refine forall_fin_three.2 ⟨?_, ?_, ?_⟩
    · show ((rows3 N E H D wf).start (ix3 e h d) idx 0 + ((rows3 N E H D wf).window (ix3 e h d) 0 : ℕ)).toNat = n.val
      omega
    · show ((rows3 N E H D wf).start (ix3 e h d) idx 1 + ((rows3 N E H D wf).window (ix3 e h d) 1 : ℕ)).toNat = h.val
      omega
    · show ((rows3 N E H D wf).start (ix3 e h d) idx 2 + ((rows3 N E H D wf).window (ix3 e h d) 2 : ℕ)).toNat = d.val
      omega

/-- THE UPDATE ELEMENTS LANDING ON `(n, h, d)`, SUMMED, ARE THE ROWS LANDING ON `n`, SUMMED AT `(h, d)`: the former
    set is the image of the latter under the injection `e ↦ (e, h, d)`. For any summand `f`. -/
theorem rows3_sum_landing {M : Type} [AddCommMonoid M] (idx : IVec ⟨2, ![E, 1]⟩ w)
    (f : (⟨3, ![E, H, D]⟩ : Shape).Idx → M) (n : Fin N) (h : Fin H) (d : Fin D) :
    ∑ y ∈ Finset.univ.filter (fun y => (rows3 N E H D wf).resultIdx? y idx = some (ix3 n h d)), f y
      = ∑ e ∈ Finset.univ.filter (fun e : Fin E => landsOn idx e n), f (ix3 e h d) := by
  symm
  refine Finset.sum_bij (fun e _ => ix3 e h d) ?_ ?_ ?_ (fun _ _ => rfl)
  · intro e he
    rw [Finset.mem_filter] at he ⊢
    exact ⟨Finset.mem_univ _, (rows3_resultIdx_iff wf idx e h d n h d).2 ⟨he.2, rfl, rfl⟩⟩
  · intro a _ b _ hab
    exact congrFun hab 0
  · intro y hy
    rw [Finset.mem_filter] at hy
    have hy2 := hy.2
    rw [eq_ix3 y] at hy2 ⊢
    obtain ⟨hl, hh, hd⟩ := (rows3_resultIdx_iff wf idx (y 0) (y 1) (y 2) n h d).1 hy2
    exact ⟨y 0, Finset.mem_filter.2 ⟨Finset.mem_univ _, hl⟩, (congrArg₂ (ix3 (y 0)) hh hd).symm⟩

/-- THE ROW SCATTER READ AT `(n, h, d)`, rank 3: the operand's element plus the sum, over the update rows `e` whose
    scatter index is `n`, of the updates' element `(e, h, d)`. -/
theorem scatter_rows3_apply (x : FVec Ideal ⟨3, ![N, H, D]⟩ .f32) (idx : IVec ⟨2, ![E, 1]⟩ w)
    (u : FVec Ideal ⟨3, ![E, H, D]⟩ .f32) (n : Fin N) (h : Fin H) (d : Fin D) :
    Host.scatterAdd (F := Ideal) (rows3 N E H D wf) x idx u (ix3 n h d)
      = x (ix3 n h d) + ∑ e ∈ Finset.univ.filter (fun e : Fin E => landsOn idx e n), u (ix3 e h d) := by
  show x (ix3 n h d) + _ = _
  exact congrArg (x (ix3 n h d) + ·) (rows3_sum_landing wf idx u n h d)

end R3

end Cert.LibScatterRows

end
-- ==== Proof.RowScatters.lean ====
/-
  THE TWO ROW SCATTERS OF THIS PROGRAM PAIR, READ AT AN INDEX (ideal instance).

  The kernel side sums the 800000 update rows of width 128 into 50000 operand rows; the reference side sums the
  800000 update rows of shape 4 × 32 into 50000 operand rows. Each printed dimension record IS the general row
  scatter's record at those extents (the same four lists, the conditions a proof of the same proposition), so each
  reading is the general one: the operand's element plus the sum, over the update rows whose scatter index is the
  row read, of the updates' element at the same trailing coordinates. Both sides also sum 800000 update rows of
  width 4 into 50000 rows (the same rank-2 record at 4 columns): read the same way.
-/
import proofs.«163383_j64295660421655_1_alg».proof.Proof.LibScatterRows
import proofs.«163383_j64295660421655_1_alg».proof.Proof.Gen.KernelIdeal
import proofs.«163383_j64295660421655_1_alg».proof.Proof.Gen.ReferenceIdeal

noncomputable section

open scoped BigOperators

namespace Cert.LibScatterRows

open Idealize.ShloMosaic Idealize.ShloMosaic.ValueIdx

/-- The kernel side's printed record is the rank-2 row scatter's at 50000 rows, 800000 updates, 128 columns. -/
theorem kernel_scatter_eq :
    Cert.KernelIdeal.scatter_S50000x128_S800000x1_S800000x128_1_0_0_1
      = rows2 50000 800000 128 Cert.KernelIdeal.Facts₀.scatter_S50000x128_S800000x1_S800000x128_1_0_0_1_wf := rfl

/-- The reference side's printed record is the rank-3 row scatter's at 50000 rows, 800000 updates, trailing 4 × 32. -/
theorem reference_scatter_eq :
    Cert.ReferenceIdeal.scatter_S50000x4x32_S800000x1_S800000x4x32_12_0_0_1
      = rows3 50000 800000 4 32 Cert.ReferenceIdeal.Facts₀.scatter_S50000x4x32_S800000x1_S800000x4x32_12_0_0_1_wf := rfl

/-- THE KERNEL SIDE'S ROW SCATTER READ AT `(n, j)`: the operand's element plus the sum, over the update rows `e` whose
    scatter index is `n`, of the updates' element `(e, j)`. -/
theorem kernel_scatter_apply (x : FVec Ideal ⟨2, ![50000, 128]⟩ .f32) (idx : IVec ⟨2, ![800000, 1]⟩ 32)
    (u : FVec Ideal ⟨2, ![800000, 128]⟩ .f32) (n : Fin 50000) (j : Fin 128) :
    Host.scatterAdd Cert.KernelIdeal.scatter_S50000x128_S800000x1_S800000x128_1_0_0_1 x idx u (ix2 n j)
      = x (ix2 n j) + ∑ e ∈ Finset.univ.filter (fun e : Fin 800000 => landsOn idx e n), u (ix2 e j) :=
  scatter_rows2_apply Cert.KernelIdeal.Facts₀.scatter_S50000x128_S800000x1_S800000x128_1_0_0_1_wf x idx u n j

/-- THE REFERENCE SIDE'S ROW SCATTER READ AT `(n, h, d)`: the operand's element plus the sum, over the update rows `e`
    whose scatter index is `n`, of the updates' element `(e, h, d)`. -/
theorem reference_scatter_apply (x : FVec Ideal ⟨3, ![50000, 4, 32]⟩ .f32) (idx : IVec ⟨2, ![800000, 1]⟩ 32)
    (u : FVec Ideal ⟨3, ![800000, 4, 32]⟩ .f32) (n : Fin 50000) (h : Fin 4) (d : Fin 32) :
    Host.scatterAdd Cert.ReferenceIdeal.scatter_S50000x4x32_S800000x1_S800000x4x32_12_0_0_1 x idx u (ix3 n h d)
      = x (ix3 n h d) + ∑ e ∈ Finset.univ.filter (fun e : Fin 800000 => landsOn idx e n), u (ix3 e h d) :=
  scatter_rows3_apply Cert.ReferenceIdeal.Facts₀.scatter_S50000x4x32_S800000x1_S800000x4x32_12_0_0_1_wf x idx u n h d

/-- THE KERNEL SIDE'S NARROW ROW SCATTER (800000 update rows of width 4 into 50000 rows) READ AT `(n, j)`: the
    operand's element plus the sum, over the update rows `e` whose scatter index is `n`, of the updates' element
    `(e, j)`. -/
theorem kernel_scatter4_apply (x : FVec Ideal ⟨2, ![50000, 4]⟩ .f32) (idx : IVec ⟨2, ![800000, 1]⟩ 32)
    (u : FVec Ideal ⟨2, ![800000, 4]⟩ .f32) (n : Fin 50000) (j : Fin 4) :
    Host.scatterAdd Cert.KernelIdeal.scatter_S50000x4_S800000x1_S800000x4_1_0_0_1 x idx u (ix2 n j)
      = x (ix2 n j) + ∑ e ∈ Finset.univ.filter (fun e : Fin 800000 => landsOn idx e n), u (ix2 e j) :=
  scatter_rows2_apply Cert.KernelIdeal.Facts₀.scatter_S50000x4_S800000x1_S800000x4_1_0_0_1_wf x idx u n j

/-- THE REFERENCE SIDE'S NARROW ROW SCATTER (800000 update rows of width 4 into 50000 rows) READ AT `(n, j)`: the
    operand's element plus the sum, over the update rows `e` whose scatter index is `n`, of the updates' element
    `(e, j)`. -/
theorem reference_scatter4_apply (x : FVec Ideal ⟨2, ![50000, 4]⟩ .f32) (idx : IVec ⟨2, ![800000, 1]⟩ 32)
    (u : FVec Ideal ⟨2, ![800000, 4]⟩ .f32) (n : Fin 50000) (j : Fin 4) :
    Host.scatterAdd Cert.ReferenceIdeal.scatter_S50000x4_S800000x1_S800000x4_1_0_0_1 x idx u (ix2 n j)
      = x (ix2 n j) + ∑ e ∈ Finset.univ.filter (fun e : Fin 800000 => landsOn idx e n), u (ix2 e j) :=
  scatter_rows2_apply Cert.ReferenceIdeal.Facts₀.scatter_S50000x4_S800000x1_S800000x4_1_0_0_1_wf x idx u n j

end Cert.LibScatterRows

end
-- ==== Proof.BridgeAgg.lean ====
/-
  THE PER-NODE AGGREGATION, REFERENCE SIDE AGAINST KERNEL SIDE (ideal instance, whole arrays).

  Reference side: the 800000 weighted value rows of shape 4 × 32 are summed, each into the node row its index names,
  into a zero-filled 50000 × 4 × 32 array, which is then re-laid-out as 50000 × 128 (row-major: column `j` of the
  result is position `(j / 32, j % 32)` of the node's 4 × 32 block). Kernel side: the SAME values laid out as
  800000 × 128 (column `32 h + d` holds position `(h, d)`) are summed into a zero-filled 50000 × 128 array at the same
  indices. At node `n`, column `32 h + d`, both are the zero constant plus the sum over the update rows `e` whose
  index is `n` of that row's value at `(h, d)`, resp. at column `32 h + d`: the same sum, term by term.
-/
import proofs.«163383_j64295660421655_1_alg».proof.Proof.RowScatters
import Idealize.ShloMosaic.Lib.Pipeline.Value
import Idealize.ShloMosaic.Lib.ValueIdx

noncomputable section

open scoped BigOperators

namespace Cert.Bridge

open Idealize.ShloMosaic Idealize.ShloMosaic.ValueIdx Cert.LibScatterRows

/-- The reference's aggregation stage as a function of its scatter indices `idxb` and its update rows `u3`: the zero
    constant broadcast to 50000 × 4 × 32, the row scatter of `u3` at `idxb` into it, the result re-laid-out as
    50000 × 128. -/
def refAgg (idxb : IVec Cert.ReferenceIdeal.S800000x1 32) (u3 : FVec Ideal Cert.ReferenceIdeal.S800000x4x32 .f32) :
    FVec Ideal Cert.ReferenceIdeal.S50000x128 .f32 :=
  shapeCast _ (Host.scatterAdd Cert.ReferenceIdeal.scatter_S50000x4x32_S800000x1_S800000x4x32_12_0_0_1
      (broadcastInDim Cert.ReferenceIdeal.S50000x4x32 ![] Cert.ReferenceIdeal.Facts₀.bcast_S_S50000x4x32
        (constant Cert.ReferenceIdeal.S_ .f32 0x00000000#32))
      idxb u3)
    Cert.ReferenceIdeal.Facts₀.shapeCasts_S50000x4x32_S50000x128

/-- The reference side's zero-filled operand reads the zero constant's extended real at every index. -/
theorem refZero_apply (i : Cert.ReferenceIdeal.S50000x4x32.Idx) :
    broadcastInDim Cert.ReferenceIdeal.S50000x4x32 ![] Cert.ReferenceIdeal.Facts₀.bcast_S_S50000x4x32
      (constant (F := Ideal) Cert.ReferenceIdeal.S_ .f32 0x00000000#32) i = Ideal.ofBits .f32 0x00000000#32 :=
  broadcastInDim_apply _ Cert.ReferenceIdeal.Facts₀.bcast_S_S50000x4x32
    (constant (F := Ideal) Cert.ReferenceIdeal.S_ .f32 0x00000000#32) i (fun a => a.elim0) (fun a => a.elim0)

/-- The kernel side's zero-filled operand reads the same extended real at every index. -/
theorem kerZero_apply (i : Cert.KernelIdeal.S50000x128.Idx) :
    broadcastInDim Cert.KernelIdeal.S50000x128 ![] Cert.KernelIdeal.Facts₀.bcast_S_S50000x128
      (constant (F := Ideal) Cert.KernelIdeal.S_ .f32 0x00000000#32) i = Ideal.ofBits .f32 0x00000000#32 :=
  broadcastInDim_apply _ Cert.KernelIdeal.Facts₀.bcast_S_S50000x128
    (constant (F := Ideal) Cert.KernelIdeal.S_ .f32 0x00000000#32) i (fun a => a.elim0) (fun a => a.elim0)

/-- THE REFERENCE'S AGGREGATION READ AT NODE `n`, COLUMN `32 h + d`: the re-layout reads position `(n, h, d)` (the
    same row-major position, `(4 n + h) · 32 + d = 128 n + (32 h + d)`), and the row scatter there is the zero constant
    plus the sum over the update rows whose index is `n` of the row's value at `(h, d)`. -/
theorem refAgg_apply (idxb : IVec Cert.ReferenceIdeal.S800000x1 32) (u3 : FVec Ideal Cert.ReferenceIdeal.S800000x4x32 .f32)
    (n : Fin 50000) (h : Fin 4) (d : Fin 32) :
    refAgg idxb u3 (ix2 n ⟨32 * h.val + d.val, by omega⟩)
      = Ideal.ofBits .f32 0x00000000#32
          + ∑ e ∈ Finset.univ.filter (fun e : Fin 800000 => landsOn idxb e n), u3 (ix3 e h d) := by
  unfold refAgg
  refine (shapeCast_apply _ Cert.ReferenceIdeal.Facts₀.shapeCasts_S50000x4x32_S50000x128
    (ix2 n ⟨32 * h.val + d.val, by omega⟩) (ix3 n h d) ?_).trans ?_
  · rewrite [Shape.rowMajor_val_three, Shape.rowMajor_val_two]
    show (n.val * 4 + h.val) * 32 + d.val = n.val * 128 + (32 * h.val + d.val)
    omega
  · refine (reference_scatter_apply _ idxb u3 n h d).trans ?_
    exact congrArg (· + _) (refZero_apply (ix3 n h d))

/-- THE KERNEL SIDE'S AGGREGATION READ AT NODE `n`, COLUMN `j`: the zero constant plus the sum over the update rows
    whose index is `n` of the row's value at column `j`. -/
theorem kerAgg_apply (idxb : IVec Cert.KernelIdeal.S800000x1 32) (u2 : FVec Ideal Cert.KernelIdeal.S800000x128 .f32)
    (n : Fin 50000) (j : Fin 128) :
    Host.scatterAdd Cert.KernelIdeal.scatter_S50000x128_S800000x1_S800000x128_1_0_0_1
        (broadcastInDim Cert.KernelIdeal.S50000x128 ![] Cert.KernelIdeal.Facts₀.bcast_S_S50000x128
          (constant Cert.KernelIdeal.S_ .f32 0x00000000#32)) idxb u2 (ix2 n j)
      = Ideal.ofBits .f32 0x00000000#32
          + ∑ e ∈ Finset.univ.filter (fun e : Fin 800000 => landsOn idxb e n), u2 (ix2 e j) := by
  refine (kernel_scatter_apply _ idxb u2 n j).trans ?_
  exact congrArg (· + _) (kerZero_apply (ix2 n j))

/-- The two aggregations agree at node `n`, column `32 h + d`, when the two layouts of the update rows hold the same
    values: the two sums run over the same update rows and agree term by term. -/
theorem agg_bridge_apply (idxb : IVec Cert.KernelIdeal.S800000x1 32) (u3 : FVec Ideal Cert.ReferenceIdeal.S800000x4x32 .f32)
    (u2 : FVec Ideal Cert.KernelIdeal.S800000x128 .f32)
    (hu : ∀ (e : Fin 800000) (h : Fin 4) (d : Fin 32), u3 (ix3 e h d) = u2 (ix2 e ⟨32 * h.val + d.val, by omega⟩))
    (n : Fin 50000) (h : Fin 4) (d : Fin 32) :
    refAgg idxb u3 (ix2 n ⟨32 * h.val + d.val, by omega⟩)
      = Host.scatterAdd Cert.KernelIdeal.scatter_S50000x128_S800000x1_S800000x128_1_0_0_1
          (broadcastInDim Cert.KernelIdeal.S50000x128 ![] Cert.KernelIdeal.Facts₀.bcast_S_S50000x128
            (constant Cert.KernelIdeal.S_ .f32 0x00000000#32)) idxb u2 (ix2 n ⟨32 * h.val + d.val, by omega⟩) := by
  refine (refAgg_apply idxb u3 n h d).trans ?_
  refine Eq.trans ?_ (kerAgg_apply idxb u2 n ⟨32 * h.val + d.val, by omega⟩).symm
  exact congrArg (Ideal.ofBits .f32 0x00000000#32 + ·) (Finset.sum_congr rfl (fun e _ => hu e h d))

/-- THE REFERENCE'S AGGREGATION STAGE IS THE KERNEL SIDE'S ROW SCATTER, as whole arrays, when the 4 × 32 layout and the
    128-column layout of the update rows hold the same values (`(h, d)` at column `32 h + d`): every column `j` of a
    node row is `32 (j / 32) + j % 32`. -/
theorem agg_bridge (idxb : IVec Cert.KernelIdeal.S800000x1 32) (u3 : FVec Ideal Cert.ReferenceIdeal.S800000x4x32 .f32)
    (u2 : FVec Ideal Cert.KernelIdeal.S800000x128 .f32)
    (hu : ∀ (e : Fin 800000) (h : Fin 4) (d : Fin 32), u3 (ix3 e h d) = u2 (ix2 e ⟨32 * h.val + d.val, by omega⟩)) :
    refAgg idxb u3
      = Host.scatterAdd Cert.KernelIdeal.scatter_S50000x128_S800000x1_S800000x128_1_0_0_1
          (broadcastInDim Cert.KernelIdeal.S50000x128 ![] Cert.KernelIdeal.Facts₀.bcast_S_S50000x128
            (constant Cert.KernelIdeal.S_ .f32 0x00000000#32)) idxb u2 := by
  funext i
  obtain ⟨n, j, rfl⟩ : ∃ (n : Fin 50000) (j : Fin 128), i = ix2 n j := ⟨i 0, i 1, eq_ix2 i⟩
  obtain ⟨h, d, rfl⟩ : ∃ (h : Fin 4) (d : Fin 32), j = ⟨32 * h.val + d.val, by omega⟩ :=
    ⟨⟨j.val / 32, by omega⟩, ⟨j.val % 32, by omega⟩, Fin.ext (by show j.val = 32 * (j.val / 32) + j.val % 32; omega)⟩
  exact agg_bridge_apply idxb u3 u2 hu n h d

end Cert.Bridge

end
-- ==== Proof.BridgeAggRef.lean ====
/-
  The reference program's aggregation stage IS `refAgg` of its two upstream values: the stage's chain of operations
  (zero constant, its broadcast, the row scatter, the re-layout) is `refAgg`'s, operation for operation, with the
  scatter indices and the update rows as the two arguments.
-/
import proofs.«163383_j64295660421655_1_alg».proof.Proof.RefRead
import proofs.«163383_j64295660421655_1_alg».proof.Proof.BridgeAgg

noncomputable section

namespace Cert.Bridge

open Cert.ReferenceIdeal Idealize.ShloMosaic Idealize.ShloMosaic.TcCoe Idealize.SL.Sem Idealize.ShloMosaic.StableHlo

/-- The reference's re-laid-out per-node sum is `refAgg` at the reference's scatter indices and weighted value rows:
    both sides are the same operations applied to the same operands. -/
theorem val_main_v65_eq (x0 : (⟨S50000x128, .f32⟩ : BufTy).Contents (Elt Ideal))
    (x1 : (⟨S2x800000, .i32⟩ : BufTy).Contents (Elt Ideal)) (x2 : (⟨S800000x3, .f32⟩ : BufTy).Contents (Elt Ideal))
    (x3 x4 x5 : (⟨S128x128, .f32⟩ : BufTy).Contents (Elt Ideal)) (x6 : (⟨S3x4, .f32⟩ : BufTy).Contents (Elt Ideal)) :
    Cert.ReferenceIdeal.ReadP.val_main_v65 (F := Ideal) x0 x1 x2 x3 x4 x5 x6
      = refAgg (Cert.ReferenceIdeal.ReadP.val_main_v63 (F := Ideal) x1)
          (Cert.ReferenceIdeal.ReadP.val_main_v61 (F := Ideal) x0 x1 x2 x3 x4 x5 x6) := rfl

end Cert.Bridge

end
-- ==== Proof.BridgeFinal.lean ====
import proofs.«163383_j64295660421655_1_alg».proof.Proof.Gen.ReferenceIdeal
import proofs.«163383_j64295660421655_1_alg».proof.Proof.Gen.KernelIdeal
import proofs.«163383_j64295660421655_1_alg».proof.Proof.Spec
import Idealize.ShloMosaic.Lib.Pipeline.Value
import Idealize.ShloMosaic.Lib.ValueIdx
import Idealize.ShloMosaic.PureOps.Ideal.Laws

/-!
  The reference's last stretch as one function of whole arrays, and its value: with p = agg · Wo + bo, the stretch is
  max(0, [x | p] · Wm + bm). The sum over the 256 columns of [x | p] against Wm splits into the sum over the first 128
  (x against Wm's top half) plus the sum over the last 128 (p against Wm's bottom half), which is the specification's
  output with Wm's two halves as its two weight matrices.
-/

noncomputable section

namespace Cert.Bridge

open Cert.ReferenceIdeal Cert.ReferenceIdeal.Gen Idealize.ShloMosaic Idealize.ShloMosaic.ValueIdx
open scoped BigOperators

/-! ## The stretch, operation by operation -/

/-- The projected aggregate agg · Wo + bo: a contraction, and a row vector broadcast down the rows, added. -/
def refProj (agg : FVec Ideal S50000x128 .f32) (wo : FVec Ideal S128x128 .f32) (bo : FVec Ideal S128 .f32) :
    FVec Ideal S50000x128 .f32 :=
  addf (Host.dotGeneral dot_S50000x128_S128x128_S50000x128_1_0_0_1_n_n none agg wo)
    (broadcastInDim S50000x128 ![0, 1] bcast_S1x128_S50000x128_0_1 (broadcastInDim S1x128 ![1] bcast_S128_S1x128_1 bo))

/-- The last stretch: [x | p] joined along the columns, contracted with Wm, plus bm, and the maximum with zero. -/
def refFinal (x agg : FVec Ideal S50000x128 .f32) (wo : FVec Ideal S128x128 .f32) (bo : FVec Ideal S128 .f32)
    (wm : FVec Ideal S256x128 .f32) (bm : FVec Ideal S128 .f32) : FVec Ideal S50000x128 .f32 :=
  maximumf
    (addf
      (Host.dotGeneral dot_S50000x256_S256x128_S50000x128_1_0_0_1_n_n none
        (concatenate S50000x256 1 [⟨S50000x128, x⟩, ⟨S50000x128, refProj agg wo bo⟩] concatenates_S50000x128_S50000x128_S50000x256_d1)
        wm)
      (broadcastInDim S50000x128 ![0, 1] bcast_S1x128_S50000x128_0_1 (broadcastInDim S1x128 ![1] bcast_S128_S1x128_1 bm)))
    (broadcastInDim S50000x128 ![] bcast_S_S50000x128 (constant (F := Ideal) S_ .f32 0x00000000#32))

/-! ## The two contractions at an index -/

theorem lhsA_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhsA_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhsA_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhsA_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The [50000 × 128] · [128 × 128] contraction at row n, column j: the sum over k of a[n,k] · w[k,j]. -/
theorem dotA_apply (a : FVec Ideal S50000x128 .f32) (w : FVec Ideal S128x128 .f32) (n : Fin 50000) (j : Fin 128) :
    Host.dotGeneral dot_S50000x128_S128x128_S50000x128_1_0_0_1_n_n none a w (ix2 n j) = ∑ k : Fin 128, a (ix2 n k) * w (ix2 k j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n j) ((contrEquiv1 dot_S50000x128_S128x128_S50000x128_1_0_0_1_n_n 128 rfl rfl).symm k) = ix2 n k := funext fun b => Fin.ext (by
    match b with
    | ⟨0, _⟩ => exact lhsA_0 _ _
    | ⟨1, _⟩ => exact (lhsA_1 _ _).trans hk)
  have er : dot_S50000x128_S128x128_S50000x128_1_0_0_1_n_n.rhsIdx (ix2 n j) ((contrEquiv1 dot_S50000x128_S128x128_S50000x128_1_0_0_1_n_n 128 rfl rfl).symm k) = ix2 k j := funext fun b => Fin.ext (by
    match b with
    | ⟨0, _⟩ => exact (rhsA_0 _ _).trans hk
    | ⟨1, _⟩ => exact rhsA_1 _ _)
  rw [el, er]

theorem lhsB_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem lhsB_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem rhsB_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem rhsB_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- The [50000 × 256] · [256 × 128] contraction at row n, column j: the sum over k of a[n,k] · w[k,j]. -/
theorem dotB_apply (a : FVec Ideal S50000x256 .f32) (w : FVec Ideal S256x128 .f32) (n : Fin 50000) (j : Fin 128) :
    Host.dotGeneral dot_S50000x256_S256x128_S50000x128_1_0_0_1_n_n none a w (ix2 n j) = ∑ k : Fin 256, a (ix2 n k) * w (ix2 k j) := by
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 n j) ((contrEquiv1 dot_S50000x256_S256x128_S50000x128_1_0_0_1_n_n 256 rfl rfl).symm k) = ix2 n k := funext fun b => Fin.ext (by
    match b with
    | ⟨0, _⟩ => exact lhsB_0 _ _
    | ⟨1, _⟩ => exact (lhsB_1 _ _).trans hk)
  have er : dot_S50000x256_S256x128_S50000x128_1_0_0_1_n_n.rhsIdx (ix2 n j) ((contrEquiv1 dot_S50000x256_S256x128_S50000x128_1_0_0_1_n_n 256 rfl rfl).symm k) = ix2 k j := funext fun b => Fin.ext (by
    match b with
    | ⟨0, _⟩ => exact (rhsB_0 _ _).trans hk
    | ⟨1, _⟩ => exact rhsB_1 _ _)
  rw [el, er]

/-! ## The layout operations at an index -/

/-- A vector of 128 laid along the columns of a [50000 × 128] array reads, at (n, j), the vector at j. -/
theorem bcastRow_apply (v : FVec Ideal S128 .f32) (n : Fin 50000) (j : Fin 128) :
    broadcastInDim S50000x128 ![0, 1] bcast_S1x128_S50000x128_0_1 (broadcastInDim S1x128 ![1] bcast_S128_S1x128_1 v) (ix2 n j) = v (ix1 j) := by
  refine (broadcastInDim_apply _ bcast_S1x128_S50000x128_0_1 _ (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])).trans ?_
  exact broadcastInDim_apply _ bcast_S128_S1x128_1 v (ix2 (0 : Fin 1) j) (ix1 j) (fun a => match a with
    | ⟨0, _⟩ => by show j.val = if (128 : Nat) = 1 then 0 else j.val; rw [if_neg (by decide)])

/-- The joined array [a | b] at a column below 128 is a there. -/
theorem cat_left (a b : FVec Ideal S50000x128 .f32) (n : Fin 50000) (k : Fin 128) :
    concatenate S50000x256 1 [⟨S50000x128, a⟩, ⟨S50000x128, b⟩] concatenates_S50000x128_S50000x128_S50000x256_d1
      (ix2 n (⟨k.val, by omega⟩ : Fin 256)) = a (ix2 n k) :=
  concatenate_pair_apply_left 1 a b concatenates_S50000x128_S50000x128_S50000x256_d1 _ rfl (ix2 n k)
    (fun c => match c with | ⟨0, _⟩ => rfl | ⟨1, _⟩ => rfl)

/-- The joined array [a | b] at column 128 + k is b at column k. -/
theorem cat_right (a b : FVec Ideal S50000x128 .f32) (n : Fin 50000) (k : Fin 128) :
    concatenate S50000x256 1 [⟨S50000x128, a⟩, ⟨S50000x128, b⟩] concatenates_S50000x128_S50000x128_S50000x256_d1
      (ix2 n (⟨128 + k.val, by omega⟩ : Fin 256)) = b (ix2 n k) :=
  concatenate_pair_apply_right 1 a b concatenates_S50000x128_S50000x128_S50000x256_d1 _ rfl rfl (ix2 n k)
    (fun c => match c with | ⟨0, _⟩ => fun _ => rfl | ⟨1, _⟩ => fun hc => absurd rfl hc)
    (by show k.val + 128 = 128 + k.val; omega)

/-- Wm's top half at (k, j) is Wm at (k, j). -/
theorem top_apply (wm : FVec Ideal S256x128 .f32) (k j : Fin 128) :
    extractStridedSlice Cert.KernelIdeal.S128x128 ![0, 0] wm Cert.KernelIdeal.Facts₀.slices_S256x128_S128x128_0_0 (ix2 k j)
      = wm (ix2 (⟨k.val, by omega⟩ : Fin 256) j) :=
  extractStridedSlice_apply ![0, 0] wm _ (ix2 k j) (ix2 (⟨k.val, by omega⟩ : Fin 256) j) (fun a => match a with
    | ⟨0, _⟩ => by show k.val = 0 + k.val; omega
    | ⟨1, _⟩ => by show j.val = 0 + j.val; omega)

/-- Wm's bottom half at (k, j) is Wm at (128 + k, j). -/
theorem bot_apply (wm : FVec Ideal S256x128 .f32) (k j : Fin 128) :
    extractStridedSlice Cert.KernelIdeal.S128x128 ![128, 0] wm Cert.KernelIdeal.Facts₀.slices_S256x128_S128x128_128_0 (ix2 k j)
      = wm (ix2 (⟨128 + k.val, by omega⟩ : Fin 256) j) :=
  extractStridedSlice_apply ![128, 0] wm _ (ix2 k j) (ix2 (⟨128 + k.val, by omega⟩ : Fin 256) j) (fun a => match a with
    | ⟨0, _⟩ => by show 128 + k.val = 128 + k.val; rfl
    | ⟨1, _⟩ => by show j.val = 0 + j.val; omega)

/-- A sum over 256 columns is the sum over the first 128 plus the sum over the last 128. -/
theorem sum_256 {M : Type} [AddCommMonoid M] (f : Fin 256 → M) :
    ∑ k : Fin 256, f k = (∑ k : Fin 128, f ⟨k.val, by omega⟩) + ∑ k : Fin 128, f ⟨128 + k.val, by omega⟩ :=
  Fin.sum_univ_add (a := 128) (b := 128) f

/-! ## The stretch at an index -/

/-- The projected aggregate at row n, column j is the specification's. -/
theorem refProj_apply (agg : FVec Ideal S50000x128 .f32) (wo : FVec Ideal S128x128 .f32) (bo : FVec Ideal S128 .f32)
    (n : Fin 50000) (j : Fin 128) : refProj agg wo bo (ix2 n j) = Cert.Spec.projAt agg wo bo n j := by
  show Host.dotGeneral dot_S50000x128_S128x128_S50000x128_1_0_0_1_n_n none agg wo (ix2 n j)
      + broadcastInDim S50000x128 ![0, 1] bcast_S1x128_S50000x128_0_1 (broadcastInDim S1x128 ![1] bcast_S128_S1x128_1 bo) (ix2 n j) = _
  rw [dotA_apply, bcastRow_apply]
  rfl

/-- The stretch at row n, column j is the specification's output there, with Wm's two halves as the two weight
    matrices: the sum over the 256 joined columns splits at column 128. -/
theorem refFinal_apply (x agg : FVec Ideal S50000x128 .f32) (wo : FVec Ideal S128x128 .f32) (bo : FVec Ideal S128 .f32)
    (wm : FVec Ideal S256x128 .f32) (bm : FVec Ideal S128 .f32) (n : Fin 50000) (j : Fin 128) :
    refFinal x agg wo bo wm bm (ix2 n j)
      = Cert.Spec.finalAt x agg wo bo
          (extractStridedSlice Cert.KernelIdeal.S128x128 ![0, 0] wm Cert.KernelIdeal.Facts₀.slices_S256x128_S128x128_0_0)
          (extractStridedSlice Cert.KernelIdeal.S128x128 ![128, 0] wm Cert.KernelIdeal.Facts₀.slices_S256x128_S128x128_128_0)
          bm n j := by
  show max (Host.dotGeneral dot_S50000x256_S256x128_S50000x128_1_0_0_1_n_n none
        (concatenate S50000x256 1 [⟨S50000x128, x⟩, ⟨S50000x128, refProj agg wo bo⟩] concatenates_S50000x128_S50000x128_S50000x256_d1)
        wm (ix2 n j)
      + broadcastInDim S50000x128 ![0, 1] bcast_S1x128_S50000x128_0_1 (broadcastInDim S1x128 ![1] bcast_S128_S1x128_1 bm) (ix2 n j))
      (Ideal.ofBits .f32 0x00000000#32) = _
  rw [dotB_apply, bcastRow_apply, sum_256]
  unfold Cert.Spec.finalAt
  refine congrArg (fun s => max (s + bm (ix1 j)) Cert.Spec.zeroW) ?_
  refine congrArg₂ (· + ·) (Finset.sum_congr rfl fun k _ => ?_) (Finset.sum_congr rfl fun k _ => ?_)
  · exact congrArg₂ (· * ·) (cat_left x _ n k) (top_apply wm k j).symm
  · exact congrArg₂ (· * ·) ((cat_right x _ n k).trans (refProj_apply agg wo bo n k)) (bot_apply wm k j).symm

/-- The reference's last stretch is the specification's output function, with Wm cut into its top and bottom halves. -/
theorem final_bridge (x agg : FVec Ideal S50000x128 .f32) (wo : FVec Ideal S128x128 .f32) (bo : FVec Ideal S128 .f32)
    (wm : FVec Ideal S256x128 .f32) (bm : FVec Ideal S128 .f32) :
    refFinal x agg wo bo wm bm
      = Cert.Spec.finalSpec x agg wo bo
          (extractStridedSlice Cert.KernelIdeal.S128x128 ![0, 0] wm Cert.KernelIdeal.Facts₀.slices_S256x128_S128x128_0_0)
          (extractStridedSlice Cert.KernelIdeal.S128x128 ![128, 0] wm Cert.KernelIdeal.Facts₀.slices_S256x128_S128x128_128_0)
          bm := by
  funext i
  obtain ⟨n, j, rfl⟩ : ∃ (n : Fin 50000) (j : Fin 128), i = ix2 n j := ⟨i 0, i 1, eq_ix2 i⟩
  exact refFinal_apply x agg wo bo wm bm n j

end Cert.Bridge

end
-- ==== Proof.BridgeFinalRef.lean ====
import proofs.«163383_j64295660421655_1_alg».proof.Proof.RefRead
import proofs.«163383_j64295660421655_1_alg».proof.Proof.BridgeFinal

/-!
  The reference's final value is its last stretch applied to the value the stretch starts from (the aggregate,
  reshaped to 50000 × 128): the stretch's operations are the program's own, in order.
-/

noncomputable section

namespace Cert.Bridge

open Cert.ReferenceIdeal Idealize.ShloMosaic

/-- The reference's output is the last stretch of the aggregate. -/
theorem val_main_v75_eq (x0 : (⟨S50000x128, .f32⟩ : BufTy).Contents (Elt Ideal)) (x1 : (⟨S2x800000, .i32⟩ : BufTy).Contents (Elt Ideal)) (x2 : (⟨S800000x3, .f32⟩ : BufTy).Contents (Elt Ideal))
    (x3 x4 x5 : (⟨S128x128, .f32⟩ : BufTy).Contents (Elt Ideal)) (x6 : (⟨S3x4, .f32⟩ : BufTy).Contents (Elt Ideal)) (x7 : (⟨S128x128, .f32⟩ : BufTy).Contents (Elt Ideal))
    (x8 : (⟨S128, .f32⟩ : BufTy).Contents (Elt Ideal)) (x9 : (⟨S256x128, .f32⟩ : BufTy).Contents (Elt Ideal)) (x10 : (⟨S128, .f32⟩ : BufTy).Contents (Elt Ideal)) :
    Cert.ReferenceIdeal.ReadP.val_main_v75 (F := Ideal) x0 x1 x2 x3 x4 x5 x6 x7 x8 x9 x10
      = refFinal x0 (Cert.ReferenceIdeal.ReadP.val_main_v65 (F := Ideal) x0 x1 x2 x3 x4 x5 x6) x7 x8 x9 x10 := rfl

end Cert.Bridge

end
-- ==== Proof.Bridge.lean ====
import proofs.«163383_j64295660421655_1_alg».proof.Proof.KStages
import proofs.«163383_j64295660421655_1_alg».proof.Proof.HeadTable
import proofs.«163383_j64295660421655_1_alg».proof.Proof.RefRead
import proofs.«163383_j64295660421655_1_alg».proof.Proof.BridgeQKVRef
import proofs.«163383_j64295660421655_1_alg».proof.Proof.BridgeLogitsRef
import proofs.«163383_j64295660421655_1_alg».proof.Proof.BridgeWeightedRef
import proofs.«163383_j64295660421655_1_alg».proof.Proof.BridgeAggRef
import proofs.«163383_j64295660421655_1_alg».proof.Proof.BridgeFinalRef

/-!
  The two programs compute ONE function of @main's arguments at the ideal instance.

  Stage by stage: the three projections are the column blocks of x · [Wq | Wk | Wv]; the logits sum, over a head's 32
  columns, what the grouping table's 0/1 column picks out of all 128; the softmax stretch is the same operations on
  both sides; the weighted values agree column by column (column 32h + d of the flat layout is entry (h, d) of the
  head layout); the per-node aggregation adds the same edges' values at the same place; and the last stretch splits
  the 256-column product into its two halves. No step needs the inputs to be finite.
-/

set_option maxRecDepth 16384

noncomputable section

namespace Cert.Bridge

open Idealize.ShloMosaic Idealize.ShloMosaic.ValueIdx Cert.KernelIdeal Cert.KernelIdeal.Hand
open Cert.ReferenceIdeal.ReadP

variable (x0 : FVec Ideal S50000x128 .f32) (x1 : IVec S2x800000 32) (x2 : FVec Ideal S800000x3 .f32)
  (x3 x4 x5 : FVec Ideal S128x128 .f32) (x6 : FVec Ideal S3x4 .f32) (x7 : FVec Ideal S128x128 .f32) (x8 : FVec Ideal S128 .f32)
  (x9 : FVec Ideal S256x128 .f32) (x10 : FVec Ideal S128 .f32)

/-! ## The index vectors and the edge bias are the same host operations on both sides -/

theorem idx_dst_rows : val_main_v16 (F := Ideal) x1 = rowIdx (dstOf x1) := rfl
theorem idx_src_rows : val_main_v23 (F := Ideal) x1 = rowIdx (srcOf x1) := rfl
theorem idx_src_rows' : val_main_v57 (F := Ideal) x1 = rowIdx (srcOf x1) := rfl
theorem idx_dst_raw : val_main_v63 (F := Ideal) x1 = rawIdx (dstOf x1) := rfl
theorem dst_eq : val_main_v3 (F := Ideal) x1 = dstOf x1 := rfl
theorem bias_eq : val_main_v10 (F := Ideal) x2 x6 = edgeBias x2 x6 := rfl

/-! ## The projections -/

theorem colsQ_eq : colsQ (Cert.Spec.qkvSpec x0 (Hand.wcat x3 x4 x5)) = val_main_v4 (F := Ideal) x0 x3 := qkv_stage_q x0 x3 x4 x5
theorem colsK_eq : colsK (Cert.Spec.qkvSpec x0 (Hand.wcat x3 x4 x5)) = val_main_v6 (F := Ideal) x0 x4 := qkv_stage_k x0 x3 x4 x5
theorem colsV_eq : colsV (Cert.Spec.qkvSpec x0 (Hand.wcat x3 x4 x5)) = val_main_v8 (F := Ideal) x0 x5 := qkv_stage_v x0 x3 x4 x5

/-! ## The logits -/

theorem logits_eq :
    Cert.Spec.attnSpec (gatherRows (colsQ (Cert.Spec.qkvSpec x0 (Hand.wcat x3 x4 x5))) (rowIdx (dstOf x1)))
      (gatherRows (colsK (Cert.Spec.qkvSpec x0 (Hand.wcat x3 x4 x5))) (rowIdx (srcOf x1))) (edgeBias x2 x6) (headTable (F := Ideal))
    = val_main_v34 (F := Ideal) x0 x1 x2 x3 x4 x6 := by
  rw [colsQ_eq, colsK_eq, headTable_eq, val_main_v34_eq, logits_bridge, idx_dst_rows, idx_src_rows, bias_eq]
  rfl

/-! ## The softmax stretch: the same operations -/

theorem chain_eq : val_main_v51 (F := Ideal) x0 x1 x2 x3 x4 x6 = softmaxChain (F := Ideal) (val_main_v34 (F := Ideal) x0 x1 x2 x3 x4 x6) (dstOf x1) := rfl

/-! ## The weighted values, entry by entry -/

theorem weighted_eq (e : Fin 800000) (h : Fin 4) (d : Fin 32) :
    val_main_v61 (F := Ideal) x0 x1 x2 x3 x4 x5 x6 (ix3 e h d)
    = Cert.Spec.weightedSpec (gatherRows (colsV (Cert.Spec.qkvSpec x0 (Hand.wcat x3 x4 x5))) (rowIdx (srcOf x1)))
        (softmaxChain
          (Cert.Spec.attnSpec (gatherRows (colsQ (Cert.Spec.qkvSpec x0 (Hand.wcat x3 x4 x5))) (rowIdx (dstOf x1)))
            (gatherRows (colsK (Cert.Spec.qkvSpec x0 (Hand.wcat x3 x4 x5))) (rowIdx (srcOf x1))) (edgeBias x2 x6) (headTable (F := Ideal)))
          (dstOf x1))
        (headTableT (F := Ideal)) (ix2 e ⟨32 * h.val + d.val, by have := h.isLt; have := d.isLt; omega⟩) := by
  rw [logits_eq, ← chain_eq, colsV_eq, headTableT_eq, val_main_v61_eq, weighted_bridge, idx_src_rows']
  rfl

/-! ## The whole -/

/-- The kernel program's result and the reference's are one function of the arguments. -/
theorem kernelOut_eq_ref :
    kernelOut x0 x1 x2 x3 x4 x5 x6 x7 x8 x9 x10 = val_main_v75 (F := Ideal) x0 x1 x2 x3 x4 x5 x6 x7 x8 x9 x10 := by
  have hagg : aggregate
      (Cert.Spec.weightedSpec (gatherRows (colsV (Cert.Spec.qkvSpec x0 (Hand.wcat x3 x4 x5))) (rowIdx (srcOf x1)))
        (softmaxChain
          (Cert.Spec.attnSpec (gatherRows (colsQ (Cert.Spec.qkvSpec x0 (Hand.wcat x3 x4 x5))) (rowIdx (dstOf x1)))
            (gatherRows (colsK (Cert.Spec.qkvSpec x0 (Hand.wcat x3 x4 x5))) (rowIdx (srcOf x1))) (edgeBias x2 x6) (headTable (F := Ideal)))
          (dstOf x1))
        (headTableT (F := Ideal))) (dstOf x1)
      = val_main_v65 (F := Ideal) x0 x1 x2 x3 x4 x5 x6 := by
    rw [val_main_v65_eq, agg_bridge _ _ _ (weighted_eq x0 x1 x2 x3 x4 x5 x6), idx_dst_raw]
    rfl
  rw [val_main_v75_eq, final_bridge, ← hagg]
  rfl

end Cert.Bridge

end
-- ==== Proof.lean ====
/-
  The certificate of an edge-attention graph convolution: a Pallas program of four kernels (the joint projection
  x · [Wq | Wk | Wv]; the per-edge attention logits; the attention-weighted value rows; the output layer), with the
  gathers, the softmax over each node's incoming edges and the per-node sums left to the host, against its jnp
  reference.

  The three frames. Each kernel program is ten items — host stretches and four pipelined regions — run as segments
  over one thread state per core; one launch shows that every weakly fair execution terminates without a fault and
  leaves EVERY unscoped buffer at the last boundary's contents, of which "each argument as launched" is one reading
  (`Whole.lean` at the ideal instance, its word-level twin for the printed program). The reference is host
  operations only: its run is read back operation by operation (`RefRunHand.lean`).

  The idealization rewrote nothing, so `preserves` asks nothing.

  The equivalence over the extended reals. The same launch names the kernel program's result: the output region's
  array, which is `kernelOut` of the arguments (`KernelValue.lean`: each region's array is its whole-array function
  of what it was entered with, `Val0.lean` … `Val3.lean`; each of those is a host function of earlier buffers).
  The reference's result is its operations' composed term of the arguments. The two are one function
  (`Bridge.lean`): sums over all 128 columns against a 0/1 grouping table are sums over a head's 32 columns, a
  product with the joined weight matrix is three products, a 256-column product is the sum of its two halves, and a
  per-node sum of rows is the same sum whether a row is laid out flat or by heads. None of it needs finite inputs.
-/
import proofs.«163383_j64295660421655_1_alg».proof.Defs
import proofs.«163383_j64295660421655_1_alg».proof.Proof.Gen.Kernel
import proofs.«163383_j64295660421655_1_alg».proof.Proof.Gen.KernelIdeal
import proofs.«163383_j64295660421655_1_alg».proof.Proof.Gen.ReferenceIdeal
import proofs.«163383_j64295660421655_1_alg».proof.Proof.Gen.Pre_finite_inputs
import proofs.«163383_j64295660421655_1_alg».proof.Proof.KWhole
import proofs.«163383_j64295660421655_1_alg».proof.Proof.Whole
import proofs.«163383_j64295660421655_1_alg».proof.Proof.KernelValue
import proofs.«163383_j64295660421655_1_alg».proof.Proof.RefRunHand
import proofs.«163383_j64295660421655_1_alg».proof.Proof.Bridge
import Idealize.ShloMosaic.Adequacy
import Idealize.ShloMosaic.Init

noncomputable section

namespace Cert.Proof

open Idealize.ShloMosaic Idealize.SL.Sem

/-- The printed program's frame: the launch of `KWhole.lean` read at the arguments. -/
theorem frame_kernel : Cert.frame_Kernel := fun m ρ _ => Cert.Kernel.Hand.frame m ρ

/-- The idealized program's frame: the same launch at the ideal instance. -/
theorem frame_kernelIdeal : Cert.frame_KernelIdeal := fun m ρ _ => Cert.KernelIdeal.Hand.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- Both programs end with the result buffer at `kernelOut` of the (agreeing) arguments. -/
theorem algebraic : Cert.algebraic_KernelIdeal_ReferenceIdeal := by
  intro m ρ m' ρ' _ hagree
  refine ⟨fun c => Cert.KernelIdeal.Hand.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.kernel_value m c), (h c).2⟩)
      (Cert.KernelIdeal.Hand.run_result m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]
    exact (Cert.Bridge.kernelOut_eq_ref _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
